-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v80) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part3 {F : FTy → Type} [FloatOps F] (main_arg1 : IVec S2x1600000 32) (main_v48 : IVec S_ 1) (main_v50 : IVec S2x1600000 1) : IVec S_ 1 :=
  let main_c_19 : IVec S_ 1 := constantI S_ 1 1#1
  let main_v51 : IVec S_ 1 := (fun x v => Host.reduce IntOp.andi x v reducesTo_S2x1600000_S_d0_1 h_S_) main_v50 main_c_19
  let main_v52 : IVec S_ 1 := andi main_v48 main_v51
  let main_c_20 : IVec S_ 32 := constantI S_ 32 100000#32
  let main_v53 : IVec S2x1600000 32 := broadcastInDim S2x1600000 ![] bcast_S_S2x1600000 main_c_20
  let main_v54 : IVec S2x1600000 1 := cmpi .slt main_arg1 main_v53
  let main_c_21 : IVec S_ 1 := constantI S_ 1 1#1
  let main_v55 : IVec S_ 1 := (fun x v => Host.reduce IntOp.andi x v reducesTo_S2x1600000_S_d0_1 h_S_) main_v54 main_c_21
  let main_v56 : IVec S_ 1 := andi main_v52 main_v55
  main_v56

def fn_part2 {F : FTy → Type} [FloatOps F] (main_arg1 : IVec S2x1600000 32) (main_arg9 : FVec F S1 .f32) (main_arg10 : FVec F S64x1 .f32) (main_arg11 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S64x1 .f32 := Host.absf main_arg10
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_c_18 : IVec S_ 32 := constantI S_ 32 0#32
  let main_v49 : IVec S2x1600000 32 := broadcastInDim S2x1600000 ![] bcast_S_S2x1600000 main_c_18
  let main_v50 : IVec S2x1600000 1 := cmpi .sge main_arg1 main_v49
  fn_part3 (F := F) main_arg1 main_v48 main_v50

def fn_part1 {F : FTy → Type} [FloatOps F] (main_arg1 : IVec S2x1600000 32) (main_arg6 : FVec F S64x64 .f32) (main_arg7 : FVec F S64 .f32) (main_arg8 : FVec F S64x1 .f32) (main_arg9 : FVec F S1 .f32) (main_arg10 : FVec F S64x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg8
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg1 main_arg9 main_arg10 main_arg11 main_v33

def fn {F : FTy → Type} [FloatOps F] (main_arg0 : FVec F S100000x128 .f32) (main_arg1 : IVec S2x1600000 32) (main_arg2 : FVec F S1600000 .f32) (main_arg3 : IVec S100000 32) (main_arg4 : FVec F S128x64 .f32) (main_arg5 : FVec F S64 .f32) (main_arg6 : FVec F S64x64 .f32) (main_arg7 : FVec F S64 .f32) (main_arg8 : FVec F S64x1 .f32) (main_arg9 : FVec F S1 .f32) (main_arg10 : FVec F S64x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S100000x1 : Shape := ⟨2, ![100000, 1]⟩
abbrev S1x64 : Shape := ⟨2, ![1, 64]⟩
abbrev S5000x1 : Shape := ⟨2, ![5000, 1]⟩
abbrev S1x1 : Shape := ⟨2, ![1, 1]⟩

abbrev nBuf : Space → Nat
  | .hbm => 113
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S64x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S1600000, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000, .f32⟩
  | .hbm, ⟨51, _⟩ => ⟨S1600000, .f32⟩
  | .hbm, ⟨52, _⟩ => ⟨S100000x64, .bf16⟩
  | .hbm, ⟨53, _⟩ => ⟨S1600000x1, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .bf16⟩
  | .hbm, ⟨63, _⟩ => ⟨S1600000x64, .f32⟩
  | .hbm, ⟨64, _⟩ => ⟨S1600000x64, .f32⟩
  | .hbm, ⟨65, _⟩ => ⟨S1600000x64, .f32⟩
  | .hbm, ⟨66, _⟩ => ⟨S_, .f32⟩
  | .hbm, ⟨67, _⟩ => ⟨S100000x64, .f32⟩
  | .hbm, ⟨68, _⟩ => ⟨S1600000x1, .i32⟩
  | .hbm, ⟨69, _⟩ => ⟨S100000x64, .f32⟩
  | .hbm, ⟨70, _⟩ => ⟨S100000x1, .f32⟩
  | .hbm, ⟨71, _⟩ => ⟨S1x64, .f32⟩
  | .hbm, ⟨72, _⟩ => ⟨S100000x64, .bf16⟩
  | .hbm, ⟨73, _⟩ => ⟨S1600000x1, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x64, .bf16⟩
  | .hbm, ⟨83, _⟩ => ⟨S1600000x64, .f32⟩
  | .hbm, ⟨84, _⟩ => ⟨S1600000x64, .f32⟩
  | .hbm, ⟨85, _⟩ => ⟨S1600000x64, .f32⟩
  | .hbm, ⟨86, _⟩ => ⟨S_, .f32⟩
  | .hbm, ⟨87, _⟩ => ⟨S100000x64, .f32⟩
  | .hbm, ⟨88, _⟩ => ⟨S1600000x1, .i32⟩
  | .hbm, ⟨89, _⟩ => ⟨S100000x64, .f32⟩
  | .hbm, ⟨90, _⟩ => ⟨S100000x1, .f32⟩
  | .hbm, ⟨91, _⟩ => ⟨S1x64, .f32⟩
  | .hbm, ⟨92, _⟩ => ⟨S1x1, .f32⟩
  | .hbm, ⟨93, _⟩ => ⟨S100000x1, .i32⟩
  | .hbm, ⟨94, _⟩ => ⟨S100000x1, .f32⟩
  | .hbm, ⟨95, _⟩ => ⟨S64x64, .f32⟩
  | .hbm, ⟨96, _⟩ => ⟨S100000, .f32⟩
  | .hbm, ⟨97, _⟩ => ⟨S_, .f32⟩
  | .hbm, ⟨98, _⟩ => ⟨S100000, .f32⟩
  | .hbm, ⟨99, _⟩ => ⟨S_, .f32⟩
  | .hbm, ⟨100, _⟩ => ⟨S64, .f32⟩
  | .hbm, ⟨101, _⟩ => ⟨S100000x1, .i32⟩
  | .hbm, ⟨102, _⟩ => ⟨S64, .f32⟩
  | .hbm, ⟨103, _⟩ => ⟨S_, .f32⟩
  | .hbm, ⟨104, _⟩ => ⟨S64, .f32⟩
  | .hbm, ⟨105, _⟩ => ⟨S64, .f32⟩
  | .hbm, ⟨106, _⟩ => ⟨S64x1, .f32⟩
  | .hbm, ⟨107, _⟩ => ⟨S64x64, .f32⟩
  | .hbm, ⟨108, _⟩ => ⟨S64x64, .f32⟩
  | .hbm, ⟨109, _⟩ => ⟨S64x1, .f32⟩
  | .hbm, ⟨110, _⟩ => ⟨S1x1, .f32⟩
  | .hbm, ⟨111, _⟩ => ⟨S64x1, .f32⟩
  | .hbm, ⟨112, _⟩ => ⟨S64x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .bf16⟩
  | .local _ .vmem, ⟨4, _⟩ => ⟨S5000x64, .bf16⟩
  | .local _ .vmem, ⟨5, _⟩ => ⟨S5000x64, .f32⟩
  | .local _ .vmem, ⟨6, _⟩ => ⟨S5000x64, .f32⟩
  | .local _ .vmem, ⟨7, _⟩ => ⟨S5000x64, .bf16⟩
  | .local _ .vmem, ⟨8, _⟩ => ⟨S5000x64, .bf16⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .f32⟩
  | .local _ .vmem, ⟨13, _⟩ => ⟨S5000x64, .bf16⟩
  | .local _ .vmem, ⟨14, _⟩ => ⟨S5000x64, .bf16⟩
  | .local _ .vmem, ⟨15, _⟩ => ⟨S5000x64, .f32⟩
  | .local _ .vmem, ⟨16, _⟩ => ⟨S5000x64, .f32⟩
  | .local _ .vmem, ⟨17, _⟩ => ⟨S5000x64, .bf16⟩
  | .local _ .vmem, ⟨18, _⟩ => ⟨S5000x64, .bf16⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S64x1, .f32⟩
  | .local _ .vmem, ⟨23, _⟩ => ⟨S1x1, .f32⟩
  | .local _ .vmem, ⟨24, _⟩ => ⟨S5000x1, .i32⟩
  | .local _ .vmem, ⟨25, _⟩ => ⟨S5000x1, .i32⟩
  | .local _ .vmem, ⟨26, _⟩ => ⟨S5000x1, .f32⟩
  | .local _ .vmem, ⟨27, _⟩ => ⟨S5000x1, .f32⟩
  | .local _ .vmem, ⟨28, _⟩ => ⟨S64x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66_0 : Ref sig .tc := ⟨.hbm, 94, rfl⟩
abbrev main_v66_1 : Ref sig .tc := ⟨.hbm, 95, rfl⟩
abbrev main_v67 : Ref sig .tc := ⟨.hbm, 96, rfl⟩
abbrev main_cst_12 : Ref sig .tc := ⟨.hbm, 97, rfl⟩
abbrev main_v68 : Ref sig .tc := ⟨.hbm, 98, rfl⟩
abbrev main_cst_13 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_14 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc2_stg8_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc2_sem7_0 : DmaSem sig := 26
abbrev cc2_sem7_1 : DmaSem sig := 27
abbrev cc2_sem8_0 : DmaSem sig := 28

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x1 .i32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  iota_S1x64_d1_w32 : S1x64.Iotas .tc 32 [1]
  natLt_1_32 : 1 < 32
  shapeCasts_S64x64_S64x64 : S64x64.ShapeCasts S64x64
  shapeCasts_S100000x1_S100000 : S100000x1.ShapeCasts S100000
  bcast_S_S64 : S_.BroadcastsInDim S64 (![] : Fin 0 → Fin S64.rank)
  bcast_S100000_S100000x1_0 : S100000.BroadcastsInDim S100000x1 (![0] : Fin 1 → Fin S100000x1.rank)
  shapeCasts_S64_S64x1 : S64.ShapeCasts S64x1
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  dot_S5000x64_S5000x64_S64x64_0_0_1_1_n_n_wf : DotDims.WF S5000x64 S5000x64 S64x64 [0] [0] [1] [1] [] []
  scatter_S64_S100000x1_S100000_n_0_0_1_wf : ScatterDims.WF S64 S100000x1 S100000 [] [0] [0] 1
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .bf16 = 32 ∨ (Rect.block (s := S100000x64) S5000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .bf16 = 32 ∨ (Rect.block (s := S100000x64) S5000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .bf16 = 32 ∨ (Rect.block (s := S100000x64) S5000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .bf16 = 32 ∨ (Rect.block (s := S100000x64) S5000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x1.size a ≤ S64x1.size a
  hwx2_4 : ∀ i : grid2.Coords, EltTy.bits .f32 = 32 ∨ (Rect.block (s := S64x1) S64x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x1.size a ≤ S100000x1.size a
  hwx2_6 : ∀ i : grid2.Coords, EltTy.bits .i32 = 32 ∨ (Rect.block (s := S100000x1) S5000x1.size (cc2_transform_6 i) (hinb2_6 i)).WholeWords (EltTy.packing .i32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x1.size a ≤ S100000x1.size a
  hwx2_7 : ∀ i : grid2.Coords, EltTy.bits .f32 = 32 ∨ (Rect.block (s := S100000x1) S5000x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v61) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S64x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v65) S5000x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v66_0) S5000x1.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v66_1) S64x64.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S1x1 : Shape := ⟨2, ![1, 1]⟩

abbrev nBuf : Space → Nat
  | .hbm => 182
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S100000, .i32⟩
  | 4 => ⟨S128x64, .f32⟩
  | 5 => ⟨S64, .f32⟩
  | 6 => ⟨S64x64, .f32⟩
  | 7 => ⟨S64, .f32⟩
  | 8 => ⟨S64x1, .f32⟩
  | 9 => ⟨S1, .f32⟩
  | 10 => ⟨S64x1, .f32⟩
  | 11 => ⟨S1, .f32⟩
  | 12 => ⟨S1x1600000, .i32⟩
  | 13 => ⟨S1600000, .i32⟩
  | 14 => ⟨S1x1600000, .i32⟩
  | 15 => ⟨S1600000, .i32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S1600000, .f32⟩
  | 52 => ⟨S100000x64, .f32⟩
  | 53 => ⟨S_, .f32⟩
  | 54 => ⟨S100000x64, .f32⟩
  | 55 => ⟨S1600000x1, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x64, .f32⟩
  | 65 => ⟨S1600000x64, .f32⟩
  | 66 => ⟨S1600000x64, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S100000x64, .f32⟩
  | 76 => ⟨S100000, .f32⟩
  | 77 => ⟨S100000x1, .f32⟩
  | 78 => ⟨S100000x64, .f32⟩
  | 79 => ⟨S100000x64, .f32⟩
  | 80 => ⟨S100000x64, .f32⟩
  | 81 => ⟨S1x64, .f32⟩
  | 82 => ⟨S100000x64, .f32⟩
  | 83 => ⟨S100000x64, .f32⟩
  | 84 => ⟨S_, .f32⟩
  | 85 => ⟨S100000x64, .f32⟩
  | 86 => ⟨S100000x64, .f32⟩
  | 87 => ⟨S_, .f32⟩
  | 88 => ⟨S100000, .f32⟩
  | 89 => ⟨S1600000x1, .i32⟩
  | 90 => ⟨S100000, .f32⟩
  | 91 => ⟨S_, .f32⟩
  | 92 => ⟨S100000, .f32⟩
  | 93 => ⟨S100000, .f32⟩
  | 94 => ⟨S_, .f32⟩
  | 95 => ⟨S100000, .f32⟩
  | 96 => ⟨S100000, .i1⟩
  | 97 => ⟨S100000, .f32⟩
  | 98 => ⟨S_, .f32⟩
  | 99 => ⟨S_, .f32⟩
  | 100 => ⟨S100000, .f32⟩
  | 101 => ⟨S100000, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000, .f32⟩
  | 111 => ⟨S1600000, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000, .f32⟩
  | 121 => ⟨S1600000, .f32⟩
  | 122 => ⟨S100000x64, .f32⟩
  | 123 => ⟨S_, .f32⟩
  | 124 => ⟨S100000x64, .f32⟩
  | 125 => ⟨S1600000x1, .f32⟩
  | 126 => ⟨S_, .i32⟩
  | 127 => ⟨S1600000, .i32⟩
  | _ => ⟨S100000x128, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x64, .f32⟩
  | 7 => ⟨S1600000x64, .f32⟩
  | 8 => ⟨S1600000x64, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S100000x64, .f32⟩
  | 18 => ⟨S100000, .f32⟩
  | 19 => ⟨S100000x1, .f32⟩
  | 20 => ⟨S100000x64, .f32⟩
  | 21 => ⟨S100000x64, .f32⟩
  | 22 => ⟨S100000x64, .f32⟩
  | 23 => ⟨S1x64, .f32⟩
  | 24 => ⟨S100000x64, .f32⟩
  | 25 => ⟨S100000x64, .f32⟩
  | 26 => ⟨S_, .f32⟩
  | 27 => ⟨S100000x64, .f32⟩
  | 28 => ⟨S100000x64, .f32⟩
  | 29 => ⟨S100000x1, .f32⟩
  | 30 => ⟨S1x1, .f32⟩
  | 31 => ⟨S100000x1, .f32⟩
  | 32 => ⟨S100000x1, .f32⟩
  | 33 => ⟨S100000, .f32⟩
  | 34 => ⟨S_, .f32⟩
  | 35 => ⟨S64x64, .f32⟩
  | 36 => ⟨S100000x1, .i32⟩
  | 37 => ⟨S64x64, .f32⟩
  | 38 => ⟨S_, .f32⟩
  | 39 => ⟨S100000, .f32⟩
  | 40 => ⟨S_, .f32⟩
  | 41 => ⟨S64, .f32⟩
  | 42 => ⟨S100000x1, .i32⟩
  | 43 => ⟨S64, .f32⟩
  | 44 => ⟨S_, .f32⟩
  | 45 => ⟨S64, .f32⟩
  | 46 => ⟨S64, .f32⟩
  | 47 => ⟨S64x1, .f32⟩
  | 48 => ⟨S64x64, .f32⟩
  | 49 => ⟨S64x64, .f32⟩
  | 50 => ⟨S64x1, .f32⟩
  | 51 => ⟨S1x1, .f32⟩
  | 52 => ⟨S64x1, .f32⟩
  | 53 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_c_10 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call1_cst : Ref sig .tc := ⟨.hbm, 84, rfl⟩
abbrev main_call1_v0 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_12 : Ref sig .tc := ⟨.hbm, 91, rfl⟩
abbrev main_v61 : Ref sig .tc := ⟨.hbm, 92, rfl⟩
abbrev main_v62 : Ref sig .tc := ⟨.hbm, 93, rfl⟩
abbrev main_cst_13 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_14 : Ref sig .tc := ⟨.hbm, 98, rfl⟩
abbrev main_call2_v0 : Ref sig .tc := ⟨.hbm, 99, rfl⟩
abbrev main_call2_v1 : Ref sig .tc := ⟨.hbm, 100, rfl⟩
abbrev main_v66 : Ref sig .tc := ⟨.hbm, 101, rfl⟩
abbrev main_c_15 : Ref sig .tc := ⟨.hbm, 102, rfl⟩
abbrev main_v67 : Ref sig .tc := ⟨.hbm, 103, rfl⟩
abbrev main_v68 : Ref sig .tc := ⟨.hbm, 104, rfl⟩
abbrev main_c_16 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_17 : Ref sig .tc := ⟨.hbm, 112, rfl⟩
abbrev main_v75 : Ref sig .tc := ⟨.hbm, 113, rfl⟩
abbrev main_v76 : Ref sig .tc := ⟨.hbm, 114, rfl⟩
abbrev main_c_18 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_19 : Ref sig .tc := ⟨.hbm, 123, rfl⟩
abbrev main_v84 : Ref sig .tc := ⟨.hbm, 124, rfl⟩
abbrev main_v85 : Ref sig .tc := ⟨.hbm, 125, rfl⟩
abbrev main_c_20 : Ref sig .tc := ⟨.hbm, 126, rfl⟩
abbrev main_v86 : Ref sig .tc := ⟨.hbm, 127, rfl⟩
abbrev main_v87 : Ref sig .tc := ⟨.hbm, 128, rfl⟩
abbrev main_c_21 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_c_22 : Ref sig .tc := ⟨.hbm, 137, rfl⟩
abbrev main_v95 : Ref sig .tc := ⟨.hbm, 138, rfl⟩
abbrev main_v96 : Ref sig .tc := ⟨.hbm, 139, rfl⟩
abbrev main_c_23 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_call3_cst : Ref sig .tc := ⟨.hbm, 154, rfl⟩
abbrev main_call3_v0 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_24 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_cst_25 : Ref sig .tc := ⟨.hbm, 166, rfl⟩
abbrev main_v119 : Ref sig .tc := ⟨.hbm, 167, rfl⟩
abbrev main_cst_26 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_27 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x64 : S_.BroadcastsInDim S100000x64 (![] : Fin 0 → Fin S100000x64.rank)
  bcast_S1600000x1_S1600000x64_0_1 : S1600000x1.BroadcastsInDim S1600000x64 (![0, 1] : Fin 2 → Fin S1600000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x1_S64x1_0_1 : S1x1.BroadcastsInDim S64x1 (![0, 1] : Fin 2 → Fin S64x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x1_S64x1_1_0_0_1_n_n_wf : DotDims.WF S64x64 S64x1 S64x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.PreDecode.lean ====
/-
  The precondition, read back at the edge index table.

  The precondition is one i1 scalar: the conjunction of "every float input is finite" with two facts about the
  2 x 1600000 integer table of edge endpoints, "every entry is >= 0" and "every entry is < 100000" (both signed).
  Each conjunct is an and-reduction of a mask over all axes; a conjunction that is 1 has every conjunct 1, and an
  and-reduction over all axes that is 1 has every mask entry 1. The mask entry of the first table fact at index i is
  the signed comparison "table i >= 0", so the table is non-negative entry by entry (edge_nonneg).

  Second, a law of the select: where every entry of x is non-negative, the mask "x < 0" (signed, against the broadcast
  zero scalar) is 0 everywhere, so "x < 0 ? y : x" is x (select_neg_eq_self).
-/
import proofs.«412444_j18734647345319_3_alg».proof.Proof.Gen.Pre_finite_inputs
import Idealize.ShloMosaic.Lib.StableHlo.Predicate
import Idealize.ShloMosaic.Lib.ReduceAll
import Idealize.ShloMosaic.Lib.ValueIdx

namespace Cert.KernelIdeal.PreDecode

open Idealize.ShloMosaic Idealize.ShloMosaic.ValueIdx
open Cert.Pre_finite_inputs

/-- The zero word reads 0 as a signed integer. -/
theorem toInt_zero32 : (0#32 : BitVec 32).toInt = 0 := by decide

/-- The last part of the printed conjunction is (v48 and all(v50)) and all(table < 100000): if it is 1 at the one
    scalar index, then so is its middle conjunct, the and-reduction of the mask v50 it is handed. -/
theorem part3_mask {F : FTy → Type} [FloatOps F] (a1 : IVec S2x1600000 32) (v48 : IVec S_ 1) (v50 : IVec S2x1600000 1)
    (h : fn_part3 (F := F) a1 v48 v50 ix0 = 1#1) :
    Host.reduce IntOp.andi v50 (constantI S_ 1 1#1) Facts.reducesTo_S2x1600000_S_d0_1 Facts.h_S_ ix0 = 1#1 := by
  unfold fn_part3 at h
  exact (IntOp.andi_eq_one.1 (IntOp.andi_eq_one.1 h).1).2

/-- Under the precondition every entry of the edge index table is non-negative as a signed word. -/
theorem edge_nonneg {F : FTy → Type} [FloatOps F]
    (a0 : FVec F S100000x128 .f32) (a1 : IVec S2x1600000 32) (a2 : FVec F S1600000 .f32) (a3 : IVec S100000 32)
    (a4 : FVec F S128x64 .f32) (a5 : FVec F S64 .f32) (a6 : FVec F S64x64 .f32) (a7 : FVec F S64 .f32)
    (a8 : FVec F S64x1 .f32) (a9 : FVec F S1 .f32) (a10 : FVec F S64x1 .f32) (a11 : FVec F S1 .f32)
    (h : Cert.Pre_finite_inputs.fn (F := F) a0 a1 a2 a3 a4 a5 a6 a7 a8 a9 a10 a11 = fun _ => 1#1) :
    ∀ i : Cert.Pre_finite_inputs.S2x1600000.Idx, 0 ≤ (a1 i).toInt := by
  intro i
  -- the scalar shape has exactly one index
  haveI : Subsingleton S_.Idx := ⟨fun a b => funext fun d => d.elim0⟩
  -- the precondition at its one index; its first three parts only hand the table and the mask "table >= 0" on to the last
  have h0 : fn (F := F) a0 a1 a2 a3 a4 a5 a6 a7 a8 a9 a10 a11 ix0 = 1#1 := congrFun h ix0
  unfold fn fn_part1 fn_part2 at h0
  dsimp only at h0
  -- the conjunct "all (table >= 0)" is 1, hence the mask is 1 at i
  have h1 := part3_mask (F := F) _ _ _ h0
  have h2 := Host.reduce_andi_all _ _ _ _ _ h1 i
  -- the mask at i is the signed comparison of the entry with the zero word (the broadcast scalar read at i)
  have h3 : IntOp.cmpi .sge (a1 i) 0#32 = 1#1 := h2
  have h4 := IntOp.cmpi_sge.1 h3
  rw [toInt_zero32] at h4
  exact h4

/-- Where every entry of x is non-negative, "x < 0 ? y : x" is x. -/
theorem select_neg_eq_self {S : Shape} (hb : (⟨0, ![]⟩ : Shape).BroadcastsInDim S (![] : Fin 0 → Fin S.rank))
    (x y : IVec S 32) (hx : ∀ i, 0 ≤ (x i).toInt) :
    select (cmpi .slt x (broadcastInDim S ![] hb (constantI ⟨0, ![]⟩ 32 0#32))) y x = x := by
  funext i
  rw [select_apply]
  -- the mask at i is "x i < 0" signed, which fails for a non-negative entry
  have hc : cmpi .slt x (broadcastInDim S ![] hb (constantI ⟨0, ![]⟩ 32 0#32)) i = 0#1 := by
    show IntOp.cmpi .slt (x i) 0#32 = 0#1
    refine eq_zero_of_ne_one fun hlt => ?_
    have h1 := IntOp.cmpi_slt.1 hlt
    rw [toInt_zero32] at h1
    have h2 := hx i
    omega
  rw [hc, select_zero]

end Cert.KernelIdeal.PreDecode
-- ==== Proof.HostA.lean ====
/-
  The buffers the first pallas_call finds, read back to the arguments.

  Before its first region the kernel's host program computes, operation for operation, what the reference computes
  first: the two rows of the edge table (sources `v1`, targets `v3`), the absolute edge weights `v4`, the degree
  `1 + Σ |w|` scattered onto the targets, `dis = deg > 0 ? rsqrt deg : 0` (`v13`, the select written as an
  outlined function whose operations are stated at typed references: the transports along those references' type
  equations are identities) and the symmetric edge normalisation `norm = dis[src] * |w| * dis[dst]` (`v29`).
  Each is the reference's stage of the same name; no argument array is written.
-/
import proofs.«412444_j18734647345319_3_alg».proof.Proof.Gen.KernelIdeal.Frame
import proofs.«412444_j18734647345319_3_alg».proof.Proof.Gen.ReferenceIdeal.Read

set_option maxRecDepth 20000

noncomputable section

namespace Cert.KernelIdeal.Val

open Idealize.ShloMosaic Idealize.ShloMosaic.TcCoe Idealize.ShloMosaic.ValueIdx Idealize.SL.Sem Idealize.ShloMosaic.StableHlo
open Cert.KernelIdeal Cert.KernelIdeal.Gen
open Cert.ReferenceIdeal.Read (val_main_v1 val_main_v3 val_main_v4 val_main_v11 val_main_v12 val_main_cst_2 val_main_call0_v0
  val_main_call0_v1 val_main_v13 val_main_c val_main_v14 val_main_v15 val_main_c_3 val_main_v16 val_main_v17 val_main_v18
  val_main_v19 val_main_v20 val_main_v21 val_main_c_4 val_main_v22 val_main_v23 val_main_c_5 val_main_v24 val_main_v25
  val_main_v26 val_main_v27 val_main_v28 val_main_v29)

variable (m : (ℓ : Loc nD τ sig) → Buf (Elt Ideal) ℓ) (ρ : Dev nD → PrngReg)

/-! ## After the first stretch of host operations -/

local macro "first_stretch" : tactic =>
  `(tactic| (show StableHlo.after hostOps0 (W0 m ρ _) _ = _
             simp only [hostOps0]
             after_results_simp))

theorem B1_v1 (c : Dev nD) : W1 (F := Ideal) m ρ c (Proc.devRef .tc main_v1) = val_main_v1 (F := Ideal) (m ((c.tc : Thread nD τ).loc main_arg1)) := by
  first_stretch
  rfl
theorem B1_v3 (c : Dev nD) : W1 (F := Ideal) m ρ c (Proc.devRef .tc main_v3) = val_main_v3 (F := Ideal) (m ((c.tc : Thread nD τ).loc main_arg1)) := by
  first_stretch
  rfl
theorem B1_v4 (c : Dev nD) : W1 (F := Ideal) m ρ c (Proc.devRef .tc main_v4) = val_main_v4 (F := Ideal) (m ((c.tc : Thread nD τ).loc main_arg2)) := by
  first_stretch
  rfl
theorem B1_v11 (c : Dev nD) : W1 (F := Ideal) m ρ c (Proc.devRef .tc main_v11) = val_main_v11 (F := Ideal) (m ((c.tc : Thread nD τ).loc main_arg1)) (m ((c.tc : Thread nD τ).loc main_arg2)) := by
  first_stretch
  rfl
theorem B1_v12 (c : Dev nD) : W1 (F := Ideal) m ρ c (Proc.devRef .tc main_v12) = val_main_v12 (F := Ideal) (m ((c.tc : Thread nD τ).loc main_arg1)) (m ((c.tc : Thread nD τ).loc main_arg2)) := by
  first_stretch
  rfl
theorem B1_cst_2 (c : Dev nD) : W1 (F := Ideal) m ρ c (Proc.devRef .tc main_cst_2) = val_main_cst_2 (F := Ideal) := by
  first_stretch
  rfl

/-! ## The outlined select: the transports along the typed references' equations are identities -/

theorem toBuf_v13 (v : (⟨S100000, .f32⟩ : BufTy).Contents (Elt Ideal)) :
    (TRef.of (sig := sig) (T := ⟨S100000, .f32⟩) main_v13).toBuf v = v := rfl
theorem ofBuf_v11 (v : (Proc.devRef (τ := τ) .tc main_v11).ty.Contents (Elt Ideal)) :
    (TRef.of (sig := sig) (T := ⟨S100000, .i1⟩) main_v11).ofBuf v = v := rfl
theorem ofBuf_v12 (v : (Proc.devRef (τ := τ) .tc main_v12).ty.Contents (Elt Ideal)) :
    (TRef.of (sig := sig) (T := ⟨S100000, .f32⟩) main_v12).ofBuf v = v := rfl
theorem toBuf_c1 (v : (⟨S100000, .f32⟩ : BufTy).Contents (Elt Ideal)) :
    (TRef.of (sig := sig) (T := ⟨S100000, .f32⟩) main_call0_v1).toBuf v = v := rfl
theorem ofBuf_c1 (v : (Proc.devRef (τ := τ) .tc main_call0_v1).ty.Contents (Elt Ideal)) :
    (TRef.of (sig := sig) (T := ⟨S100000, .f32⟩) main_call0_v1).ofBuf v = v := rfl
theorem toBuf_c0 (v : (⟨S_, .f32⟩ : BufTy).Contents (Elt Ideal)) :
    (TRef.of (sig := sig) (T := ⟨S_, .f32⟩) main_call0_v0).toBuf v = v := rfl
theorem ofBuf_c0 (v : (Proc.devRef (τ := τ) .tc main_call0_v0).ty.Contents (Elt Ideal)) :
    (TRef.of (sig := sig) (T := ⟨S_, .f32⟩) main_call0_v0).ofBuf v = v := rfl
theorem ofBuf_cst2 (v : (Proc.devRef (τ := τ) .tc main_cst_2).ty.Contents (Elt Ideal)) :
    (TRef.of (sig := sig) (T := ⟨S_, .f32⟩) main_cst_2).ofBuf v = v := rfl

/-- `dis`: where the degree is positive its reciprocal square root, else zero. -/
theorem B2_v13 (c : Dev nD) : W2 (F := Ideal) m ρ c (Proc.devRef .tc main_v13) = val_main_v13 (F := Ideal) (m ((c.tc : Thread nD τ).loc main_arg1)) (m ((c.tc : Thread nD τ).loc main_arg2)) := by
  show StableHlo.after hostOps0_1 (W1 m ρ c) _ = _
  have h11 := B1_v11 m ρ c
  have h12 := B1_v12 m ρ c
  have hc := B1_cst_2 m ρ c
  generalize W1 (F := Ideal) m ρ c = X at h11 h12 hc ⊢
  simp only [hostOps0_1]
  after_results_simp
  rw [h11, h12, hc]
  rw [toBuf_v13, ofBuf_v11, ofBuf_v12, ofBuf_c1, toBuf_c1, ofBuf_c0, toBuf_c0, ofBuf_cst2]
  unfold val_main_v13 val_main_call0_v1 val_main_call0_v0
  rfl

local macro "second_stretch_keeps" : tactic =>
  `(tactic| (show StableHlo.after hostOps0_1 (W1 m ρ _) _ = W1 m ρ _ _
             generalize W1 (F := Ideal) m ρ _ = X
             simp only [hostOps0_1]
             after_results_simp))

theorem B2_v1 (c : Dev nD) : W2 (F := Ideal) m ρ c (Proc.devRef .tc main_v1) = val_main_v1 (F := Ideal) (m ((c.tc : Thread nD τ).loc main_arg1)) :=
  (by second_stretch_keeps : W2 (F := Ideal) m ρ c (Proc.devRef .tc main_v1) = W1 m ρ c (Proc.devRef .tc main_v1)).trans (B1_v1 m ρ c)
theorem B2_v3 (c : Dev nD) : W2 (F := Ideal) m ρ c (Proc.devRef .tc main_v3) = val_main_v3 (F := Ideal) (m ((c.tc : Thread nD τ).loc main_arg1)) :=
  (by second_stretch_keeps : W2 (F := Ideal) m ρ c (Proc.devRef .tc main_v3) = W1 m ρ c (Proc.devRef .tc main_v3)).trans (B1_v3 m ρ c)
theorem B2_v4 (c : Dev nD) : W2 (F := Ideal) m ρ c (Proc.devRef .tc main_v4) = val_main_v4 (F := Ideal) (m ((c.tc : Thread nD τ).loc main_arg2)) :=
  (by second_stretch_keeps : W2 (F := Ideal) m ρ c (Proc.devRef .tc main_v4) = W1 m ρ c (Proc.devRef .tc main_v4)).trans (B1_v4 m ρ c)

/-! ## At the first region's entry -/

local macro "third_stretch_keeps" : tactic =>
  `(tactic| (show StableHlo.after hostOps0_2 (W2 m ρ _) _ = W2 m ρ _ _
             generalize W2 (F := Ideal) m ρ _ = X
             simp only [hostOps0_2]
             after_results_simp))

theorem B3_v1 (c : Dev nD) : W3 (F := Ideal) m ρ c (Proc.devRef .tc main_v1) = val_main_v1 (F := Ideal) (m ((c.tc : Thread nD τ).loc main_arg1)) :=
  (by third_stretch_keeps : W3 (F := Ideal) m ρ c (Proc.devRef .tc main_v1) = W2 m ρ c (Proc.devRef .tc main_v1)).trans (B2_v1 m ρ c)
theorem B3_v3 (c : Dev nD) : W3 (F := Ideal) m ρ c (Proc.devRef .tc main_v3) = val_main_v3 (F := Ideal) (m ((c.tc : Thread nD τ).loc main_arg1)) :=
  (by third_stretch_keeps : W3 (F := Ideal) m ρ c (Proc.devRef .tc main_v3) = W2 m ρ c (Proc.devRef .tc main_v3)).trans (B2_v3 m ρ c)
theorem B3_v13 (c : Dev nD) : W3 (F := Ideal) m ρ c (Proc.devRef .tc main_v13) = val_main_v13 (F := Ideal) (m ((c.tc : Thread nD τ).loc main_arg1)) (m ((c.tc : Thread nD τ).loc main_arg2)) :=
  (by third_stretch_keeps : W3 (F := Ideal) m ρ c (Proc.devRef .tc main_v13) = W2 m ρ c (Proc.devRef .tc main_v13)).trans (B2_v13 m ρ c)

/-- `norm`: per edge, `dis` at the source times the absolute weight times `dis` at the target. -/
theorem B3_v29 (c : Dev nD) : W3 (F := Ideal) m ρ c (Proc.devRef .tc main_v29) = val_main_v29 (F := Ideal) (m ((c.tc : Thread nD τ).loc main_arg1)) (m ((c.tc : Thread nD τ).loc main_arg2)) := by
  show StableHlo.after hostOps0_2 (W2 m ρ c) _ = _
  have h1 := B2_v1 m ρ c
  have h3 := B2_v3 m ρ c
  have h4 := B2_v4 m ρ c
  have h13 := B2_v13 m ρ c
  generalize W2 (F := Ideal) m ρ c = X at h1 h3 h4 h13 ⊢
  simp only [hostOps0_2]
  after_results_simp
  rw [h1, h3, h4, h13]
  unfold val_main_v29 val_main_v28 val_main_v27 val_main_v26 val_main_v25 val_main_v24 val_main_c_5 val_main_v23 val_main_v22
    val_main_c_4 val_main_v21 val_main_v20 val_main_v19 val_main_v18 val_main_v17 val_main_v16 val_main_c_3 val_main_v15
    val_main_v14 val_main_c
  rfl

/-! ## The arguments at the first region's entry: no host operation writes one -/

local macro "to_entry" : tactic =>
  `(tactic| (show StableHlo.after hostOps0_2 (StableHlo.after hostOps0_1 (StableHlo.after hostOps0 (W0 m ρ _))) _ = _
             simp only [hostOps0, hostOps0_1, hostOps0_2]
             after_results_simp))

theorem B3_arg0 (c : Dev nD) : W3 (F := Ideal) m ρ c (Proc.devRef .tc main_arg0) = (m ((c.tc : Thread nD τ).loc main_arg0)) := by to_entry
theorem B3_arg3 (c : Dev nD) : W3 (F := Ideal) m ρ c (Proc.devRef .tc main_arg3) = (m ((c.tc : Thread nD τ).loc main_arg3)) := by to_entry
theorem B3_arg4 (c : Dev nD) : W3 (F := Ideal) m ρ c (Proc.devRef .tc main_arg4) = (m ((c.tc : Thread nD τ).loc main_arg4)) := by to_entry
theorem B3_arg5 (c : Dev nD) : W3 (F := Ideal) m ρ c (Proc.devRef .tc main_arg5) = (m ((c.tc : Thread nD τ).loc main_arg5)) := by to_entry
theorem B3_arg6 (c : Dev nD) : W3 (F := Ideal) m ρ c (Proc.devRef .tc main_arg6) = (m ((c.tc : Thread nD τ).loc main_arg6)) := by to_entry
theorem B3_arg7 (c : Dev nD) : W3 (F := Ideal) m ρ c (Proc.devRef .tc main_arg7) = (m ((c.tc : Thread nD τ).loc main_arg7)) := by to_entry
theorem B3_arg8 (c : Dev nD) : W3 (F := Ideal) m ρ c (Proc.devRef .tc main_arg8) = (m ((c.tc : Thread nD τ).loc main_arg8)) := by to_entry
theorem B3_arg9 (c : Dev nD) : W3 (F := Ideal) m ρ c (Proc.devRef .tc main_arg9) = (m ((c.tc : Thread nD τ).loc main_arg9)) := by to_entry
theorem B3_arg10 (c : Dev nD) : W3 (F := Ideal) m ρ c (Proc.devRef .tc main_arg10) = (m ((c.tc : Thread nD τ).loc main_arg10)) := by to_entry
theorem B3_arg11 (c : Dev nD) : W3 (F := Ideal) m ρ c (Proc.devRef .tc main_arg11) = (m ((c.tc : Thread nD τ).loc main_arg11)) := by to_entry

end Cert.KernelIdeal.Val

end
-- ==== Proof.LibPlainDot.lean ====
/-
  General facts about a matrix product of the plain kind, read at one entry on the extended reals.

  The product of an M x K left operand with a K x N right operand, no batch axis, the left contracted on its second
  axis and the right on its first, accumulated into the zero array: entry (a, j) is the sum over k of
  left (a, k) * right (k, j).  The contraction index of such a product has one axis, of extent K, and is re-indexed by
  its one coordinate; the operand indices at output (a, j) and contraction k are (a, k) and (k, j).

  A column [M, 1] broadcast along the second axis to [M, N] reads, at (a, j), the column's entry (a, 0).

  A record of dimension numbers printed with a program is this plain one whenever its six lists are
  [1], [0], [0], [1], [], [] (the seventh field is a proof), by reflexivity; the lemmas are stated for
  DotDims.plain M K N so that they serve every such record.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable (M K N : Nat)

/-- The left operand's row coordinate at output index j is j's row. -/
theorem plain_lhs_row (j : (⟨2, ![M, N]⟩ : Shape).Idx) (q : (DotDims.plain M K N).contr.Idx) :
    ((DotDims.plain M K N).lhsIdx j q 0).val = (j 0).val := rfl
/-- The left operand's column coordinate is the contraction index's one coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's row coordinate is the contraction index's one coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- The right operand's column coordinate at output index j is j's column. -/
theorem plain_rhs_col (j : (⟨2, ![M, N]⟩ : Shape).Idx) (q : (DotDims.plain M K N).contr.Idx) :
    ((DotDims.plain M K N).rhsIdx j q 1).val = (j 1).val := rfl

/-- A plain matrix product into the zero accumulator, at entry (a, j): the sum over k of W (a, k) * X (k, j). -/
theorem matmul_plain_zero (W : FVec Ideal ⟨2, ![M, K]⟩ .f32) (X : FVec Ideal ⟨2, ![K, N]⟩ .f32) (a : Fin M) (j : Fin N) :
    matmul (DotDims.plain M K N) none W X (constant ⟨2, ![M, N]⟩ .f32 0x00000000#32) (ix2 a j)
      = ∑ k : Fin K, W (ix2 a k) * X (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a j) ((contrEquiv1 (DotDims.plain M K N) K rfl rfl).symm k) = ix2 a k :=
    funext fun b => Fin.ext (by
      match b with
      | ⟨0, _⟩ => exact plain_lhs_row M K N _ _
      | ⟨1, _⟩ => exact (plain_lhs_col M K N _ _).trans hk)
  have er : (DotDims.plain M K N).rhsIdx (ix2 a j) ((contrEquiv1 (DotDims.plain M K N) K rfl rfl).symm k) = ix2 k j :=
    funext fun b => Fin.ext (by
      match b with
      | ⟨0, _⟩ => exact (plain_rhs_row M K N _ _).trans hk
      | ⟨1, _⟩ => exact plain_rhs_col M K N _ _)
  rw [el, er]

/-- A column broadcast along the second axis reads the column's entry of the same row. -/
theorem broadcast_col {α : Type} (b : (⟨2, ![M, 1]⟩ : Shape).Idx → α) (hb : (⟨2, ![M, 1]⟩ : Shape).Broadcasts ⟨2, ![M, N]⟩)
    (a : Fin M) (j : Fin N) : broadcastTo ⟨2, ![M, N]⟩ b hb (ix2 a j) = b (ix2 a 0) :=
  broadcastTo_apply b hb (ix2 a j) (ix2 a 0) (fun ax => by
    match ax with
    | ⟨0, _⟩ =>
      show a.val = if M = 1 then 0 else a.val
      split
      · have := a.isLt; omega
      · rfl
    | ⟨1, _⟩ =>
      show 0 = if (1 : Nat) = 1 then 0 else j.val
      rw [if_pos rfl])

end Cert.LibPlainDot

end
-- ==== Proof.LibPlainAny.lean ====
/-
  A plain matrix product on the extended reals, whatever float formats its operands carry.

  The product of an M x K left operand with a K x N right operand (no batch axis, the left contracted on its
  second axis, the right on its first) has at entry (a, j) the value: sum over k of left (a, k) * right (k, j).
  On the extended reals a change of float format is the identity, so this reading does not depend on the
  operands' formats: it holds for a kernel's product of bf16 operands accumulated into the f32 zero array,
  and for the host's product, which has no accumulator, alike.

  The contraction index of a plain product has one axis of extent K; re-indexed by its one coordinate k, the
  operand indices at output (a, j) are (a, k) and (k, j).
-/
import proofs.«412444_j18734647345319_3_alg».proof.Proof.LibPlainDot

noncomputable section

namespace Cert.LibPlainAny

open Idealize.ShloMosaic Idealize.ShloMosaic.ValueIdx

variable (M K N : Nat)

/-- The left operand's index at output (a, j) and contraction coordinate k is (a, k). -/
theorem plain_lhsIdx (a : Fin M) (j : Fin N) (k : Fin K) :
    (DotDims.plain M K N).lhsIdx (ix2 a j) ((contrEquiv1 (DotDims.plain M K N) K rfl rfl).symm k) = ix2 a k :=
  funext fun b => Fin.ext (by
    have hk := contrEquiv1_symm_val (DotDims.plain M K N) K rfl rfl k
    match b with
    | ⟨0, _⟩ => exact Cert.LibPlainDot.plain_lhs_row M K N _ _
    | ⟨1, _⟩ => exact (Cert.LibPlainDot.plain_lhs_col M K N _ _).trans hk)

/-- The right operand's index at output (a, j) and contraction coordinate k is (k, j). -/
theorem plain_rhsIdx (a : Fin M) (j : Fin N) (k : Fin K) :
    (DotDims.plain M K N).rhsIdx (ix2 a j) ((contrEquiv1 (DotDims.plain M K N) K rfl rfl).symm k) = ix2 k j :=
  funext fun b => Fin.ext (by
    have hk := contrEquiv1_symm_val (DotDims.plain M K N) K rfl rfl k
    match b with
    | ⟨0, _⟩ => exact (Cert.LibPlainDot.plain_rhs_row M K N _ _).trans hk
    | ⟨1, _⟩ => exact Cert.LibPlainDot.plain_rhs_col M K N _ _)

/-- A kernel's plain product into the zero array, operands of any formats, at entry (a, j). -/
theorem matmul_plain_zero_any {φ₁ φ₂ : FTy} (W : FVec Ideal ⟨2, ![M, K]⟩ φ₁) (X : FVec Ideal ⟨2, ![K, N]⟩ φ₂)
    (a : Fin M) (j : Fin N) :
    matmul (DotDims.plain M K N) none W X (constant ⟨2, ![M, N]⟩ .f32 0x00000000#32) (ix2 a j)
      = ∑ k : Fin K, (W (ix2 a k) : EReal) * (X (ix2 k j) : EReal) := by
  simp only [matmul]
  rw [Ideal.matmul_constant_zero_apply, ← Equiv.sum_comp (contrEquiv1 (DotDims.plain M K N) K rfl rfl).symm]
  refine Finset.sum_congr rfl fun k _ => ?_
  rw [plain_lhsIdx, plain_rhsIdx]

/-- The host's plain product, operands of any formats, at entry (a, j). -/
theorem dotGeneral_plain_any {φ₁ φ₂ : FTy} (W : FVec Ideal ⟨2, ![M, K]⟩ φ₁) (X : FVec Ideal ⟨2, ![K, N]⟩ φ₂)
    (a : Fin M) (j : Fin N) :
    Host.dotGeneral (DotDims.plain M K N) none W X (ix2 a j)
      = ∑ k : Fin K, (W (ix2 a k) : EReal) * (X (ix2 k j) : EReal) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainAny

end
-- ==== Proof.Region0.lean ====
/-
  Region 0 is a blocked matrix product.

  The left array has 100000 rows and 128 columns, the right array 128 rows and 64 columns, the output array 100000
  rows and 64 columns.  The grid has 20 points.  At point t the body is given rows 5000 t … 5000 t + 4999 of the left
  array (a block of 5000 rows, all 128 columns), the whole right array, and writes rows 5000 t … 5000 t + 4999 of the
  output.  What it writes is the product of its two blocks accumulated from the zero array; the changes of float
  format before and after the product are the identity on the extended reals.  So entry (p, q) of the block written
  at point t is the sum over k of left (5000 t + p, k) * right (k, q): the block is the restriction, to its rows, of
  ONE function of the two whole arrays, the matrix product.  Row r of the output lies in the block of point r / 5000,
  so the twenty blocks cover the output array, which therefore ends holding the matrix product at every entry.

  No algebraic law is used beyond re-indexing the sum by the product's one contraction coordinate k.
-/
import proofs.«412444_j18734647345319_3_alg».proof.Proof.Gen.KernelIdeal.Frame
import proofs.«412444_j18734647345319_3_alg».proof.Proof.LibPlainAny
import Idealize.ShloMosaic.Lib.ValueIdx
import Idealize.ShloMosaic.Lib.Pipeline.Value
import Idealize.ShloMosaic.PureOps.Ideal.Laws

noncomputable section
namespace Cert.KernelIdeal.Val
open Idealize.ShloMosaic Idealize.ShloMosaic.TcCoe Idealize.ShloMosaic.ValueIdx Idealize.SL.Sem Cert.KernelIdeal Cert.KernelIdeal.Gen
open Idealize.ShloMosaic.Pipeline (Dat)

/-- The matrix product of a 100000 x 128 array with a 128 x 64 array: entry (a, j) is the sum over k of
    x (a, k) * w (k, j). -/
def matProd0 (x : Vec Ideal S100000x128 .f32) (w : Vec Ideal S128x64 .f32) : Vec Ideal S100000x64 .bf16 :=
  fun i => ∑ k : Fin 128, x (ix2 (⟨(i 0).val, idx2_lt0 i⟩ : Fin 100000) k) * w (ix2 k (⟨(i 1).val, idx2_lt1 i⟩ : Fin 64))

/-- The matrix product read at entry (a, j). -/
theorem matProd0_apply (x : Vec Ideal S100000x128 .f32) (w : Vec Ideal S128x64 .f32) (a : Fin 100000) (j : Fin 64) :
    matProd0 x w (ix2 a j) = ∑ k : Fin 128, x (ix2 a k) * w (ix2 k j) := rfl

namespace Region0

/-- The body's product contracts the left operand's second axis with the right operand's first and has no batch
    axis: it is the plain product of a 5000 x 128 block with a 128 x 64 block. -/
theorem dims_plain : dot_S5000x128_S128x64_S5000x64_1_0_0_1_n_n = DotDims.plain 5000 128 64 := rfl

/-- What the body stores, at entry (p, q) of its block: the sum over k of left (p, k) * right (k, q).  The three
    changes of float format are the identity, and the product starts from the zero array. -/
theorem body_apply (x0 : Vec Ideal S5000x128 .f32) (x1 : Vec Ideal S128x64 .f32) (p : Fin 5000) (q : Fin 64) :
    (k0_pay1 (F := Ideal) x0 x1) (ix2 p q) = ∑ k : Fin 128, x0 (ix2 p k) * x1 (ix2 k q) := by
  unfold k0_pay1
  show matmul (F := Ideal) dot_S5000x128_S128x64_S5000x64_1_0_0_1_n_n none (truncf .bf16 x0 bitsLt_bf16_f32)
      (truncf .bf16 x1 bitsLt_bf16_f32) (constant S5000x64 .f32 0x00000000#32) (ix2 p q) = _
  rw [dims_plain]
  exact Cert.LibPlainAny.matmul_plain_zero_any 5000 128 64 (truncf .bf16 x0 bitsLt_bf16_f32) (truncf .bf16 x1 bitsLt_bf16_f32) p q

/-- The body reads and writes its whole blocks: every offset is zero. -/
theorem zero_offsets : (![0, 0] : Fin 2 → Nat) = fun _ => 0 := funext fun a => by fin_cases a <;> rfl

/-- The block indices at point t: the left array's and the output's blocks are block t of the rows and the only
    block of the columns; the right array's block is its only block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Entry (p, k) of the left array's block at point t is entry (5000 t + p, k) of the left array. -/
theorem left_block_apply (c : Dev nD) (t : Fin cfg0.N) (p : Fin 5000) (k : Fin 128) (a : Fin 100000)
    (ha : a.val = t.val * 5000 + p.val) :
    (iblk0 (F := Ideal) V c 0 t : Vec Ideal S5000x128 .f32) (ix2 p k) = (V c main_arg0 : Vec Ideal S100000x128 .f32) (ix2 a k) := by
  obtain ⟨e0, e1, -⟩ := block_indices t
  unfold iblk0
  rw [View.read_apply]
  show V c main_arg0 _ = V c main_arg0 _
  congr 1
  funext b
  apply Fin.ext
  match b with
  | ⟨0, _⟩ => show win0_0.index t (0 : Fin 2) * 5000 + 1 * p.val = a.val; rw [e0, ha]; omega
  | ⟨1, _⟩ => show win0_0.index t (1 : Fin 2) * 128 + 1 * k.val = k.val; rw [e1]; omega

/-- The right array's block at any point is the right array. -/
theorem right_block_apply (c : Dev nD) (t : Fin cfg0.N) (k : Fin 128) (q : Fin 64) :
    (iblk0 (F := Ideal) V c 1 t : Vec Ideal S128x64 .f32) (ix2 k q) = (V c main_arg4 : Vec Ideal S128x64 .f32) (ix2 k q) := by
  obtain ⟨-, -, e2, e3, -⟩ := block_indices t
  unfold iblk0
  rw [View.read_apply]
  show V c main_arg4 _ = V c main_arg4 _
  congr 1
  funext b
  apply Fin.ext
  match b with
  | ⟨0, _⟩ => show win0_1.index t (0 : Fin 2) * 128 + 1 * k.val = k.val; rw [e2]; omega
  | ⟨1, _⟩ => show win0_1.index t (1 : Fin 2) * 64 + 1 * q.val = q.val; rw [e3]; omega

/-- Entry (p, q) of the output's block at point t sits at entry (5000 t + p, q) of the output array. -/
theorem out_block_entry (t : Fin cfg0.N) (p : Fin 5000) (q : Fin 64) (a : Fin 100000) (ha : a.val = t.val * 5000 + p.val) :
    (((cfg0.win 2).blk t).view.emb (ix2 p q) : S100000x64.Idx) = ix2 a q := by
  obtain ⟨-, -, -, -, e4, e5⟩ := block_indices t
  funext b
  apply Fin.ext
  match b with
  | ⟨0, _⟩ => show win0_2.index t (0 : Fin 2) * 5000 + 1 * p.val = a.val; rw [e4, ha]; omega
  | ⟨1, _⟩ => show win0_2.index t (1 : Fin 2) * 64 + 1 * q.val = q.val; rw [e5]; omega

/-- What the body stores at point t is, entry by entry, the matrix product of the two whole arrays read where the
    output's block sits. -/
theorem body_block_eq (c : Dev nD) (t : Fin cfg0.N) (y : S5000x64.Idx) :
    k0_pay1 (F := Ideal) (iblk0 V c 0 t) (iblk0 V c 1 t) y
      = matProd0 (V c main_arg0) (V c main_arg4) (((cfg0.win 2).blk t).view.emb y) := by
  obtain ⟨p, q, rfl⟩ : ∃ (p : Fin 5000) (q : Fin 64), y = ix2 p q := ⟨y 0, y 1, eq_ix2 y⟩
  have ht : t.val < 20 := Nat.lt_of_lt_of_eq t.isLt N_0
  have hp : p.val < 5000 := p.isLt
  let a : Fin 100000 := ⟨t.val * 5000 + p.val, by omega⟩
  have ha : a.val = t.val * 5000 + p.val := rfl
  refine (body_apply (iblk0 V c 0 t) (iblk0 V c 1 t) p q).trans ?_
  refine Eq.trans ?_ (congrArg (matProd0 (V c main_arg0) (V c main_arg4)) (out_block_entry t p q a ha).symm)
  refine Eq.trans ?_ (matProd0_apply (V c main_arg0) (V c main_arg4) a q).symm
  refine Finset.sum_congr rfl fun k _ => ?_
  exact congrArg₂ (· * ·) (left_block_apply V c t p k a ha) (right_block_apply V c t k q)

/-- What point t writes back is block t of the matrix product of the two arrays as the region finds them. -/
theorem writeback_eq (c : Dev nD) (t : Fin cfg0.N) :
    (dat0 (F := Ideal) V c).flushed 2 t
      = ((cfg0.win 2).blk t).view.read (Elt Ideal) (matProd0 (V c main_arg0) (V c main_arg4)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x64) zero_offsets]
  funext y
  exact body_block_eq V c t y

/-- An entry of the output array is in point t's block iff each coordinate is in the block's range on its axis. -/
theorem mem_out_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Every entry of the output array is written back by some point: row r by point r / 5000. -/
theorem rows_covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  have hlt : (i 0).val / 5000 < cfg0.N := by rw [hN]; omega
  obtain ⟨-, -, -, -, e4, e5⟩ := block_indices ⟨(i 0).val / 5000, hlt⟩
  refine ⟨⟨(i 0).val / 5000, hlt⟩, flush0_2 _, ?_⟩
  rw [mem_out_block]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, hlt⟩ (1 : Fin 2) * 64 ≤ (i 1).val ∧ (i 1).val < win0_2.index ⟨(i 0).val / 5000, hlt⟩ (1 : Fin 2) * 64 + 64
    rw [e5]
    omega

end Region0

variable (V : (c : Dev nD) → (b : Ref sig .tc) → Buf (Elt Ideal) ((c : Thread nD τ).loc b))

/-- The left array as region 0 finds it, as a 100000 x 128 array of extended reals. -/
abbrev lhs0 (c : Dev nD) : Vec Ideal S100000x128 .f32 := V c main_arg0
/-- The right array as region 0 finds it, as a 128 x 64 array of extended reals. -/
abbrev rhs0 (c : Dev nD) : Vec Ideal S128x64 .f32 := V c main_arg4
/-- Region 0's output array after its last grid point, as a 100000 x 64 array of extended reals. -/
abbrev res0 (c : Dev nD) : Vec Ideal S100000x64 .bf16 := (dat0 (F := Ideal) V c).arrAt 2 cfg0.N

/-- Region 0's output array after its last grid point is the matrix product of its two input arrays as the region
    finds them. -/
theorem region0_eq (c : Dev nD) :
    (dat0 (F := Ideal) V c).arrAt 2 cfg0.N = matProd0 (V c main_arg0) (V c main_arg4) :=
  (dat0 V c).arrAt_eq_of_cover 2 (matProd0 (V c main_arg0) (V c main_arg4)) (fun t _ => Region0.writeback_eq V c t)
    Region0.rows_covered

/-- Entry (a, j) of region 0's output array after its last grid point is the sum over k of x (a, k) * w (k, j), x and w
    the region-entry contents of its two input arrays. -/
theorem region0_apply (c : Dev nD) (a : Fin 100000) (j : Fin 64) :
    res0 V c (ix2 a j) = ∑ k : Fin 128, lhs0 V c (ix2 a k) * rhs0 V c (ix2 k j) :=
  (congrFun (region0_eq V c) (ix2 a j)).trans (matProd0_apply (V c main_arg0) (V c main_arg4) a j)

end Cert.KernelIdeal.Val
end
-- ==== Proof.Region1.lean ====
/-
  Region 1: the combine-and-project step, read entry by entry on the extended reals.

  The region runs over 20 grid points; point t handles rows 5000 t .. 5000 t + 4999 of five arrays:
  s (100000 x 64), xw (100000 x 64), the column d (100000 x 1), and, whole at every point, the row b (1 x 64)
  and the matrix w (64 x 64).  On its block the body forms, pointwise,

      h (p, k) = max ((s (p, k) + (d (p, 0) * d (p, 0)) * xw (p, k)) + b (0, k)) 0,

  (the column d * d read along the columns, the row b read along the rows; every change of float format and every
  recast to the same shape is the identity on the extended reals), and then the plain matrix product of h
  (5000 x 64) with w (64 x 64) into the zero array: entry (p, q) is the sum over k of h (p, k) * w (k, q).

  A block's entry (p, q) at point t is the array's entry (5000 t + p, q); the whole windows sit at block (0, 0).
  So what point t writes back is block t of ONE function of the five arrays, the 20 blocks cover the 100000 rows
  (row r lies in block r / 5000), and the array after the last point is that function:

      out (a, j) = sum over k of max ((s (a, k) + (d (a, 0) * d (a, 0)) * xw (a, k)) + b (0, k)) 0 * w (k, j).

  Only commutativity-free rewriting is used: no law of the extended reals beyond the reading of each operation.
-/
import proofs.«412444_j18734647345319_3_alg».proof.Proof.Gen.KernelIdeal.Frame
import proofs.«412444_j18734647345319_3_alg».proof.Proof.LibPlainAny
import Idealize.ShloMosaic.Lib.ValueIdx
import Idealize.ShloMosaic.Lib.Pipeline.Value
import Idealize.ShloMosaic.PureOps.Ideal.Laws

noncomputable section

namespace Cert.KernelIdeal.Val

open Idealize.ShloMosaic Idealize.ShloMosaic.TcCoe Idealize.ShloMosaic.ValueIdx Idealize.SL.Sem Cert.KernelIdeal Cert.KernelIdeal.Gen
open Idealize.ShloMosaic.Pipeline (Dat)

/-- Entry (a, j) of the result as a function of the five arrays: the sum over k of
    max ((s (a, k) + (d (a, 0) * d (a, 0)) * xw (a, k)) + b (0, k)) 0 times w (k, j). -/
def comb1 (s : Vec Ideal S100000x64 .f32) (xw : Vec Ideal S100000x64 .bf16) (d : Vec Ideal S100000x1 .f32)
    (b : Vec Ideal S1x64 .f32) (w : Vec Ideal S64x64 .f32) (a : Fin 100000) (j : Fin 64) : EReal :=
  ∑ k : Fin 64,
    max ((((s (ix2 a k) : EReal))
          + (((d (ix2 a 0) : EReal)) * ((d (ix2 a 0) : EReal))) * ((xw (ix2 a k) : EReal)))
         + ((b (ix2 0 k) : EReal)))
        (Ideal.ofBits .f32 0x00000000#32)
      * ((w (ix2 k j) : EReal))

/-- The same, spelled out. -/
theorem comb1_apply (s : Vec Ideal S100000x64 .f32) (xw : Vec Ideal S100000x64 .bf16) (d : Vec Ideal S100000x1 .f32)
    (b : Vec Ideal S1x64 .f32) (w : Vec Ideal S64x64 .f32) (a : Fin 100000) (j : Fin 64) :
    comb1 s xw d b w a j
      = ∑ k : Fin 64,
          max ((((s (ix2 a k) : EReal))
                + (((d (ix2 a 0) : EReal)) * ((d (ix2 a 0) : EReal))) * ((xw (ix2 a k) : EReal)))
               + ((b (ix2 0 k) : EReal)))
              (Ideal.ofBits .f32 0x00000000#32)
            * ((w (ix2 k j) : EReal)) := rfl

namespace Region1

/-! ## The body's arithmetic at an entry of the block -/

/-- A row [1, 64] broadcast along the first axis to [5000, 64] reads, at (p, q), the row's entry (0, q). -/
theorem broadcast_row {α : Type} (b : S1x64.Idx → α) (hb : S1x64.Broadcasts S5000x64) (p : Fin 5000) (q : Fin 64) :
    broadcastTo S5000x64 b hb (ix2 p q) = b (ix2 (0 : Fin 1) q) :=
  broadcastTo_apply b hb (ix2 p q) (ix2 (0 : Fin 1) q) (fun ax => by
    match ax with
    | ⟨0, _⟩ => rfl
    | ⟨1, _⟩ => rfl)

/-- The pointwise part at (p, k) of a block: max ((s + (d * d) * xw) + b) 0. -/
def hidden (d : Vec Ideal S5000x1 .f32) (xw : Vec Ideal S5000x64 .bf16) (s : Vec Ideal S5000x64 .f32)
    (b : Vec Ideal S1x64 .f32) (p : Fin 5000) (k : Fin 64) : EReal :=
  max (((s (ix2 p k) : EReal) + ((d (ix2 p 0) : EReal) * (d (ix2 p 0) : EReal)) * (xw (ix2 p k) : EReal)) + (b (ix2 0 k) : EReal))
    (Ideal.ofBits .f32 0x00000000#32)

/-- The body's stored value at (p, q): the sum over k of the pointwise part at (p, k) times w (k, q).  The matrix
    product is the plain one into the zero array; the column d * d is read along the columns, the row b along the rows. -/
theorem pay_apply (d : Vec Ideal S5000x1 .f32) (xw : Vec Ideal S5000x64 .bf16) (s : Vec Ideal S5000x64 .f32)
    (b : Vec Ideal S1x64 .f32) (w : Vec Ideal S64x64 .f32) (p : Fin 5000) (q : Fin 64) :
    (k1_pay1 (F := Ideal) d xw s b w) (ix2 p q)
      = ∑ k : Fin 64, hidden d xw s b p k * (w (ix2 k q) : EReal) := by
  unfold k1_pay1
  refine (Cert.LibPlainAny.matmul_plain_zero_any 5000 64 64 _ _ p q).trans ?_
  refine Finset.sum_congr rfl fun k _ => ?_
  refine congrArg (· * (w (ix2 k q) : EReal)) ?_
  show max ((_ + (broadcastTo S5000x64 _ broadcasts_S5000x1_S5000x64 (ix2 p k)) * _) + broadcastTo S5000x64 _ broadcasts_S1x64_S5000x64 (ix2 p k)) _ = _
  rw [Cert.LibPlainDot.broadcast_col 5000 64, broadcast_row]
  simp only [shapeCast_self]
  rfl

/-! ## Where each window's block sits in its array -/

theorem hz : (![0, 0] : Fin 2 → Nat) = fun _ => 0 := funext fun a => by fin_cases a <;> rfl

/-- The index maps over the grid: the row-blocked windows 0, 1, 2 and 5 sit at block (t, 0), the whole windows
    3 and 4 at block (0, 0). -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section Blocks
variable (V : (c : Dev nD) → (b : Ref sig .tc) → Buf (Elt Ideal) ((c : Thread nD τ).loc b))

/-- Window 0's block at point t, entry (p, k), is the array's entry (5000 t + p, k). -/
theorem iblk_0_apply (c : Dev nD) (t : Fin cfg1.N) (p : Fin 5000) (k : Fin 64) (a : Fin 100000)
    (ha : a.val = 5000 * t.val + p.val) :
    (iblk1 (F := Ideal) V c 0 t : Vec Ideal S5000x64 .f32) (ix2 p k) = (V c main_v44 : Vec Ideal S100000x64 .f32) (ix2 a k) := by
  obtain ⟨e0, e1, -⟩ := idx_facts t
  unfold iblk1
  rw [View.read_apply]
  show V c main_v44 _ = V c main_v44 _
  congr 1
  funext ax
  apply Fin.ext
  match ax with
  | ⟨0, _⟩ => show win1_0.index t (0 : Fin 2) * 5000 + 1 * p.val = a.val; rw [e0, ha]; omega
  | ⟨1, _⟩ => show win1_0.index t (1 : Fin 2) * 64 + 1 * k.val = k.val; rw [e1]; omega

/-- Window 1's block at point t, entry (p, k), is the array's entry (5000 t + p, k). -/
theorem iblk_1_apply (c : Dev nD) (t : Fin cfg1.N) (p : Fin 5000) (k : Fin 64) (a : Fin 100000)
    (ha : a.val = 5000 * t.val + p.val) :
    (iblk1 (F := Ideal) V c 1 t : Vec Ideal S5000x64 .bf16) (ix2 p k) = (V c main_v30 : Vec Ideal S100000x64 .bf16) (ix2 a k) := by
  obtain ⟨-, -, e0, e1, -⟩ := idx_facts t
  unfold iblk1
  rw [View.read_apply]
  show V c main_v30 _ = V c main_v30 _
  congr 1
  funext ax
  apply Fin.ext
  match ax with
  | ⟨0, _⟩ => show win1_1.index t (0 : Fin 2) * 5000 + 1 * p.val = a.val; rw [e0, ha]; omega
  | ⟨1, _⟩ => show win1_1.index t (1 : Fin 2) * 64 + 1 * k.val = k.val; rw [e1]; omega

/-- Window 2's block at point t, entry (p, 0), is the column's entry (5000 t + p, 0). -/
theorem iblk_2_apply (c : Dev nD) (t : Fin cfg1.N) (p : Fin 5000) (a : Fin 100000)
    (ha : a.val = 5000 * t.val + p.val) :
    (iblk1 (F := Ideal) V c 2 t : Vec Ideal S5000x1 .f32) (ix2 p (0 : Fin 1)) = (V c main_v45 : Vec Ideal S100000x1 .f32) (ix2 a (0 : Fin 1)) := by
  obtain ⟨-, -, -, -, e0, e1, -⟩ := idx_facts t
  unfold iblk1
  rw [View.read_apply]
  show V c main_v45 _ = V c main_v45 _
  congr 1
  funext ax
  apply Fin.ext
  match ax with
  | ⟨0, _⟩ => show win1_2.index t (0 : Fin 2) * 5000 + 1 * p.val = a.val; rw [e0, ha]; omega
  | ⟨1, _⟩ => show win1_2.index t (1 : Fin 2) * 1 + 1 * (0 : Fin 1).val = (0 : Fin 1).val; rw [e1]; rfl

/-- Window 3's block at any point is the whole row. -/
theorem iblk_3_apply (c : Dev nD) (t : Fin cfg1.N) (k : Fin 64) :
    (iblk1 (F := Ideal) V c 3 t : Vec Ideal S1x64 .f32) (ix2 (0 : Fin 1) k) = (V c main_v46 : Vec Ideal S1x64 .f32) (ix2 (0 : Fin 1) k) := by
  obtain ⟨-, -, -, -, -, -, e0, e1, -⟩ := idx_facts t
  unfold iblk1
  rw [View.read_apply]
  show V c main_v46 _ = V c main_v46 _
  congr 1
  funext ax
  apply Fin.ext
  match ax with
  | ⟨0, _⟩ => show win1_3.index t (0 : Fin 2) * 1 + 1 * (0 : Fin 1).val = (0 : Fin 1).val; rw [e0]; rfl
  | ⟨1, _⟩ => show win1_3.index t (1 : Fin 2) * 64 + 1 * k.val = k.val; rw [e1]; omega

/-- Window 4's block at any point is the whole matrix. -/
theorem iblk_4_apply (c : Dev nD) (t : Fin cfg1.N) (k q : Fin 64) :
    (iblk1 (F := Ideal) V c 4 t : Vec Ideal S64x64 .f32) (ix2 k q) = (V c main_arg6 : Vec Ideal S64x64 .f32) (ix2 k q) := by
  obtain ⟨-, -, -, -, -, -, -, -, e0, e1, -⟩ := idx_facts t
  unfold iblk1
  rw [View.read_apply]
  show V c main_arg6 _ = V c main_arg6 _
  congr 1
  funext ax
  apply Fin.ext
  match ax with
  | ⟨0, _⟩ => show win1_4.index t (0 : Fin 2) * 64 + 1 * k.val = k.val; rw [e0]; omega
  | ⟨1, _⟩ => show win1_4.index t (1 : Fin 2) * 64 + 1 * q.val = q.val; rw [e1]; omega

end Blocks

end Region1

/-! ## From blocks to the array -/

section Final
variable (V : (c : Dev nD) → (b : Ref sig .tc) → Buf (Elt Ideal) ((c : Thread nD τ).loc b))

/-- The whole result array as one function of the arrays the region finds. -/
def G1 (c : Dev nD) : Vec Ideal S100000x64 .bf16 :=
  fun i => comb1 (V c main_v44) (V c main_v30) (V c main_v45) (V c main_v46) (V c main_arg6) (i 0) (i 1)

namespace Region1

/-- What point t writes back is block t of the result array: the stored value at (p, q) is the result's entry
    (5000 t + p, q), each input block read at the same rows. -/
theorem flushed_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  unfold out1_5
  rw [View.canon_unit_zero hz]
  simp only [View.ld_unit_zero (S := S5000x1) hz, View.ld_unit_zero (S := S5000x64) hz, View.ld_unit_zero (S := S1x64) hz, View.ld_unit_zero (S := S64x64) hz]
  funext y
  obtain ⟨p, q, rfl⟩ : ∃ (p : Fin 5000) (q : Fin 64), y = ix2 p q := ⟨y 0, y 1, eq_ix2 (n0 := 5000) (n1 := 64) y⟩
  obtain ⟨-, -, -, -, -, -, -, -, -, -, e0, e1⟩ := idx_facts t
  have hN : cfg1.N = 20 := rfl
  have ht : t.val < 20 := hN ▸ t.isLt
  have ea : ((cfg1.win 5).blk t).view.emb (ix2 p q) = ix2 (⟨5000 * t.val + p.val, by omega⟩ : Fin 100000) q := by
    funext ax
    apply Fin.ext
    match ax with
    | ⟨0, _⟩ => show win1_5.index t (0 : Fin 2) * 5000 + 1 * p.val = 5000 * t.val + p.val; rw [e0]; omega
    | ⟨1, _⟩ => show win1_5.index t (1 : Fin 2) * 64 + 1 * q.val = q.val; rw [e1]; omega
  refine (pay_apply (iblk1 (F := Ideal) V c 2 t) (iblk1 (F := Ideal) V c 1 t) (iblk1 (F := Ideal) V c 0 t) (iblk1 (F := Ideal) V c 3 t) (iblk1 (F := Ideal) V c 4 t) p q).trans ?_
  show _ = G1 V c (((cfg1.win 5).blk t).view.emb (ix2 p q))
  rw [ea]
  show _ = comb1 (V c main_v44) (V c main_v30) (V c main_v45) (V c main_v46) (V c main_arg6) ⟨5000 * t.val + p.val, by omega⟩ q
  unfold comb1
  refine Finset.sum_congr rfl fun k _ => ?_
  unfold hidden
  rw [iblk_0_apply V c t p k ⟨5000 * t.val + p.val, by omega⟩ rfl, iblk_1_apply V c t p k ⟨5000 * t.val + p.val, by omega⟩ rfl,
    iblk_2_apply V c t p ⟨5000 * t.val + p.val, by omega⟩ rfl, iblk_3_apply V c t k, iblk_4_apply V c t k q]

/-- An entry of the array lies in point t's block iff, on each axis, its coordinate is in the block's range. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v47).slice (win1_5.rect t)).set ↔ _
  rw [View.set_slice_whole, Rect.mem_set_unit]
  exact Iff.rfl

/-- Every entry of the array is in some point's block: row r is covered by point r / 5000. -/
theorem cover (i : S100000x64.Idx) :
    ∃ t : Fin cfg1.N, (cfg1.win 5).flush t = true ∧ i ∈ ((cfg1.win 5).blk t).view.set := by
  have h0 : (i 0).val < 100000 := (i 0).isLt
  have h1 : (i 1).val < 64 := (i 1).isLt
  have hN : cfg1.N = 20 := rfl
  let t : Fin cfg1.N := ⟨(i 0).val / 5000, by rw [hN]; omega⟩
  obtain ⟨-, -, -, -, -, -, -, -, -, -, e0, e1⟩ := idx_facts t
  have ht : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 64 ≤ (i 1).val ∧ (i 1).val < win1_5.index t (1 : Fin 2) * 64 + 64; rw [e1]; omega

end Region1

/-- The array after the region's last point is the result array. -/
theorem final1 (c : Dev nD) : (dat1 (F := Ideal) V c).arrAt 5 cfg1.N = G1 V c :=
  (dat1 (F := Ideal) V c).arrAt_eq_of_cover 5 (G1 V c) (fun t _ => Region1.flushed_eq V c t) Region1.cover

/-- Entry (a, j) of region 1's output array after its last grid point. -/
theorem region1_apply (c : Dev nD) (a : Fin 100000) (j : Fin 64) :
    ((dat1 (F := Ideal) V c).arrAt 5 cfg1.N : Vec Ideal S100000x64 .bf16) (ix2 a j)
      = comb1 (V c main_v44) (V c main_v30) (V c main_v45) (V c main_v46) (V c main_arg6) a j :=
  congrFun (final1 V c) (ix2 a j)

end Final

end Cert.KernelIdeal.Val

end
-- ==== Proof.PoolScatter.lean ====
import proofs.«412444_j18734647345319_3_alg».proof.Proof.Gen.ReferenceIdeal
import Idealize.ShloMosaic.PureOps.Ideal.Laws
import Idealize.ShloMosaic.Lib.ValueIdx
import Idealize.ShloMosaic.Lib.StableHlo.Predicate

/-!
# The per-graph pooling scatter, entry by entry

The reference pools node rows into graph rows with an accumulating scatter: row `r` of the
`[100000, 64]` updates is added to row `idx (r, 0)` of the `[64, 64]` operand, the column kept.
On the extended reals that scatter is an exact sum, so entry `(g, k)` of the result is the operand's
entry `(g, k)` plus the sum, over the rows `r` whose index word is `g`, of the update's entry `(r, k)`.

The steps: on the operand's row axis the window starts at the index word read signed and has
coordinate `0`; on its column axis the window starts at `0` and has the update's column as
coordinate. So update entry `(r, k')` lands on `(g, k)` exactly when the word of row `r` reads `g`
and `k' = k`; a word that reads outside `0 … 63` lands nowhere. Summing over the update's two
coordinates, the inner sum over `k'` keeps the one term `k' = k`.
-/

namespace Cert.ReferenceIdeal.Pool

open Idealize.ShloMosaic Idealize.ShloMosaic.ValueIdx Cert.ReferenceIdeal

/-- On the operand's row axis the window of update entry (r, k') starts at the index word of row r, read signed. -/
theorem start_row (idx : IVec S100000x1 32) (r : Fin 100000) (k' : Fin 64) :
    scatter_S64x64_S100000x1_S100000x64_1_0_0_1.start (ix2 r k') idx 0 = (idx (ix2 r 0)).toInt := by
  unfold ScatterDims.start
  rw [dif_pos (show (0 : Fin S64x64.rank) ∈ scatter_S64x64_S100000x1_S100000x64_1_0_0_1.scatterDimsToOperandDims by decide)]
  refine congrArg (fun i => (idx i).toInt) ?_
  funext b
  match b with
  | ⟨0, _⟩ => rfl
  | ⟨1, _⟩ => rfl

/-- On the operand's column axis every window starts at 0: the index vector names the row axis only. -/
theorem start_col (idx : IVec S100000x1 32) (j : S100000x64.Idx) :
    scatter_S64x64_S100000x1_S100000x64_1_0_0_1.start j idx 1 = 0 := by
  unfold ScatterDims.start
  rw [dif_neg (show ¬ (1 : Fin S64x64.rank) ∈ scatter_S64x64_S100000x1_S100000x64_1_0_0_1.scatterDimsToOperandDims by decide)]

/-- The row axis is an inserted axis: the window coordinate on it is 0. -/
theorem window_row (j : S100000x64.Idx) :
    scatter_S64x64_S100000x1_S100000x64_1_0_0_1.window j 0 = 0 := by
  unfold ScatterDims.window
  rw [dif_neg (show ¬ (0 : Fin S64x64.rank) ∈ scatter_S64x64_S100000x1_S100000x64_1_0_0_1.sKept by decide)]

/-- The column axis is the kept axis: the window coordinate on it is the update entry's column. -/
theorem window_col (r : Fin 100000) (k' : Fin 64) :
    scatter_S64x64_S100000x1_S100000x64_1_0_0_1.window (ix2 r k') 1 = k'.val := by
  unfold ScatterDims.window
  rw [dif_pos (show (1 : Fin S64x64.rank) ∈ scatter_S64x64_S100000x1_S100000x64_1_0_0_1.sKept by decide)]
  rfl

/-- A 32-bit word read signed is a group number below 64 exactly when it is that number's word. -/
theorem toInt_eq_iff (w : BitVec 32) (g : Fin 64) : w.toInt = (g.val : Int) ↔ w = BitVec.ofNat 32 g.val := by
  have hg : (BitVec.ofNat 32 g.val).toInt = (g.val : Int) :=
    StableHlo.Predicate.toInt_ofNat_small g.val (by have := g.isLt; omega)
  constructor
  · intro h; exact BitVec.eq_of_toInt_eq (h.trans hg.symm)
  · intro h; rw [h]; exact hg

/-- Update entry (r, k') lands on operand entry (g, k) exactly when the index word of row r reads g and the
    columns agree; a word reading below 0 or above 63 lands outside the operand and is dropped. -/
theorem lands_iff (idx : IVec S100000x1 32) (r : Fin 100000) (k' g k : Fin 64) :
    scatter_S64x64_S100000x1_S100000x64_1_0_0_1.resultIdx? (ix2 r k') idx = some (ix2 g k)
      ↔ (idx (ix2 r 0)).toInt = (g.val : Int) ∧ k' = k := by
  unfold ScatterDims.resultIdx?
  constructor
  · intro e
    split_ifs at e with h
    have e' := Option.some.inj e
    have e0 := congrArg Fin.val (congrFun e' 0)
    have e1 := congrArg Fin.val (congrFun e' 1)
    have h0 := (h 0).1
    rw [start_row, window_row] at h0
    simp only [start_row, window_row, start_col, window_col] at e0 e1
    refine ⟨?_, Fin.ext ?_⟩
    · change ((idx (ix2 r 0)).toInt + ((0 : Nat) : Int)).toNat = g.val at e0
      omega
    · change ((0 : Int) + (k'.val : Int)).toNat = k.val at e1
      omega
  · rintro ⟨hr, rfl⟩
    have h : ∀ a : Fin S64x64.rank,
        0 ≤ scatter_S64x64_S100000x1_S100000x64_1_0_0_1.start (ix2 r k') idx a
              + scatter_S64x64_S100000x1_S100000x64_1_0_0_1.window (ix2 r k') a ∧
        scatter_S64x64_S100000x1_S100000x64_1_0_0_1.start (ix2 r k') idx a
              + scatter_S64x64_S100000x1_S100000x64_1_0_0_1.window (ix2 r k') a < S64x64.size a := by
      intro a
      match a with
      | ⟨0, _⟩ =>
        show 0 ≤ scatter_S64x64_S100000x1_S100000x64_1_0_0_1.start (ix2 r k') idx 0
              + scatter_S64x64_S100000x1_S100000x64_1_0_0_1.window (ix2 r k') 0 ∧
          scatter_S64x64_S100000x1_S100000x64_1_0_0_1.start (ix2 r k') idx 0
              + scatter_S64x64_S100000x1_S100000x64_1_0_0_1.window (ix2 r k') 0 < (64 : Nat)
        rw [start_row, window_row, hr]
        have := g.isLt
        omega
      | ⟨1, _⟩ =>
        show 0 ≤ scatter_S64x64_S100000x1_S100000x64_1_0_0_1.start (ix2 r k') idx 1
              + scatter_S64x64_S100000x1_S100000x64_1_0_0_1.window (ix2 r k') 1 ∧
          scatter_S64x64_S100000x1_S100000x64_1_0_0_1.start (ix2 r k') idx 1
              + scatter_S64x64_S100000x1_S100000x64_1_0_0_1.window (ix2 r k') 1 < (64 : Nat)
        rw [start_col, window_col]
        have := k'.isLt
        omega
    rw [dif_pos h]
    refine congrArg some (funext fun a => Fin.ext ?_)
    match a with
    | ⟨0, _⟩ =>
      show (scatter_S64x64_S100000x1_S100000x64_1_0_0_1.start (ix2 r k') idx 0
              + scatter_S64x64_S100000x1_S100000x64_1_0_0_1.window (ix2 r k') 0).toNat = g.val
      rw [start_row, window_row, hr]
      omega
    | ⟨1, _⟩ =>
      show (scatter_S64x64_S100000x1_S100000x64_1_0_0_1.start (ix2 r k') idx 1
              + scatter_S64x64_S100000x1_S100000x64_1_0_0_1.window (ix2 r k') 1).toNat = k'.val
      rw [start_col, window_col]
      omega

/-- The sum over the update entries that land on (g, k) is the sum over the rows whose index word reads g of
    the row's entry in column k: within a row only column k lands in column k. -/
theorem landed_sum (idx : IVec S100000x1 32) (upd : FVec Ideal S100000x64 .f32) (g k : Fin 64)
    [DecidablePred fun j : S100000x64.Idx =>
      scatter_S64x64_S100000x1_S100000x64_1_0_0_1.resultIdx? j idx = some (ix2 g k)] :
    ∑ j ∈ Finset.univ.filter (fun j : S100000x64.Idx =>
        scatter_S64x64_S100000x1_S100000x64_1_0_0_1.resultIdx? j idx = some (ix2 g k)), upd j
      = ∑ r : Fin 100000, (if (idx (ix2 r 0)).toInt = (g.val : Int) then upd (ix2 r k) else 0) := by
  rw [Finset.sum_filter, sum_idx2]
  refine Finset.sum_congr rfl fun r _ => ?_
  by_cases hr : (idx (ix2 r 0)).toInt = (g.val : Int)
  · rw [if_pos hr, Finset.sum_eq_single k]
    · rw [if_pos ((lands_iff idx r k g k).2 ⟨hr, rfl⟩)]
    · intro k' _ hk
      rw [if_neg (fun e => hk ((lands_iff idx r k' g k).1 e).2)]
    · intro hk
      exact absurd (Finset.mem_univ k) hk
  · rw [if_neg hr]
    refine Finset.sum_eq_zero fun k' _ => ?_
    rw [if_neg (fun e => hr ((lands_iff idx r k' g k).1 e).1)]

/-- Entry (g, k) of the per-graph scatter-add, the index word read signed. -/
theorem pool_scatter_apply_toInt (x : FVec Ideal S64x64 .f32) (idx : IVec S100000x1 32)
    (upd : FVec Ideal S100000x64 .f32) (g k : Fin 64) :
    Host.scatterAdd (F := Ideal) scatter_S64x64_S100000x1_S100000x64_1_0_0_1 x idx upd (ix2 g k)
      = x (ix2 g k) + ∑ r : Fin 100000, (if (idx (ix2 r 0)).toInt = (g.val : Int) then upd (ix2 r k) else 0) := by
  unfold Host.scatterAdd
  rw [Ideal.hostScatterAdd_def]
  unfold Ideal.hostScatterAdd
  exact congrArg (fun t => x (ix2 g k) + t) (landed_sum idx upd g k)

/-- Entry (g, k) of the per-graph scatter-add: the operand's entry plus the sum over the rows r whose index word
    is g of the update's entry (r, k). -/
theorem pool_scatter_apply (x : FVec Ideal S64x64 .f32) (idx : IVec S100000x1 32)
    (upd : FVec Ideal S100000x64 .f32) (g k : Fin 64) :
    Host.scatterAdd (F := Ideal) scatter_S64x64_S100000x1_S100000x64_1_0_0_1 x idx upd (ix2 g k)
      = x (ix2 g k) + ∑ r : Fin 100000, (if idx (ix2 r 0) = BitVec.ofNat 32 g.val then upd (ix2 r k) else 0) := by
  rw [pool_scatter_apply_toInt]
  refine congrArg (fun t => x (ix2 g k) + t) (Finset.sum_congr rfl fun r _ => ?_)
  by_cases hr : (idx (ix2 r 0)).toInt = (g.val : Int)
  · rw [if_pos hr, if_pos ((toInt_eq_iff _ g).1 hr)]
  · rw [if_neg hr, if_neg (fun e => hr ((toInt_eq_iff _ g).2 e))]

end Cert.ReferenceIdeal.Pool
-- ==== Proof.RefIndex.lean ====
/-
  The reference program's stages, read at an index.

  The reference is a two-layer graph convolution followed by a linear head and a mean pool. Each layer is
  a dense product, a degree-normalised neighbourhood sum (a scatter-add of gathered rows), a self term weighted by the
  square of the inverse square root of the degree, a bias and a maximum with zero. This module reads the stages the
  comparison with the kernel needs, entry by entry, from their operands entry by entry.

  Two further facts. The second layer recomputes the degree normalisation from the same arguments by the same
  operations, so its stages are equal to the first layer's (v66_eq_v13, v82_eq_v29). And where every entry of the edge
  table is non-negative, the wrap-around of negative indices "t < 0 ? t + 100000 : t" is the identity on the row of
  edge targets (v46_eq_v3, v99_eq_v3).
-/
import proofs.«412444_j18734647345319_3_alg».proof.Proof.Gen.ReferenceIdeal.Read
import proofs.«412444_j18734647345319_3_alg».proof.Proof.PoolScatter
import proofs.«412444_j18734647345319_3_alg».proof.Proof.PreDecode
import Idealize.ShloMosaic.Lib.ValueIdx

noncomputable section

namespace Cert.ReferenceIdeal.RefIndex

open Idealize.ShloMosaic Idealize.ShloMosaic.ValueIdx Cert.ReferenceIdeal Cert.ReferenceIdeal.Read

variable (x0 : (⟨S100000x128, .f32⟩ : BufTy).Contents (Elt Ideal)) (x1 : (⟨S2x1600000, .i32⟩ : BufTy).Contents (Elt Ideal))
  (x2 : (⟨S1600000, .f32⟩ : BufTy).Contents (Elt Ideal)) (x3 : (⟨S100000, .i32⟩ : BufTy).Contents (Elt Ideal))
  (x4 : (⟨S128x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S64x1, .f32⟩ : BufTy).Contents (Elt Ideal)) (x9 : (⟨S1, .f32⟩ : BufTy).Contents (Elt Ideal))

/-! ## The second layer's degree normalisation is the first layer's

Stage by stage, bottom-up: each stage of the second chain is the same operation applied to stages already known equal. -/

-- the zero and one constants
theorem cst_11_eq : val_main_cst_11 (F := Ideal) = val_main_cst (F := Ideal) := rfl
theorem cst_12_eq : val_main_cst_12 (F := Ideal) = val_main_cst_0 (F := Ideal) := rfl
theorem cst_13_eq : val_main_cst_13 (F := Ideal) = val_main_cst_1 (F := Ideal) := rfl
theorem cst_14_eq : val_main_cst_14 (F := Ideal) = val_main_cst_2 (F := Ideal) := rfl

-- the zero vector the degree sum starts from
theorem v58_eq_v5 : val_main_v58 (F := Ideal) = val_main_v5 (F := Ideal) := by
  unfold val_main_v58 val_main_v5; rw [cst_11_eq]
-- the edge targets as a column
theorem v59_eq_v6 : val_main_v59 (F := Ideal) x1 = val_main_v6 (F := Ideal) x1 := by
  unfold val_main_v59 val_main_v6; rfl
-- the weighted in-degree: the scatter-add of |w| by edge target
theorem v60_eq_v7 : val_main_v60 (F := Ideal) x1 x2 = val_main_v7 (F := Ideal) x1 x2 := by
  unfold val_main_v60 val_main_v7; rw [v58_eq_v5, v59_eq_v6]
theorem v61_eq_v8 : val_main_v61 (F := Ideal) = val_main_v8 (F := Ideal) := by
  unfold val_main_v61 val_main_v8; rw [cst_12_eq]
-- degree + 1
theorem v62_eq_v9 : val_main_v62 (F := Ideal) x1 x2 = val_main_v9 (F := Ideal) x1 x2 := by
  unfold val_main_v62 val_main_v9; rw [v60_eq_v7, v61_eq_v8]
theorem v63_eq_v10 : val_main_v63 (F := Ideal) = val_main_v10 (F := Ideal) := by
  unfold val_main_v63 val_main_v10; rw [cst_13_eq]
-- the mask "degree + 1 > 0"
theorem v64_eq_v11 : val_main_v64 (F := Ideal) x1 x2 = val_main_v11 (F := Ideal) x1 x2 := by
  unfold val_main_v64 val_main_v11; rw [v62_eq_v9, v63_eq_v10]
-- the inverse square root of degree + 1
theorem v65_eq_v12 : val_main_v65 (F := Ideal) x1 x2 = val_main_v12 (F := Ideal) x1 x2 := by
  unfold val_main_v65 val_main_v12; rw [v62_eq_v9]
theorem call2_v0_eq : val_main_call2_v0 (F := Ideal) = val_main_call0_v0 (F := Ideal) := by
  unfold val_main_call2_v0 val_main_call0_v0; rw [cst_14_eq]
theorem call2_v1_eq : val_main_call2_v1 (F := Ideal) = val_main_call0_v1 (F := Ideal) := by
  unfold val_main_call2_v1 val_main_call0_v1; rw [call2_v0_eq]

/-- The node normalisation (inverse square root of degree + 1 where that is positive, else 0) of the second layer is
    the first layer's. -/
theorem v66_eq_v13 : val_main_v66 (F := Ideal) x1 x2 = val_main_v13 (F := Ideal) x1 x2 := by
  unfold val_main_v66 val_main_v13; rw [v64_eq_v11, v65_eq_v12, call2_v1_eq]

-- the integer constants 0 and 100000 of the index wrap-around
theorem c_15_eq : val_main_c_15 (F := Ideal) = val_main_c (F := Ideal) := rfl
theorem c_16_eq : val_main_c_16 (F := Ideal) = val_main_c_3 (F := Ideal) := rfl
theorem c_17_eq : val_main_c_17 (F := Ideal) = val_main_c_4 (F := Ideal) := rfl
theorem c_18_eq : val_main_c_18 (F := Ideal) = val_main_c_5 (F := Ideal) := rfl

theorem v67_eq_v14 : val_main_v67 (F := Ideal) = val_main_v14 (F := Ideal) := by
  unfold val_main_v67 val_main_v14; rw [c_15_eq]
theorem v68_eq_v15 : val_main_v68 (F := Ideal) x1 = val_main_v15 (F := Ideal) x1 := by
  unfold val_main_v68 val_main_v15; rw [v67_eq_v14]
theorem v69_eq_v16 : val_main_v69 (F := Ideal) = val_main_v16 (F := Ideal) := by
  unfold val_main_v69 val_main_v16; rw [c_16_eq]
theorem v70_eq_v17 : val_main_v70 (F := Ideal) x1 = val_main_v17 (F := Ideal) x1 := by
  unfold val_main_v70 val_main_v17; rw [v69_eq_v16]
-- the wrapped edge sources
theorem v71_eq_v18 : val_main_v71 (F := Ideal) x1 = val_main_v18 (F := Ideal) x1 := by
  unfold val_main_v71 val_main_v18; rw [v68_eq_v15, v70_eq_v17]
theorem v72_eq_v19 : val_main_v72 (F := Ideal) x1 = val_main_v19 (F := Ideal) x1 := by
  unfold val_main_v72 val_main_v19; rw [v71_eq_v18]
-- the normalisation gathered at the edge sources
theorem v73_eq_v20 : val_main_v73 (F := Ideal) x1 x2 = val_main_v20 (F := Ideal) x1 x2 := by
  unfold val_main_v73 val_main_v20; rw [v66_eq_v13, v72_eq_v19]
theorem v74_eq_v21 : val_main_v74 (F := Ideal) x1 x2 = val_main_v21 (F := Ideal) x1 x2 := by
  unfold val_main_v74 val_main_v21; rw [v73_eq_v20]
theorem v75_eq_v22 : val_main_v75 (F := Ideal) = val_main_v22 (F := Ideal) := by
  unfold val_main_v75 val_main_v22; rw [c_17_eq]
theorem v76_eq_v23 : val_main_v76 (F := Ideal) x1 = val_main_v23 (F := Ideal) x1 := by
  unfold val_main_v76 val_main_v23; rw [v75_eq_v22]
theorem v77_eq_v24 : val_main_v77 (F := Ideal) = val_main_v24 (F := Ideal) := by
  unfold val_main_v77 val_main_v24; rw [c_18_eq]
theorem v78_eq_v25 : val_main_v78 (F := Ideal) x1 = val_main_v25 (F := Ideal) x1 := by
  unfold val_main_v78 val_main_v25; rw [v77_eq_v24]
-- the wrapped edge targets
theorem v79_eq_v26 : val_main_v79 (F := Ideal) x1 = val_main_v26 (F := Ideal) x1 := by
  unfold val_main_v79 val_main_v26; rw [v76_eq_v23, v78_eq_v25]
theorem v80_eq_v27 : val_main_v80 (F := Ideal) x1 = val_main_v27 (F := Ideal) x1 := by
  unfold val_main_v80 val_main_v27; rw [v79_eq_v26]
-- the normalisation gathered at the edge targets
theorem v81_eq_v28 : val_main_v81 (F := Ideal) x1 x2 = val_main_v28 (F := Ideal) x1 x2 := by
  unfold val_main_v81 val_main_v28; rw [v66_eq_v13, v80_eq_v27]

/-- The edge coefficient (normalisation at the source times |w| times normalisation at the target) of the second layer
    is the first layer's. -/
theorem v82_eq_v29 : val_main_v82 (F := Ideal) x1 x2 = val_main_v29 (F := Ideal) x1 x2 := by
  unfold val_main_v82 val_main_v29; rw [v74_eq_v21, v81_eq_v28]

/-! ## The index wrap-around is the identity on a non-negative edge table -/

/-- The entries of the row of edge targets are entries of the edge table. -/
theorem v3_nonneg (hx : ∀ i : S2x1600000.Idx, 0 ≤ (x1 i).toInt) (i : S1600000.Idx) :
    0 ≤ (val_main_v3 (F := Ideal) x1 i).toInt := by
  rw [val_main_v3_apply, val_main_v2_apply]; exact hx _

/-- First layer: the wrapped edge targets are the edge targets. -/
theorem v46_eq_v3 (hx : ∀ i : S2x1600000.Idx, 0 ≤ (x1 i).toInt) :
    val_main_v46 (F := Ideal) x1 = val_main_v3 (F := Ideal) x1 := by
  unfold val_main_v46 val_main_v43 val_main_v42 val_main_c_9
  exact Cert.KernelIdeal.PreDecode.select_neg_eq_self Gen.bcast_S_S1600000 (val_main_v3 (F := Ideal) x1)
    (val_main_v45 (F := Ideal) x1) (v3_nonneg x1 hx)

/-- Second layer: the wrapped edge targets are the edge targets. -/
theorem v99_eq_v3 (hx : ∀ i : S2x1600000.Idx, 0 ≤ (x1 i).toInt) :
    val_main_v99 (F := Ideal) x1 = val_main_v3 (F := Ideal) x1 := by
  unfold val_main_v99 val_main_v96 val_main_v95 val_main_c_22
  exact Cert.KernelIdeal.PreDecode.select_neg_eq_self Gen.bcast_S_S1600000 (val_main_v3 (F := Ideal) x1)
    (val_main_v98 (F := Ideal) x1) (v3_nonneg x1 hx)

/-! ## Indices of the layout stages, by coordinates

Each composed index map of the reference's broadcasts, reshapes and contractions, at an index given by its
coordinates, is again an index given by coordinates. -/

local notation "Z" => (Ideal.ofBits FTy.f32 0x00000000#32)

theorem lidx_v30 (a : Fin 100000) (j : Fin 64) (k : Fin 128) : lidx_main_v30 (ix2 a j) k = ix2 a k := by
  funext d; match d with | ⟨0, _⟩ => rfl | ⟨1, _⟩ => rfl
theorem ridx_v30 (a : Fin 100000) (j : Fin 64) (k : Fin 128) : ridx_main_v30 (ix2 a j) k = ix2 k j := by
  funext d; match d with | ⟨0, _⟩ => rfl | ⟨1, _⟩ => rfl
theorem lidx_v83 (a : Fin 100000) (j : Fin 64) (k : Fin 64) : lidx_main_v83 (ix2 a j) k = ix2 a k := by
  funext d; match d with | ⟨0, _⟩ => rfl | ⟨1, _⟩ => rfl
theorem ridx_v83 (a : Fin 100000) (j : Fin 64) (k : Fin 64) : ridx_main_v83 (ix2 a j) k = ix2 k j := by
  funext d; match d with | ⟨0, _⟩ => rfl | ⟨1, _⟩ => rfl
-- the row's squared normalisation, broadcast along the row
theorem idx_v50_v51 (a : Fin 100000) (k : Fin 64) : idx_main_v50 (idx_main_v51 (ix2 a k)) = ix1 a := by
  funext d; match d with | ⟨0, _⟩ => rfl
-- the bias, broadcast down the column
theorem idx_v54_v55 (a : Fin 100000) (k : Fin 64) : idx_main_v54 (idx_main_v55 (ix2 a k)) = ix1 k := by
  funext d; match d with | ⟨0, _⟩ => rfl
theorem idx_v103_v104 (a : Fin 100000) (k : Fin 64) : idx_main_v103 (idx_main_v104 (ix2 a k)) = ix1 a := by
  funext d; match d with | ⟨0, _⟩ => rfl
theorem idx_v107_v108 (a : Fin 100000) (k : Fin 64) : idx_main_v107 (idx_main_v108 (ix2 a k)) = ix1 k := by
  funext d; match d with | ⟨0, _⟩ => rfl
-- the head's column read back as a vector
theorem idx_v115 (a : Fin 100000) : idx_main_v115 (ix1 a) = ix2 a (0 : Fin 1) := by
  funext d; match d with
  | ⟨0, _⟩ => exact Fin.ext (Nat.div_one _)
  | ⟨1, _⟩ => rfl
theorem lidx_v111 (a : Fin 100000) (k : Fin 64) : lidx_main_v111 (ix2 a (0 : Fin 1)) k = ix2 a k := by
  funext d; match d with | ⟨0, _⟩ => rfl | ⟨1, _⟩ => rfl
theorem ridx_v111 (a : Fin 100000) (k : Fin 64) : ridx_main_v111 (ix2 a (0 : Fin 1)) k = ix2 k (0 : Fin 1) := by
  funext d; match d with | ⟨0, _⟩ => rfl | ⟨1, _⟩ => rfl
theorem idx_v112_v113 (a : Fin 100000) : idx_main_v112 (idx_main_v113 (ix2 a (0 : Fin 1))) = ix1 (0 : Fin 1) := by
  funext d; match d with | ⟨0, _⟩ => rfl
-- the graph id of a node, as a one-column table
theorem idx_v117 (r : Fin 100000) : idx_main_v117 (ix2 r (0 : Fin 1)) = ix1 r := by
  funext d; match d with | ⟨0, _⟩ => rfl

/-! ## The stages at an index -/

/-- The first dense product: entry (a, j) is the sum over k of x0 (a, k) * x4 (k, j). -/
theorem ref_v30_apply (a : Fin 100000) (j : Fin 64) :
    val_main_v30 (F := Ideal) x0 x4 (ix2 a j) = ∑ k : Fin 128, x0 (ix2 a k) * x4 (ix2 k j) := by
  refine (val_main_v30_apply x0 x4 (ix2 a j)).trans (Finset.sum_congr rfl fun k _ => ?_)
  rw [lidx_v30, ridx_v30]

/-- The first layer's output: the neighbourhood sum, plus the squared normalisation of the row times the dense
    product, plus the bias, cut off below at zero. -/
theorem ref_v57_apply (a : Fin 100000) (k : Fin 64) :
    val_main_v57 (F := Ideal) x0 x1 x2 x4 x5 (ix2 a k)
      = max ((val_main_v48 (F := Ideal) x0 x1 x2 x4 (ix2 a k)
              + (val_main_v13 (F := Ideal) x1 x2 (ix1 a) * val_main_v13 (F := Ideal) x1 x2 (ix1 a))
                * val_main_v30 (F := Ideal) x0 x4 (ix2 a k))
            + x5 (ix1 k)) Z := by
  rw [val_main_v57_apply, val_main_v56_apply, val_main_v53_apply, val_main_v52_apply, val_main_v51_apply,
    val_main_v50_apply, val_main_v49_apply, val_main_v55_apply, val_main_v54_apply, val_main_call1_v0_apply,
    val_main_call1_cst_apply, idx_v50_v51, idx_v54_v55]
  rfl

/-- The second dense product: entry (a, j) is the sum over k of the first layer's output (a, k) times x6 (k, j). -/
theorem ref_v83_apply (a : Fin 100000) (j : Fin 64) :
    val_main_v83 (F := Ideal) x0 x1 x2 x4 x5 x6 (ix2 a j)
      = ∑ k : Fin 64, val_main_v57 (F := Ideal) x0 x1 x2 x4 x5 (ix2 a k) * x6 (ix2 k j) := by
  refine (val_main_v83_apply x0 x1 x2 x4 x5 x6 (ix2 a j)).trans (Finset.sum_congr rfl fun k _ => ?_)
  rw [lidx_v83, ridx_v83]

/-- The second layer's output, of the same form as the first's. -/
theorem ref_v110_apply (a : Fin 100000) (k : Fin 64) :
    val_main_v110 (F := Ideal) x0 x1 x2 x4 x5 x6 x7 (ix2 a k)
      = max ((val_main_v101 (F := Ideal) x0 x1 x2 x4 x5 x6 (ix2 a k)
              + (val_main_v66 (F := Ideal) x1 x2 (ix1 a) * val_main_v66 (F := Ideal) x1 x2 (ix1 a))
                * val_main_v83 (F := Ideal) x0 x1 x2 x4 x5 x6 (ix2 a k))
            + x7 (ix1 k)) Z := by
  rw [val_main_v110_apply, val_main_v109_apply, val_main_v106_apply, val_main_v105_apply, val_main_v104_apply,
    val_main_v103_apply, val_main_v102_apply, val_main_v108_apply, val_main_v107_apply, val_main_call3_v0_apply,
    val_main_call3_cst_apply, idx_v103_v104, idx_v107_v108]
  rfl

/-- The per-node head: the second layer's row a against the one column of x8, plus the head's bias. -/
theorem ref_v115_apply (a : Fin 100000) :
    val_main_v115 (F := Ideal) x0 x1 x2 x4 x5 x6 x7 x8 x9 (ix1 a)
      = (∑ k : Fin 64, val_main_v110 (F := Ideal) x0 x1 x2 x4 x5 x6 x7 (ix2 a k) * x8 (ix2 k 0)) + x9 (ix1 0) := by
  rw [val_main_v115_apply, idx_v115, val_main_v114_apply, val_main_v113_apply, val_main_v112_apply, idx_v112_v113]
  refine congrArg (fun t => t + x9 (ix1 0)) ?_
  refine (val_main_v111_apply x0 x1 x2 x4 x5 x6 x7 x8 (ix2 a (0 : Fin 1))).trans (Finset.sum_congr rfl fun k _ => ?_)
  rw [lidx_v111, ridx_v111]

/-- The per-graph pool before the division: entry (g, k) is zero plus the sum, over the nodes r whose graph id is g, of
    the second layer's output (r, k). -/
theorem ref_v118_apply (g k : Fin 64) :
    val_main_v118 (F := Ideal) x0 x1 x2 x3 x4 x5 x6 x7 (ix2 g k)
      = Z + ∑ r : Fin 100000, (if x3 (ix1 r) = BitVec.ofNat 32 g.val
          then val_main_v110 (F := Ideal) x0 x1 x2 x4 x5 x6 x7 (ix2 r k) else 0) := by
  unfold val_main_v118
  generalize val_main_v110 (F := Ideal) x0 x1 x2 x4 x5 x6 x7 = upd
  refine (Cert.ReferenceIdeal.Pool.pool_scatter_apply _ _ upd g k).trans ?_
  refine congrArg₂ (· + ·) ?_ (Finset.sum_congr rfl fun r _ => ?_)
  · rw [val_main_v116_apply, val_main_cst_24_apply]; rfl
  · rw [val_main_v117_apply, idx_v117]

end Cert.ReferenceIdeal.RefIndex
-- ==== Proof.LibLayout2.lean ====
/-
  Small layout facts read at an entry: a column [M, 1] and a row [1, N] broadcast in dimensions [0, 1] to [M, N],
  a vector [N] broadcast in dimension [1] to one row [1, N], and a vector [M] recast as a column [M, 1].
-/
import Idealize.ShloMosaic.Lib.ValueIdx
import Idealize.ShloMosaic.Lib.ValueLayout
import Idealize.ShloMosaic.Lib.Pipeline.Value

noncomputable section

namespace Cert.LibLayout2

open Idealize.ShloMosaic Idealize.ShloMosaic.ValueIdx

variable {α : Type}

/-- A column broadcast over the columns reads, at (r, q), the column's entry of row r. -/
theorem bcast_col_apply {M N : Nat} (y : (⟨2, ![M, 1]⟩ : Shape).Idx → α)
    (h : (⟨2, ![M, 1]⟩ : Shape).BroadcastsInDim ⟨2, ![M, N]⟩ ![0, 1]) (r : Fin M) (q : Fin N) :
    broadcastInDim ⟨2, ![M, N]⟩ ![0, 1] h y (ix2 r q) = y (ix2 r (0 : Fin 1)) :=
  broadcastInDim_apply ![0, 1] h y (ix2 r q) (ix2 r (0 : Fin 1)) fun ax => by
    match ax with
    | ⟨0, _⟩ =>
      show r.val = if M = 1 then 0 else r.val
      split
      · have := r.isLt; omega
      · rfl
    | ⟨1, _⟩ => rfl

/-- A row broadcast over the rows reads, at (r, q), the row's entry of column q. -/
theorem bcast_row_apply {M N : Nat} (y : (⟨2, ![1, N]⟩ : Shape).Idx → α)
    (h : (⟨2, ![1, N]⟩ : Shape).BroadcastsInDim ⟨2, ![M, N]⟩ ![0, 1]) (r : Fin M) (q : Fin N) :
    broadcastInDim ⟨2, ![M, N]⟩ ![0, 1] h y (ix2 r q) = y (ix2 (0 : Fin 1) q) :=
  broadcastInDim_apply ![0, 1] h y (ix2 r q) (ix2 (0 : Fin 1) q) fun ax => by
    match ax with
    | ⟨0, _⟩ => rfl
    | ⟨1, _⟩ =>
      show q.val = if N = 1 then 0 else q.val
      split
      · have := q.isLt; omega
      · rfl

/-- A vector broadcast to one row reads, at (u, q), the vector's entry q. -/
theorem bcast_vec_row_apply {N : Nat} (b : (⟨1, ![N]⟩ : Shape).Idx → α)
    (h : (⟨1, ![N]⟩ : Shape).BroadcastsInDim ⟨2, ![1, N]⟩ ![1]) (u : Fin 1) (q : Fin N) :
    broadcastInDim ⟨2, ![1, N]⟩ ![1] h b (ix2 u q) = b (ix1 q) :=
  broadcastInDim_apply ![1] h b (ix2 u q) (ix1 q) fun ax => by
    match ax with
    | ⟨0, _⟩ =>
      show q.val = if N = 1 then 0 else q.val
      split
      · have := q.isLt; omega
      · rfl

/-- A vector recast as a column reads, at (r, u), the vector's entry r. -/
theorem shapeCast_a_a1_apply {M : Nat} (x : (⟨1, ![M]⟩ : Shape).Idx → α) (h : (⟨1, ![M]⟩ : Shape).ShapeCasts ⟨2, ![M, 1]⟩)
    (r : Fin M) (u : Fin 1) : shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    omega)

end Cert.LibLayout2

end
-- ==== Proof.HostB.lean ====
/-
  From the first region to the second region's exit.

  Region 0 leaves `x · W1` (its array after the last grid point is the plain product of the two argument arrays, the
  reference's first `dot_general`).  The host stretch after it gathers its rows at the edge sources, scales them by
  the edge normalisation and scatter-adds them onto the edge targets.  The reference scatters through the targets
  re-based the numpy way (a negative index counted from the end); under the precondition every entry of the edge
  table is non-negative, so the re-based targets are the targets and the two scatters are one.  Region 1 then leaves
  `relu (agg + dis² · xw + b1) · W2`, row by row, the reference's second `dot_general`.
-/
import proofs.«412444_j18734647345319_3_alg».proof.Proof.HostA
import proofs.«412444_j18734647345319_3_alg».proof.Proof.Region0
import proofs.«412444_j18734647345319_3_alg».proof.Proof.Region1
import proofs.«412444_j18734647345319_3_alg».proof.Proof.RefIndex
import proofs.«412444_j18734647345319_3_alg».proof.Proof.LibLayout2

set_option maxRecDepth 20000

noncomputable section

namespace Cert.KernelIdeal.Val

open Idealize.ShloMosaic Idealize.ShloMosaic.TcCoe Idealize.ShloMosaic.ValueIdx Idealize.SL.Sem Idealize.ShloMosaic.StableHlo
open Cert.KernelIdeal Cert.KernelIdeal.Gen
open Cert.ReferenceIdeal.Read (val_main_v1 val_main_v3 val_main_v13 val_main_v29 val_main_v30 val_main_cst_6 val_main_v31 val_main_v32
  val_main_c_7 val_main_v33 val_main_v34 val_main_c_8 val_main_v35 val_main_v36 val_main_v37 val_main_v38 val_main_v39 val_main_v40
  val_main_v41 val_main_v46 val_main_v47 val_main_v48 val_main_v57 val_main_v83)

/-! ## Two small layout facts -/

/-- A vector recast as one row reads, at (u, q), the vector's entry q. -/
theorem shapeCast_n_1n_apply {α : Type} {N : Nat} (x : (⟨1, ![N]⟩ : Shape).Idx → α)
    (h : (⟨1, ![N]⟩ : Shape).ShapeCasts ⟨2, ![1, N]⟩) (u : Fin 1) (q : Fin N) :
    shapeCast ⟨2, ![1, N]⟩ x h (ix2 u q) = x (ix1 q) :=
  shapeCast_apply x h _ _ (by
    have hu : u.val = 0 := by omega
    rw [Shape.rowMajor_val_two, Shape.rowMajor_val_one]
    show q.val = u.val * N + q.val
    rw [hu, Nat.zero_mul, Nat.zero_add])

/-- A column recast as a vector reads, at r, the column's entry (r, 0). -/
theorem shapeCast_a1_a_apply {α : Type} {M : Nat} (x : (⟨2, ![M, 1]⟩ : Shape).Idx → α)
    (h : (⟨2, ![M, 1]⟩ : Shape).ShapeCasts ⟨1, ![M]⟩) (r : Fin M) :
    shapeCast ⟨1, ![M]⟩ x h (ix1 r) = x (ix2 r (0 : Fin 1)) :=
  shapeCast_apply x h _ _ (by
    rw [Shape.rowMajor_val_two, Shape.rowMajor_val_one]
    show r.val * 1 + 0 = r.val
    omega)

variable (m : (ℓ : Loc nD τ sig) → Buf (Elt Ideal) ℓ) (ρ : Dev nD → PrngReg)

/-- The edge table as the reference's stages take it. -/
abbrev edges (c : Dev nD) : (⟨Cert.ReferenceIdeal.S2x1600000, .i32⟩ : BufTy).Contents (Elt Ideal) := (m ((c.tc : Thread nD τ).loc main_arg1))

/-- Every entry of the edge table is non-negative (what the precondition gives). -/
def EdgesNonneg (c : Dev nD) : Prop := ∀ i : Cert.ReferenceIdeal.S2x1600000.Idx, 0 ≤ BitVec.toInt (edges m c i)

/-! ## At the first region's exit: the region's arrays aside, as at its entry -/

theorem B4_v1 (c : Dev nD) : W4 (F := Ideal) m ρ c (Proc.devRef .tc main_v1) = val_main_v1 (F := Ideal) (m ((c.tc : Thread nD τ).loc main_arg1)) :=
  (W4_of_ne m ρ c main_v1 (by decide)).trans (B3_v1 m ρ c)
theorem B4_v3 (c : Dev nD) : W4 (F := Ideal) m ρ c (Proc.devRef .tc main_v3) = val_main_v3 (F := Ideal) (m ((c.tc : Thread nD τ).loc main_arg1)) :=
  (W4_of_ne m ρ c main_v3 (by decide)).trans (B3_v3 m ρ c)
theorem B4_v13 (c : Dev nD) : W4 (F := Ideal) m ρ c (Proc.devRef .tc main_v13) = val_main_v13 (F := Ideal) (m ((c.tc : Thread nD τ).loc main_arg1)) (m ((c.tc : Thread nD τ).loc main_arg2)) :=
  (W4_of_ne m ρ c main_v13 (by decide)).trans (B3_v13 m ρ c)
theorem B4_v29 (c : Dev nD) : W4 (F := Ideal) m ρ c (Proc.devRef .tc main_v29) = val_main_v29 (F := Ideal) (m ((c.tc : Thread nD τ).loc main_arg1)) (m ((c.tc : Thread nD τ).loc main_arg2)) :=
  (W4_of_ne m ρ c main_v29 (by decide)).trans (B3_v29 m ρ c)
theorem B4_arg3 (c : Dev nD) : W4 (F := Ideal) m ρ c (Proc.devRef .tc main_arg3) = (m ((c.tc : Thread nD τ).loc main_arg3)) :=
  (W4_of_ne m ρ c main_arg3 (by decide)).trans (B3_arg3 m ρ c)
theorem B4_arg5 (c : Dev nD) : W4 (F := Ideal) m ρ c (Proc.devRef .tc main_arg5) = (m ((c.tc : Thread nD τ).loc main_arg5)) :=
  (W4_of_ne m ρ c main_arg5 (by decide)).trans (B3_arg5 m ρ c)
theorem B4_arg6 (c : Dev nD) : W4 (F := Ideal) m ρ c (Proc.devRef .tc main_arg6) = (m ((c.tc : Thread nD τ).loc main_arg6)) :=
  (W4_of_ne m ρ c main_arg6 (by decide)).trans (B3_arg6 m ρ c)
theorem B4_arg7 (c : Dev nD) : W4 (F := Ideal) m ρ c (Proc.devRef .tc main_arg7) = (m ((c.tc : Thread nD τ).loc main_arg7)) :=
  (W4_of_ne m ρ c main_arg7 (by decide)).trans (B3_arg7 m ρ c)
theorem B4_arg8 (c : Dev nD) : W4 (F := Ideal) m ρ c (Proc.devRef .tc main_arg8) = (m ((c.tc : Thread nD τ).loc main_arg8)) :=
  (W4_of_ne m ρ c main_arg8 (by decide)).trans (B3_arg8 m ρ c)
theorem B4_arg9 (c : Dev nD) : W4 (F := Ideal) m ρ c (Proc.devRef .tc main_arg9) = (m ((c.tc : Thread nD τ).loc main_arg9)) :=
  (W4_of_ne m ρ c main_arg9 (by decide)).trans (B3_arg9 m ρ c)
theorem B4_arg10 (c : Dev nD) : W4 (F := Ideal) m ρ c (Proc.devRef .tc main_arg10) = (m ((c.tc : Thread nD τ).loc main_arg10)) :=
  (W4_of_ne m ρ c main_arg10 (by decide)).trans (B3_arg10 m ρ c)
theorem B4_arg11 (c : Dev nD) : W4 (F := Ideal) m ρ c (Proc.devRef .tc main_arg11) = (m ((c.tc : Thread nD τ).loc main_arg11)) :=
  (W4_of_ne m ρ c main_arg11 (by decide)).trans (B3_arg11 m ρ c)

/-- The plain product of the two argument arrays is the reference's first `dot_general`. -/
theorem matProd0_eq_ref (x : Vec Ideal S100000x128 .f32) (w : Vec Ideal S128x64 .f32) :
    matProd0 x w = val_main_v30 (F := Ideal) x w := by
  funext i
  obtain ⟨a, j, rfl⟩ : ∃ (a : Fin 100000) (j : Fin 64), i = ix2 a j := ⟨i 0, i 1, eq_ix2 i⟩
  rw [matProd0_apply, Cert.ReferenceIdeal.RefIndex.ref_v30_apply]

/-- Region 0's output array: `x · W1`. -/
theorem B4_v30 (c : Dev nD) : W4 (F := Ideal) m ρ c (Proc.devRef .tc main_v30) = val_main_v30 (F := Ideal) (m ((c.tc : Thread nD τ).loc main_arg0)) (m ((c.tc : Thread nD τ).loc main_arg4)) := by
  refine (W4_arr m ρ c 2).trans ((region0_eq (V3 m ρ) c).trans ?_)
  rw [show V3 (F := Ideal) m ρ c main_arg0 = (m ((c.tc : Thread nD τ).loc main_arg0)) from B3_arg0 m ρ c,
    show V3 (F := Ideal) m ρ c main_arg4 = (m ((c.tc : Thread nD τ).loc main_arg4)) from B3_arg4 m ρ c]
  exact matProd0_eq_ref _ _

/-! ## At the second region's entry -/

/-- The first layer's aggregate: the messages `norm · xw[src]` scatter-added onto the edge targets. -/
theorem B5_v44 (c : Dev nD) (hx : EdgesNonneg m c) :
    W5 (F := Ideal) m ρ c (Proc.devRef .tc main_v44) = val_main_v48 (F := Ideal) (m ((c.tc : Thread nD τ).loc main_arg0)) (m ((c.tc : Thread nD τ).loc main_arg1)) (m ((c.tc : Thread nD τ).loc main_arg2)) (m ((c.tc : Thread nD τ).loc main_arg4)) := by
  show StableHlo.after hostOps1 (W4 m ρ c) _ = _
  have h1 := B4_v1 m ρ c
  have h3 := B4_v3 m ρ c
  have h29 := B4_v29 m ρ c
  have h30 := B4_v30 m ρ c
  generalize W4 (F := Ideal) m ρ c = X at h1 h3 h29 h30 ⊢
  simp only [hostOps1]
  after_results_simp
  rw [h1, h3, h29, h30]
  unfold val_main_v48 val_main_v47 val_main_v41 val_main_v40 val_main_v39 val_main_v38 val_main_v37 val_main_v36 val_main_v35
    val_main_c_8 val_main_v34 val_main_v33 val_main_c_7 val_main_v32 val_main_v31 val_main_cst_6
  rw [Cert.ReferenceIdeal.RefIndex.v46_eq_v3 (edges m c) hx]
  rfl

/-- `dis` as a column. -/
theorem B5_v45 (c : Dev nD) :
    W5 (F := Ideal) m ρ c (Proc.devRef .tc main_v45) = shapeCast S100000x1 (val_main_v13 (F := Ideal) (m ((c.tc : Thread nD τ).loc main_arg1)) (m ((c.tc : Thread nD τ).loc main_arg2))) shapeCasts_S100000_S100000x1 := by
  show StableHlo.after hostOps1 (W4 m ρ c) _ = _
  have h13 := B4_v13 m ρ c
  generalize W4 (F := Ideal) m ρ c = X at h13 ⊢
  simp only [hostOps1]
  after_results_simp
  rw [h13]
  rfl

/-- The first bias as one row. -/
theorem B5_v46 (c : Dev nD) :
    W5 (F := Ideal) m ρ c (Proc.devRef .tc main_v46) = shapeCast S1x64 (m ((c.tc : Thread nD τ).loc main_arg5)) shapeCasts_S64_S1x64 := by
  show StableHlo.after hostOps1 (W4 m ρ c) _ = _
  have h5 := B4_arg5 m ρ c
  generalize W4 (F := Ideal) m ρ c = X at h5 ⊢
  simp only [hostOps1]
  after_results_simp
  rw [h5]
  rfl

local macro "stretch1_keeps" : tactic =>
  `(tactic| (show StableHlo.after hostOps1 (W4 m ρ _) _ = W4 m ρ _ _
             generalize W4 (F := Ideal) m ρ _ = X
             simp only [hostOps1]
             after_results_simp))

theorem B5_v1 (c : Dev nD) : W5 (F := Ideal) m ρ c (Proc.devRef .tc main_v1) = val_main_v1 (F := Ideal) (m ((c.tc : Thread nD τ).loc main_arg1)) :=
  (by stretch1_keeps : W5 (F := Ideal) m ρ c (Proc.devRef .tc main_v1) = W4 m ρ c (Proc.devRef .tc main_v1)).trans (B4_v1 m ρ c)
theorem B5_v3 (c : Dev nD) : W5 (F := Ideal) m ρ c (Proc.devRef .tc main_v3) = val_main_v3 (F := Ideal) (m ((c.tc : Thread nD τ).loc main_arg1)) :=
  (by stretch1_keeps : W5 (F := Ideal) m ρ c (Proc.devRef .tc main_v3) = W4 m ρ c (Proc.devRef .tc main_v3)).trans (B4_v3 m ρ c)
theorem B5_v13 (c : Dev nD) : W5 (F := Ideal) m ρ c (Proc.devRef .tc main_v13) = val_main_v13 (F := Ideal) (m ((c.tc : Thread nD τ).loc main_arg1)) (m ((c.tc : Thread nD τ).loc main_arg2)) :=
  (by stretch1_keeps : W5 (F := Ideal) m ρ c (Proc.devRef .tc main_v13) = W4 m ρ c (Proc.devRef .tc main_v13)).trans (B4_v13 m ρ c)
theorem B5_v29 (c : Dev nD) : W5 (F := Ideal) m ρ c (Proc.devRef .tc main_v29) = val_main_v29 (F := Ideal) (m ((c.tc : Thread nD τ).loc main_arg1)) (m ((c.tc : Thread nD τ).loc main_arg2)) :=
  (by stretch1_keeps : W5 (F := Ideal) m ρ c (Proc.devRef .tc main_v29) = W4 m ρ c (Proc.devRef .tc main_v29)).trans (B4_v29 m ρ c)
theorem B5_v30 (c : Dev nD) : W5 (F := Ideal) m ρ c (Proc.devRef .tc main_v30) = val_main_v30 (F := Ideal) (m ((c.tc : Thread nD τ).loc main_arg0)) (m ((c.tc : Thread nD τ).loc main_arg4)) :=
  (by stretch1_keeps : W5 (F := Ideal) m ρ c (Proc.devRef .tc main_v30) = W4 m ρ c (Proc.devRef .tc main_v30)).trans (B4_v30 m ρ c)
theorem B5_arg3 (c : Dev nD) : W5 (F := Ideal) m ρ c (Proc.devRef .tc main_arg3) = (m ((c.tc : Thread nD τ).loc main_arg3)) :=
  (by stretch1_keeps : W5 (F := Ideal) m ρ c (Proc.devRef .tc main_arg3) = W4 m ρ c (Proc.devRef .tc main_arg3)).trans (B4_arg3 m ρ c)
theorem B5_arg6 (c : Dev nD) : W5 (F := Ideal) m ρ c (Proc.devRef .tc main_arg6) = (m ((c.tc : Thread nD τ).loc main_arg6)) :=
  (by stretch1_keeps : W5 (F := Ideal) m ρ c (Proc.devRef .tc main_arg6) = W4 m ρ c (Proc.devRef .tc main_arg6)).trans (B4_arg6 m ρ c)
theorem B5_arg7 (c : Dev nD) : W5 (F := Ideal) m ρ c (Proc.devRef .tc main_arg7) = (m ((c.tc : Thread nD τ).loc main_arg7)) :=
  (by stretch1_keeps : W5 (F := Ideal) m ρ c (Proc.devRef .tc main_arg7) = W4 m ρ c (Proc.devRef .tc main_arg7)).trans (B4_arg7 m ρ c)
theorem B5_arg8 (c : Dev nD) : W5 (F := Ideal) m ρ c (Proc.devRef .tc main_arg8) = (m ((c.tc : Thread nD τ).loc main_arg8)) :=
  (by stretch1_keeps : W5 (F := Ideal) m ρ c (Proc.devRef .tc main_arg8) = W4 m ρ c (Proc.devRef .tc main_arg8)).trans (B4_arg8 m ρ c)
theorem B5_arg9 (c : Dev nD) : W5 (F := Ideal) m ρ c (Proc.devRef .tc main_arg9) = (m ((c.tc : Thread nD τ).loc main_arg9)) :=
  (by stretch1_keeps : W5 (F := Ideal) m ρ c (Proc.devRef .tc main_arg9) = W4 m ρ c (Proc.devRef .tc main_arg9)).trans (B4_arg9 m ρ c)
theorem B5_arg10 (c : Dev nD) : W5 (F := Ideal) m ρ c (Proc.devRef .tc main_arg10) = (m ((c.tc : Thread nD τ).loc main_arg10)) :=
  (by stretch1_keeps : W5 (F := Ideal) m ρ c (Proc.devRef .tc main_arg10) = W4 m ρ c (Proc.devRef .tc main_arg10)).trans (B4_arg10 m ρ c)
theorem B5_arg11 (c : Dev nD) : W5 (F := Ideal) m ρ c (Proc.devRef .tc main_arg11) = (m ((c.tc : Thread nD τ).loc main_arg11)) :=
  (by stretch1_keeps : W5 (F := Ideal) m ρ c (Proc.devRef .tc main_arg11) = W4 m ρ c (Proc.devRef .tc main_arg11)).trans (B4_arg11 m ρ c)

/-! ## The second region -/

/-- Row by row, `relu (agg + dis² · xw + b) · W2` over the reference's stages is the reference's second `dot_general`. -/
theorem comb1_eq_ref (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S1600000, .f32⟩ : BufTy).Contents (Elt Ideal))
    (x4 : (⟨Cert.ReferenceIdeal.S128x64, .f32⟩ : BufTy).Contents (Elt Ideal))
    (x5 : (⟨Cert.ReferenceIdeal.S64, .f32⟩ : BufTy).Contents (Elt Ideal))
    (x6 : (⟨Cert.ReferenceIdeal.S64x64, .f32⟩ : BufTy).Contents (Elt Ideal)) (a : Fin 100000) (j : Fin 64) :
    comb1 (val_main_v48 (F := Ideal) x0 x1 x2 x4) (val_main_v30 (F := Ideal) x0 x4)
        (shapeCast S100000x1 (val_main_v13 (F := Ideal) x1 x2) shapeCasts_S100000_S100000x1)
        (shapeCast S1x64 x5 shapeCasts_S64_S1x64) x6 a j
      = val_main_v83 (F := Ideal) x0 x1 x2 x4 x5 x6 (ix2 a j) := by
  rw [comb1_apply, Cert.ReferenceIdeal.RefIndex.ref_v83_apply]
  refine Finset.sum_congr rfl fun k _ => ?_
  rw [Cert.ReferenceIdeal.RefIndex.ref_v57_apply, Cert.LibLayout2.shapeCast_a_a1_apply, shapeCast_n_1n_apply]

/-- Region 1's output array: the second layer's `h1 · W2`. -/
theorem B6_v47 (c : Dev nD) (hx : EdgesNonneg m c) :
    W6 (F := Ideal) m ρ c (Proc.devRef .tc main_v47)
      = val_main_v83 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  refine (W6_arr m ρ c 5).trans ((final1 (V5 m ρ) c).trans ?_)
  have hG : G1 (V5 (F := Ideal) m ρ) c = val_main_v83 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
    funext i
    obtain ⟨a, j, rfl⟩ : ∃ (a : Fin 100000) (j : Fin 64), i = ix2 a j := ⟨i 0, i 1, eq_ix2 i⟩
    show comb1 (V5 m ρ c main_v44) (V5 m ρ c main_v30) (V5 m ρ c main_v45) (V5 m ρ c main_v46) (V5 m ρ c main_arg6) a j = _
    rw [show V5 (F := Ideal) m ρ c main_v44 = _ from B5_v44 m ρ c hx, show V5 (F := Ideal) m ρ c main_v30 = _ from B5_v30 m ρ c,
      show V5 (F := Ideal) m ρ c main_v45 = _ from B5_v45 m ρ c, show V5 (F := Ideal) m ρ c main_v46 = _ from B5_v46 m ρ c,
      show V5 (F := Ideal) m ρ c main_arg6 = _ from B5_arg6 m ρ c]
    exact comb1_eq_ref _ _ _ _ _ _ a j
  exact hG

end Cert.KernelIdeal.Val

end
-- ==== Proof.Region2Logits.lean ====
/-
  The logits column of the third kernel region, entry by entry, on the extended reals.

  The region walks 20 grid points. At point t it reads rows 5000 t .. 5000 t + 4999 of three row-blocked arrays — the
  neighbourhood sums s (64 columns), the transformed features xw (64 columns) and the scale column d (one column) — and,
  whole at every point, the bias row b (64 entries), the weight column aw (64 entries) and the one bias entry ab. From
  them it forms the layer's block

      h (r, k) = max ((s (r, k) + (d (r, 0) * d (r, 0)) * xw (r, k)) + b (0, k), 0)

  and stores, as rows 5000 t .. 5000 t + 4999 of the logits column,

      logits (r, 0) = (sum over k < 64 of h (r, k) * aw (k, 0)) + ab (0, 0).

  The product is a plain 5000 x 64 by 64 x 1 matrix product accumulated into the zero array, so an entry is the plain
  sum over the 64 columns; the bias entry is a 1 x 1 array broadcast to every row; changes of float format and casts to
  the same shape are the identity on extended reals. No algebraic law of the extended reals is used: every step replaces an entry of a
  block by the entry of the array it was read from, so nothing depends on finiteness.

  The body has two control cases — at the first point the running 64 x 64 sums block of the region's other output is
  first reset to zero, at the later points it is not — and the logits block is stored by the same single store of the
  same value in both; it does not read what an earlier point left. So what point t writes back is block t of ONE
  function of the region-entry arrays, row a being covered by point a / 5000, and the blocks tile the 100000 rows:
  after the last point the logits column is that function at every row.
-/
import proofs.«412444_j18734647345319_3_alg».proof.Proof.Gen.KernelIdeal.Frame
import proofs.«412444_j18734647345319_3_alg».proof.Proof.LibPlainAny
import Idealize.ShloMosaic.Lib.ValueIdx
import Idealize.ShloMosaic.Lib.ValueLayout
import Idealize.ShloMosaic.Lib.Pipeline.Value
import Idealize.ShloMosaic.Lib.Tactic
import Idealize.ShloMosaic.PureOps.Ideal.Laws

noncomputable section
namespace Cert.KernelIdeal.Val
open Idealize.ShloMosaic Idealize.ShloMosaic.TcCoe Idealize.ShloMosaic.ValueIdx Idealize.SL.Sem Cert.KernelIdeal Cert.KernelIdeal.Gen

/-! ## What each control case leaves in the logits block: the one stored value of the loaded blocks -/

section PiecesC
variable {F : FTy → Type} [FloatOps F]

theorem hzC : (![0, 0] : Fin 2 → Nat) = fun _ => 0 := funext fun a => by fin_cases a <;> rfl

theorem piece_A_7C (c : Dev nD) (i : grid2.Coords)
    (a1 : Memref sig .tc .vmem S5000x64 .f32) (h1 : a1.IsWhole) (a2 : Memref sig .tc .vmem S5000x64 .bf16) (h2 : a2.IsWhole)
    (a3 : Memref sig .tc .vmem S5000x1 .f32) (h3 : a3.IsWhole) (a4 : Memref sig .tc .vmem S1x64 .f32) (h4 : a4.IsWhole)
    (a5 : Memref sig .tc .vmem S64x1 .f32) (h5 : a5.IsWhole) (a6 : Memref sig .tc .vmem S1x1 .f32) (h6 : a6.IsWhole)
    (a7 : Memref sig .tc .vmem S5000x1 .i32) (h7 : a7.IsWhole) (a8 : Memref sig .tc .vmem S5000x1 .f32) (h8 : a8.IsWhole)
    (a9 : Memref sig .tc .vmem S64x64 .f32) (h9 : a9.IsWhole) (hc : cond2_0 i)
    (x0 : Vec F S5000x64 .f32) (x1 : Vec F S5000x64 .bf16) (x2 : Vec F S5000x1 .f32) (x3 : Vec F S1x64 .f32)
    (x4 : Vec F S64x1 .f32) (x5 : Vec F S1x1 .f32) (x6 : Vec F S5000x1 .i32) :
    out2_A_7 c i a1 h1 a2 h2 a3 h3 a4 h4 a5 h5 a6 h6 a7 h7 a8 h8 a9 h9 hc x0 x1 x2 x3 x4 x5 x6
      = k2_pay4 x2 x1 x0 x3 x4 x5 := by
  unfold out2_A_7
  rw [View.read_writes_eq_canon _ _ _ (cover2_A_7 c i a1 h1 a2 h2 a3 h3 a4 h4 a5 h5 a6 h6 a7 h7 a8 h8 a9 h9 hc x0 x1 x2 x3 x4 x5 x6)]
  unfold kernelRun2_A
  dsimp only
  sl_unfold_words
  rw [View.canon_unit_zero hzC]
  simp only [View.readAt_eq_ld, h1.read_unread, h2.read_unread, h3.read_unread, h4.read_unread, h5.read_unread, h6.read_unread,
    View.ld_unit_zero (S := S5000x64) hzC, View.ld_unit_zero (S := S5000x1) hzC, View.ld_unit_zero (S := S1x64) hzC,
    View.ld_unit_zero (S := S64x1) hzC, View.ld_unit_zero (S := S1x1) hzC]

theorem piece_B_7C (c : Dev nD) (i : grid2.Coords)
    (a1 : Memref sig .tc .vmem S5000x64 .f32) (h1 : a1.IsWhole) (a2 : Memref sig .tc .vmem S5000x64 .bf16) (h2 : a2.IsWhole)
    (a3 : Memref sig .tc .vmem S5000x1 .f32) (h3 : a3.IsWhole) (a4 : Memref sig .tc .vmem S1x64 .f32) (h4 : a4.IsWhole)
    (a5 : Memref sig .tc .vmem S64x1 .f32) (h5 : a5.IsWhole) (a6 : Memref sig .tc .vmem S1x1 .f32) (h6 : a6.IsWhole)
    (a7 : Memref sig .tc .vmem S5000x1 .i32) (h7 : a7.IsWhole) (a8 : Memref sig .tc .vmem S5000x1 .f32) (h8 : a8.IsWhole)
    (a9 : Memref sig .tc .vmem S64x64 .f32) (h9 : a9.IsWhole) (hc : ¬cond2_0 i)
    (x0 : Vec F S5000x64 .f32) (x1 : Vec F S5000x64 .bf16) (x2 : Vec F S5000x1 .f32) (x3 : Vec F S1x64 .f32)
    (x4 : Vec F S64x1 .f32) (x5 : Vec F S1x1 .f32) (x6 : Vec F S5000x1 .i32) (xo8 : Vec F S64x64 .f32) :
    out2_B_7 c i a1 h1 a2 h2 a3 h3 a4 h4 a5 h5 a6 h6 a7 h7 a8 h8 a9 h9 hc x0 x1 x2 x3 x4 x5 x6 xo8
      = k2_pay4 x2 x1 x0 x3 x4 x5 := by
  unfold out2_B_7
  rw [View.read_writes_eq_canon _ _ _ (cover2_B_7 c i a1 h1 a2 h2 a3 h3 a4 h4 a5 h5 a6 h6 a7 h7 a8 h8 a9 h9 hc x0 x1 x2 x3 x4 x5 x6 xo8)]
  unfold kernelRun2_B
  dsimp only
  sl_unfold_words
  rw [View.canon_unit_zero hzC]
  simp only [View.readAt_eq_ld, h1.read_unread, h2.read_unread, h3.read_unread, h4.read_unread, h5.read_unread, h6.read_unread,
    View.ld_unit_zero (S := S5000x64) hzC, View.ld_unit_zero (S := S5000x1) hzC, View.ld_unit_zero (S := S1x64) hzC,
    View.ld_unit_zero (S := S64x1) hzC, View.ld_unit_zero (S := S1x1) hzC]

end PiecesC

/-! ## The stored value read at an entry -/

section PayloadC

/-- The layer's value at one row and column, from the entries it depends on: the sums entry, the squared scale of the
    row times the transformed entry, the bias of the column, then the maximum with zero. -/
abbrev layerC {n : Nat} (s : FVec Ideal ⟨2, ![n, 64]⟩ .f32) (d : FVec Ideal ⟨2, ![n, 1]⟩ .f32) (xw : FVec Ideal ⟨2, ![n, 64]⟩ .bf16)
    (b : FVec Ideal S1x64 .f32) (r : Fin n) (k : Fin 64) : EReal :=
  max ((s (ix2 r k) + (d (ix2 r 0) * d (ix2 r 0)) * xw (ix2 r k)) + b (ix2 0 k)) (Ideal.ofBits .f32 0x00000000#32)

/-- The layer's block at entry (r, k): the pointwise operations read entry by entry; the scale column broadcast along the
    columns reads its entry of row r, the bias row broadcast along the rows reads its entry of column k; casts to the
    same shape and changes of float format are the identity. -/
theorem pay3_applyC (d : FVec Ideal S5000x1 .f32) (xw : FVec Ideal S5000x64 .bf16) (s : FVec Ideal S5000x64 .f32)
    (b : FVec Ideal S1x64 .f32) (r : Fin 5000) (k : Fin 64) :
    (k2_pay3 (F := Ideal) d xw s b) (ix2 r k) = layerC s d xw b r k := by
  unfold k2_pay3
  simp only [shapeCast_self]
  show max ((s (ix2 r k) + broadcastTo S5000x64 (mulf d d) _ (ix2 r k) * xw (ix2 r k))
      + broadcastTo S5000x64 b _ (ix2 r k)) (Ideal.ofBits .f32 0x00000000#32) = _
  rw [Cert.LibPlainDot.broadcast_col 5000 64 (mulf d d) _ r k, broadcastTo_1b_ab_apply b _ r k]
  rfl

/-- The logits block at entry (r, 0): the plain product of the layer's block with the weight column, summed over the 64
    columns, plus the one bias entry broadcast to every row. -/
theorem pay4_applyC (d : FVec Ideal S5000x1 .f32) (xw : FVec Ideal S5000x64 .bf16) (s : FVec Ideal S5000x64 .f32)
    (b : FVec Ideal S1x64 .f32) (aw : FVec Ideal S64x1 .f32) (ab : FVec Ideal S1x1 .f32) (r : Fin 5000) :
    (k2_pay4 (F := Ideal) d xw s b aw ab) (ix2 r 0)
      = (∑ k : Fin 64, layerC s d xw b r k * aw (ix2 k 0)) + ab (ix2 0 0) := by
  unfold k2_pay4
  simp only [shapeCast_self]
  show matmul (DotDims.plain 5000 64 1) none (k2_pay3 (F := Ideal) d xw s b) (truncf .bf16 aw _)
      (constant ⟨2, ![5000, 1]⟩ .f32 0x00000000#32) (ix2 r 0) + broadcastTo S5000x1 ab _ (ix2 r 0) = _
  rw [Cert.LibPlainAny.matmul_plain_zero_any 5000 64 1 (k2_pay3 (F := Ideal) d xw s b) (truncf .bf16 aw _) r 0,
    broadcastTo_1b_ab_apply ab _ r 0]
  refine congrArg (· + ab (ix2 0 0)) (Finset.sum_congr rfl fun k _ => ?_)
  rw [pay3_applyC d xw s b r k]
  rfl

end PayloadC

/-! ## From the blocks to the array -/

section ArrayC

variable (V : (c : Dev nD) → (b : Ref sig .tc) → Buf (Elt Ideal) ((c : Thread nD τ).loc b))

/-- Row 5000 t + r of the full arrays: where row r of a block sits at grid point t. -/
abbrev rowC (t : Fin cfg2.N) (r : Fin 5000) : Fin 100000 :=
  ⟨5000 * t.val + r.val, by
    have ht : t.val < 20 := lt_of_lt_of_eq t.isLt (show cfg2.N = 20 from N_2)
    have hr := r.isLt
    omega⟩

/-- The block indices at grid point t, decided once over the 20 points: the row-blocked windows (sums, transformed
    features, scale column, logits column) are at block (t, 0); the bias row, the weight column and the one bias entry are
    whole, at block (0, 0). -/
theorem idx_factsC : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_7.index t (0 : Fin 2) = t.val ∧ win2_7.index t (1 : Fin 2) = 0 :=
  (by decide +kernel : ∀ t : Fin grid2.N, _)

/-- The input blocks at grid point t, each at its literal type. -/
abbrev sblkC (c : Dev nD) (t : Fin cfg2.N) : FVec Ideal S5000x64 .f32 := iblk2 V c 0 t
abbrev xwblkC (c : Dev nD) (t : Fin cfg2.N) : FVec Ideal S5000x64 .bf16 := iblk2 V c 1 t
abbrev dblkC (c : Dev nD) (t : Fin cfg2.N) : FVec Ideal S5000x1 .f32 := iblk2 V c 2 t
abbrev bblkC (c : Dev nD) (t : Fin cfg2.N) : FVec Ideal S1x64 .f32 := iblk2 V c 3 t
abbrev awblkC (c : Dev nD) (t : Fin cfg2.N) : FVec Ideal S64x1 .f32 := iblk2 V c 4 t
abbrev abblkC (c : Dev nD) (t : Fin cfg2.N) : FVec Ideal S1x1 .f32 := iblk2 V c 5 t

/-- The region-entry arrays, each at its literal type. -/
abbrev sarrC (c : Dev nD) : FVec Ideal S100000x64 .f32 := V c main_v61
abbrev xwarrC (c : Dev nD) : FVec Ideal S100000x64 .bf16 := V c main_v47
abbrev darrC (c : Dev nD) : FVec Ideal S100000x1 .f32 := V c main_v62
abbrev barrC (c : Dev nD) : FVec Ideal S1x64 .f32 := V c main_v63
abbrev awarrC (c : Dev nD) : FVec Ideal S64x1 .f32 := V c main_arg8
abbrev abarrC (c : Dev nD) : FVec Ideal S1x1 .f32 := V c main_v64

/-- Entry (r, k) of the sums block at point t is entry (5000 t + r, k) of the sums array. -/
theorem sblk_applyC (c : Dev nD) (t : Fin cfg2.N) (r : Fin 5000) (k : Fin 64) :
    sblkC V c t (ix2 r k) = sarrC V c (ix2 (rowC t r) k) := by
  obtain ⟨e0, e1, -⟩ := idx_factsC t
  show sarrC V c (((cfg2.win 0).blk t).view.emb (ix2 r k)) = _
  refine congrArg _ (funext fun a => Fin.ext ?_)
  match a with
  | ⟨0, _⟩ => show win2_0.index t (0 : Fin 2) * 5000 + 1 * r.val = 5000 * t.val + r.val; rw [e0]; omega
  | ⟨1, _⟩ => show win2_0.index t (1 : Fin 2) * 64 + 1 * k.val = k.val; rw [e1]; omega

/-- Entry (r, k) of the transformed-features block at point t is entry (5000 t + r, k) of that array. -/
theorem xwblk_applyC (c : Dev nD) (t : Fin cfg2.N) (r : Fin 5000) (k : Fin 64) :
    xwblkC V c t (ix2 r k) = xwarrC V c (ix2 (rowC t r) k) := by
  obtain ⟨-, -, e0, e1, -⟩ := idx_factsC t
  show xwarrC V c (((cfg2.win 1).blk t).view.emb (ix2 r k)) = _
  refine congrArg _ (funext fun a => Fin.ext ?_)
  match a with
  | ⟨0, _⟩ => show win2_1.index t (0 : Fin 2) * 5000 + 1 * r.val = 5000 * t.val + r.val; rw [e0]; omega
  | ⟨1, _⟩ => show win2_1.index t (1 : Fin 2) * 64 + 1 * k.val = k.val; rw [e1]; omega

/-- Entry (r, 0) of the scale block at point t is entry (5000 t + r, 0) of the scale column. -/
theorem dblk_applyC (c : Dev nD) (t : Fin cfg2.N) (r : Fin 5000) :
    dblkC V c t (ix2 r 0) = darrC V c (ix2 (rowC t r) 0) := by
  obtain ⟨-, -, -, -, e0, e1, -⟩ := idx_factsC t
  show darrC V c (((cfg2.win 2).blk t).view.emb (ix2 r 0)) = _
  refine congrArg _ (funext fun a => Fin.ext ?_)
  match a with
  | ⟨0, _⟩ => show win2_2.index t (0 : Fin 2) * 5000 + 1 * r.val = 5000 * t.val + r.val; rw [e0]; omega
  | ⟨1, _⟩ => show win2_2.index t (1 : Fin 2) * 1 + 1 * (0 : ℕ) = 0; rw [e1]

/-- The bias row's block is the whole row at every point. -/
theorem bblk_applyC (c : Dev nD) (t : Fin cfg2.N) (k : Fin 64) :
    bblkC V c t (ix2 0 k) = barrC V c (ix2 0 k) := by
  obtain ⟨-, -, -, -, -, -, e0, e1, -⟩ := idx_factsC t
  show barrC V c (((cfg2.win 3).blk t).view.emb (ix2 0 k)) = _
  refine congrArg _ (funext fun a => Fin.ext ?_)
  match a with
  | ⟨0, _⟩ => show win2_3.index t (0 : Fin 2) * 1 + 1 * (0 : ℕ) = 0; rw [e0]
  | ⟨1, _⟩ => show win2_3.index t (1 : Fin 2) * 64 + 1 * k.val = k.val; rw [e1]; omega

/-- The weight column's block is the whole column at every point. -/
theorem awblk_applyC (c : Dev nD) (t : Fin cfg2.N) (k : Fin 64) :
    awblkC V c t (ix2 k 0) = awarrC V c (ix2 k 0) := by
  obtain ⟨-, -, -, -, -, -, -, -, e0, e1, -⟩ := idx_factsC t
  show awarrC V c (((cfg2.win 4).blk t).view.emb (ix2 k 0)) = _
  refine congrArg _ (funext fun a => Fin.ext ?_)
  match a with
  | ⟨0, _⟩ => show win2_4.index t (0 : Fin 2) * 64 + 1 * k.val = k.val; rw [e0]; omega
  | ⟨1, _⟩ => show win2_4.index t (1 : Fin 2) * 1 + 1 * (0 : ℕ) = 0; rw [e1]

/-- The one bias entry's block is that entry at every point. -/
theorem abblk_applyC (c : Dev nD) (t : Fin cfg2.N) :
    abblkC V c t (ix2 0 0) = abarrC V c (ix2 0 0) := by
  obtain ⟨-, -, -, -, -, -, -, -, -, -, e0, e1, -⟩ := idx_factsC t
  show abarrC V c (((cfg2.win 5).blk t).view.emb (ix2 0 0)) = _
  refine congrArg _ (funext fun a => Fin.ext ?_)
  match a with
  | ⟨0, _⟩ => show win2_5.index t (0 : Fin 2) * 1 + 1 * (0 : ℕ) = 0; rw [e0]
  | ⟨1, _⟩ => show win2_5.index t (1 : Fin 2) * 1 + 1 * (0 : ℕ) = 0; rw [e1]

/-- The layer's value at row a and column k, from the region-entry arrays: the sums entry plus the squared scale of the row
    times the transformed entry, plus the bias of the column, then the maximum with zero. -/
abbrev h2C (c : Dev nD) (a : Fin 100000) (k : Fin 64) : EReal :=
  max ((sarrC V c (ix2 a k) + (darrC V c (ix2 a 0) * darrC V c (ix2 a 0)) * xwarrC V c (ix2 a k)) + barrC V c (ix2 0 k))
    (Ideal.ofBits .f32 0x00000000#32)

/-- The logits column as ONE function of the region-entry arrays: at row a, the sum over the 64 columns of the layer's
    value times the weight, plus the bias entry. -/
abbrev logitsC (c : Dev nD) : FVec Ideal S100000x1 .f32 := fun i =>
  (∑ k : Fin 64, layerC (sarrC V c) (darrC V c) (xwarrC V c) (barrC V c) (i 0) k * awarrC V c (ix2 k 0)) + abarrC V c (ix2 0 0)

/-- The body's stored block at point t, at entry (r, 0), is the logits column at row 5000 t + r: every entry the block
    value reads is the corresponding entry of the arrays. -/
theorem blockval_eqC (c : Dev nD) (t : Fin cfg2.N) (r : Fin 5000) :
    (k2_pay4 (F := Ideal) (dblkC V c t) (xwblkC V c t) (sblkC V c t) (bblkC V c t) (awblkC V c t) (abblkC V c t)) (ix2 r 0)
      = logitsC V c (ix2 (rowC t r) 0) := by
  refine (pay4_applyC (dblkC V c t) (xwblkC V c t) (sblkC V c t) (bblkC V c t) (awblkC V c t) (abblkC V c t) r).trans ?_
  show (∑ k : Fin 64, layerC (sblkC V c t) (dblkC V c t) (xwblkC V c t) (bblkC V c t) r k * awblkC V c t (ix2 k 0)) + abblkC V c t (ix2 0 0)
    = (∑ k : Fin 64, layerC (sarrC V c) (darrC V c) (xwarrC V c) (barrC V c) (rowC t r) k * awarrC V c (ix2 k 0)) + abarrC V c (ix2 0 0)
  rw [abblk_applyC V c t]
  refine congrArg (· + abarrC V c (ix2 0 0)) (Finset.sum_congr rfl fun k _ => ?_)
  show max ((sblkC V c t (ix2 r k) + (dblkC V c t (ix2 r 0) * dblkC V c t (ix2 r 0)) * xwblkC V c t (ix2 r k)) + bblkC V c t (ix2 0 k))
      (Ideal.ofBits .f32 0x00000000#32) * awblkC V c t (ix2 k 0) = _
  rw [sblk_applyC V c t r k, dblk_applyC V c t r, xwblk_applyC V c t r k, bblk_applyC V c t k, awblk_applyC V c t k]

/-- What the body leaves in the logits block after point t, in either control case: the stored block value of the
    point's input blocks (the reset of the sums block at the first point does not touch it). -/
theorem outs7_eqC (c : Dev nD) (t : Fin cfg2.N) :
    (outsAt2 (F := Ideal) V c t.val t.isLt).1
      = k2_pay4 (F := Ideal) (dblkC V c t) (xwblkC V c t) (sblkC V c t) (bblkC V c t) (awblkC V c t) (abblkC V c t) := by
  by_cases h0 : t.val % 20 = 0
  · rw [outsAt2_A V c t h0]
    dsimp only
    exact piece_A_7C (F := Ideal) c (grid2.coords t) (ms2_0 t) (hs2_0 t) (ms2_1 t) (hs2_1 t) (ms2_2 t) (hs2_2 t) (ms2_3 t) (hs2_3 t)
      (ms2_4 t) (hs2_4 t) (ms2_5 t) (hs2_5 t) (ms2_6 t) (hs2_6 t) (ms2_7 t) (hs2_7 t) (ms2_8 t) (hs2_8 t) ((hcond2_0 t).mpr h0)
      (iblk2 V c 0 t) (iblk2 V c 1 t) (iblk2 V c 2 t) (iblk2 V c 3 t) (iblk2 V c 4 t) (iblk2 V c 5 t) (iblk2 V c 6 t)
  · rw [outsAt2_B V c t h0]
    dsimp only
    exact piece_B_7C (F := Ideal) c (grid2.coords t) (ms2_0 t) (hs2_0 t) (ms2_1 t) (hs2_1 t) (ms2_2 t) (hs2_2 t) (ms2_3 t) (hs2_3 t)
      (ms2_4 t) (hs2_4 t) (ms2_5 t) (hs2_5 t) (ms2_6 t) (hs2_6 t) (ms2_7 t) (hs2_7 t) (ms2_8 t) (hs2_8 t) (fun h => h0 ((hcond2_0 t).mp h))
      (iblk2 V c 0 t) (iblk2 V c 1 t) (iblk2 V c 2 t) (iblk2 V c 3 t) (iblk2 V c 4 t) (iblk2 V c 5 t) (iblk2 V c 6 t)
      (outsAt2 (F := Ideal) V c (t.val - 1) (Nat.lt_of_le_of_lt (Nat.sub_le _ _) t.isLt)).2

/-- What point t writes back is block t of the logits column. -/
theorem flushed7_eqC (c : Dev nD) (t : Fin cfg2.N) :
    (dat2 (F := Ideal) V c).flushed 7 t = ((cfg2.win 7).blk t).view.read (Elt Ideal) (logitsC V c) := by
  show (cfg2.win 7).cut (grid2.coords t) ((dat2 (F := Ideal) V c).after 7 t) = _
  rw [after2_7, outs7_eqC]
  obtain ⟨-, -, -, -, -, -, -, -, -, -, -, -, e0, e1⟩ := idx_factsC t
  refine funext fun (y : S5000x1.Idx) => ?_
  obtain ⟨r, q, rfl⟩ : ∃ (r : Fin 5000) (q : Fin 1), y = ix2 r q := ⟨y 0, y 1, eq_ix2 y⟩
  obtain rfl : q = 0 := Subsingleton.elim _ _
  show (k2_pay4 (F := Ideal) (dblkC V c t) (xwblkC V c t) (sblkC V c t) (bblkC V c t) (awblkC V c t) (abblkC V c t)) (ix2 r 0)
    = logitsC V c (((cfg2.win 7).blk t).view.emb (ix2 r 0))
  have he : ((cfg2.win 7).blk t).view.emb (ix2 r 0) = ix2 (rowC t r) 0 := funext fun a => Fin.ext (by
    match a with
    | ⟨0, _⟩ => show win2_7.index t (0 : Fin 2) * 5000 + 1 * r.val = 5000 * t.val + r.val; rw [e0]; omega
    | ⟨1, _⟩ => show win2_7.index t (1 : Fin 2) * 1 + 1 * (0 : ℕ) = 0; rw [e1])
  rw [he]
  exact blockval_eqC V c t r

/-- An index of the logits column is in point t's block iff each coordinate is in the block's range on its axis. -/
theorem mem_blk7C (t : Fin cfg2.N) (i : S100000x1.Idx) :
    i ∈ ((cfg2.win 7).blk t).view.set ↔ ∀ a : Fin 2, win2_7.index t a * S5000x1.size a ≤ (i a).val
      ∧ (i a).val < win2_7.index t a * S5000x1.size a + S5000x1.size a := by
  show i ∈ ((View.whole main_v66_0).slice (win2_7.rect t)).set ↔ _
  rw [View.set_slice_whole, Rect.mem_set_unit]
  exact Iff.rfl

/-- Every row of the logits column is covered: row a is in the block of point a / 5000, and every point writes back. -/
theorem cover7C (i : S100000x1.Idx) :
    ∃ t : Fin cfg2.N, (cfg2.win 7).flush t = true ∧ i ∈ ((cfg2.win 7).blk t).view.set := by
  have hi0 : (i 0).val < 100000 := idx2_lt0 i
  have hi1 : (i 1).val < 1 := idx2_lt1 i
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, -, -, -, -, -, -, e0, e1⟩ := idx_factsC t
  refine ⟨t, flush2_7 t, ?_⟩
  rw [mem_blk7C]
  intro a
  match a with
  | ⟨0, _⟩ =>
    show win2_7.index t (0 : Fin 2) * 5000 ≤ (i 0).val ∧ (i 0).val < win2_7.index t (0 : Fin 2) * 5000 + 5000
    rw [e0, ht]; omega
  | ⟨1, _⟩ =>
    show win2_7.index t (1 : Fin 2) * 1 ≤ (i 1).val ∧ (i 1).val < win2_7.index t (1 : Fin 2) * 1 + 1
    rw [e1]; omega

/-- The logits column after the last grid point is that one function of the region-entry arrays. -/
theorem final7C (c : Dev nD) : (dat2 (F := Ideal) V c).arrAt 7 cfg2.N = logitsC V c :=
  (dat2 (F := Ideal) V c).arrAt_eq_of_cover 7 (logitsC V c) (fun t _ => flushed7_eqC V c t) cover7C

end ArrayC

/-! ## The statement -/

section StatementC

/-- Entry (a, 0) of region 2's first output array (the logits column) after its last grid point: the sum over the 64
    columns of the layer's value at row a times the weight column's entry, plus the bias entry. -/
theorem region2_logits_apply (V : (c : Dev nD) → (b : Ref sig .tc) → Buf (Elt Ideal) ((c : Thread nD τ).loc b)) (c : Dev nD) (a : Fin 100000) :
    ((dat2 (F := Ideal) V c).arrAt 7 cfg2.N : Vec Ideal S100000x1 .f32) (ix2 a 0)
      = (∑ k : Fin 64, h2C V c a k * awarrC V c (ix2 k 0)) + abarrC V c (ix2 0 0) :=
  congrFun (final7C V c) (ix2 a 0)

end StatementC

end Cert.KernelIdeal.Val
end
-- ==== Proof.Region2Sums.lean ====
/-
  The per-graph sums of the second layer: what the pooling region leaves in its accumulated 64 x 64 output.

  The region walks the 100000 rows in twenty blocks of 5000. At each block it forms the layer's value
      layer (a, k) = max ((agg (a, k) + (d (a) * d (a)) * xw (a, k)) + bias (k)) 0
  for the block's rows, and a one-hot matrix of the rows' batch words, onehot (r, g) = 1 when the batch word of
  row r is the word of g and 0 otherwise, and adds to a 64 x 64 block the product that contracts BOTH factors over
  the block's rows:  out (g, k) += sum over the block's rows r of onehot (r, g) * layer (r, k).
  The first block first resets the 64 x 64 block to zero; every later block adds to what the block before left; the
  block is written back to its array once, after the last block, and it is the whole array.

  So entry (g, k) of the array ends at   0 + sum over ALL rows a whose batch word is g of layer (a, k).

  On the extended reals every change of float format is the identity, a product into the zero array is a plain sum,
  1 * x = x and 0 * x = 0 hold at every x (infinite ones too), and the order of the additions is changed by
  associativity alone: the running value after block n is (0 + (c_0 + ... + c_(n-1))) + c_n = 0 + (c_0 + ... + c_n).
  No distributivity and no cancellation is used. The twenty sums over 5000 rows are one sum over 100000 rows because
  (t, r) |-> 5000 t + r is a bijection of the pairs onto the rows.

  Steps: the product's operand indices at an output entry; the three value terms read at an entry (the update, the
  layer, the one-hot); what each control case leaves in the block, as the update over the case's inputs; each input
  block read off its array (block index * block size + the coordinate inside the block); the running value by
  induction on the block; the single write-back and its cover; the re-indexing of the double sum.
-/
import proofs.«412444_j18734647345319_3_alg».proof.Proof.Gen.KernelIdeal.Frame
import proofs.«412444_j18734647345319_3_alg».proof.Proof.LibPlainAny
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic
noncomputable section
namespace Cert.KernelIdeal.Val
open Idealize.ShloMosaic Idealize.ShloMosaic.TcCoe Idealize.ShloMosaic.ValueIdx Idealize.SL.Sem Cert.KernelIdeal Cert.KernelIdeal.Gen
open Idealize.ShloMosaic.Pipeline (Dat)

variable {F : FTy → Type} [FloatOps F]

/-- The zero offsets of a whole-block store or load. -/
theorem hzD : (![0, 0] : Fin 2 → Nat) = fun _ => 0 := funext fun a => by fin_cases a <;> rfl

/-! ## The update's product: both factors contracted over the block's rows -/

/-- The left operand's row coordinate is the contraction index's one coordinate. -/
theorem dot_lhs_rowD (j : S64x64.Idx) (q : dot_S5000x64_S5000x64_S64x64_0_0_1_1_n_n.contr.Idx) :
    (dot_S5000x64_S5000x64_S64x64_0_0_1_1_n_n.lhsIdx j q 0).val = (q ⟨0, Nat.one_pos⟩).val :=
  dot_S5000x64_S5000x64_S64x64_0_0_1_1_n_n.lhsIdx_val_of_single rfl j q
/-- The left operand's column coordinate is the output's row coordinate. -/
theorem dot_lhs_colD (j : S64x64.Idx) (q : dot_S5000x64_S5000x64_S64x64_0_0_1_1_n_n.contr.Idx) :
    (dot_S5000x64_S5000x64_S64x64_0_0_1_1_n_n.lhsIdx j q 1).val = (j 0).val := rfl
/-- The right operand's row coordinate is the contraction index's one coordinate. -/
theorem dot_rhs_rowD (j : S64x64.Idx) (q : dot_S5000x64_S5000x64_S64x64_0_0_1_1_n_n.contr.Idx) :
    (dot_S5000x64_S5000x64_S64x64_0_0_1_1_n_n.rhsIdx j q 0).val = (q ⟨0, Nat.one_pos⟩).val :=
  dot_S5000x64_S5000x64_S64x64_0_0_1_1_n_n.rhsIdx_val_of_single rfl j q
/-- The right operand's column coordinate is the output's column coordinate. -/
theorem dot_rhs_colD (j : S64x64.Idx) (q : dot_S5000x64_S5000x64_S64x64_0_0_1_1_n_n.contr.Idx) :
    (dot_S5000x64_S5000x64_S64x64_0_0_1_1_n_n.rhsIdx j q 1).val = (j 1).val := rfl

/-- At output (g, k) and contraction coordinate r the left operand is read at (r, g). -/
theorem dot_lhsIdxD (g k : Fin 64) (r : Fin 5000) :
    dot_S5000x64_S5000x64_S64x64_0_0_1_1_n_n.lhsIdx (ix2 g k)
      ((contrEquiv1 dot_S5000x64_S5000x64_S64x64_0_0_1_1_n_n 5000 rfl rfl).symm r) = ix2 r g :=
  funext fun b => Fin.ext (by
    have hk := contrEquiv1_symm_val dot_S5000x64_S5000x64_S64x64_0_0_1_1_n_n 5000 rfl rfl r
    match b with
    | ⟨0, _⟩ => exact (dot_lhs_rowD _ _).trans hk
    | ⟨1, _⟩ => exact dot_lhs_colD _ _)

/-- At output (g, k) and contraction coordinate r the right operand is read at (r, k). -/
theorem dot_rhsIdxD (g k : Fin 64) (r : Fin 5000) :
    dot_S5000x64_S5000x64_S64x64_0_0_1_1_n_n.rhsIdx (ix2 g k)
      ((contrEquiv1 dot_S5000x64_S5000x64_S64x64_0_0_1_1_n_n 5000 rfl rfl).symm r) = ix2 r k :=
  funext fun b => Fin.ext (by
    have hk := contrEquiv1_symm_val dot_S5000x64_S5000x64_S64x64_0_0_1_1_n_n 5000 rfl rfl r
    match b with
    | ⟨0, _⟩ => exact (dot_rhs_rowD _ _).trans hk
    | ⟨1, _⟩ => exact dot_rhs_colD _ _)

/-- The increment's product into the zero array at entry (g, k): the sum over the block's rows r of
    left (r, g) * right (r, k). -/
theorem matmul_rowsD {φ₁ φ₂ : FTy} (W : FVec Ideal S5000x64 φ₁) (X : FVec Ideal S5000x64 φ₂) (g k : Fin 64) :
    matmul dot_S5000x64_S5000x64_S64x64_0_0_1_1_n_n none W X (constant S64x64 .f32 0x00000000#32) (ix2 g k)
      = ∑ r : Fin 5000, (W (ix2 r g) : EReal) * (X (ix2 r k) : EReal) := by
  simp only [matmul]
  rw [Ideal.matmul_constant_zero_apply,
    ← Equiv.sum_comp (contrEquiv1 dot_S5000x64_S5000x64_S64x64_0_0_1_1_n_n 5000 rfl rfl).symm]
  refine Finset.sum_congr rfl fun r _ => ?_
  rw [dot_lhsIdxD, dot_rhsIdxD]

/-- The stored sums block at entry (g, k): what the buffer held there plus the sum over the block's rows r of
    onehot (r, g) * layer (r, k). -/
theorem pay1_applyD (v20 : FVec Ideal S5000x64 .bf16) (v36 : FVec Ideal S5000x64 .f32) (v39 : Vec Ideal S64x64 .f32)
    (g k : Fin 64) :
    (k2_pay1 (F := Ideal) v20 v36 v39) (ix2 g k)
      = (v39 (ix2 g k) : EReal) + ∑ r : Fin 5000, (v36 (ix2 r g) : EReal) * (v20 (ix2 r k) : EReal) := by
  unfold k2_pay1
  refine (addf_apply _ _ _).trans ?_
  refine congrArg₂ (· + ·) (congrFun (shapeCast_self v39 _) (ix2 g k)) ?_
  exact matmul_rowsD _ v20 g k

/-! ## The layer and the one-hot, read at an entry -/

/-- The layer's block at row r, column k: the clamp at zero of (agg + (d * d) * xw) + bias; every change of float
    format is the identity on the extended reals. -/
theorem pay3_applyD (v3 : FVec Ideal S5000x1 .f32) (v6 : FVec Ideal S5000x64 .bf16) (v11 : FVec Ideal S5000x64 .f32)
    (v14 : FVec Ideal S1x64 .f32) (r : Fin 5000) (k : Fin 64) :
    (k2_pay3 (F := Ideal) v3 v6 v11 v14) (ix2 r k)
      = max (((v11 (ix2 r k) : EReal) + ((v3 (ix2 r (0 : Fin 1)) : EReal) * (v3 (ix2 r (0 : Fin 1)) : EReal)) * (v6 (ix2 r k) : EReal))
              + (v14 (ix2 (0 : Fin 1) k) : EReal))
          (Ideal.ofBits .f32 0x00000000#32) := by
  unfold k2_pay3
  rw [shapeCast_self, shapeCast_self, shapeCast_self, shapeCast_self]
  show max ((v11 (ix2 r k) + broadcastTo S5000x64 (mulf (F := Ideal) (φ := .f32) v3 v3) broadcasts_S5000x1_S5000x64 (ix2 r k) * v6 (ix2 r k))
      + broadcastTo S5000x64 v14 broadcasts_S1x64_S5000x64 (ix2 r k)) (Ideal.ofBits .f32 0x00000000#32) = _
  rw [Cert.LibPlainDot.broadcast_col 5000 64 (mulf (F := Ideal) (φ := .f32) v3 v3) broadcasts_S5000x1_S5000x64 r k,
    broadcastTo_1b_ab_apply v14 broadcasts_S1x64_S5000x64 r k]
  rfl

/-- The one-hot block at row r, column g: one when the batch word of row r is the word of g, else zero. -/
theorem pay5_applyD (v29 : IVec S5000x1 32) (r : Fin 5000) (g : Fin 64) :
    (k2_pay5 (F := Ideal) v29) (ix2 r g)
      = if v29 (ix2 r (0 : Fin 1)) = BitVec.ofNat 32 g.val then (1 : EReal) else 0 := by
  unfold k2_pay5
  rw [shapeCast_self]
  show (((((IntOp.cmpi .eq (broadcastTo S5000x64 v29 broadcasts_S5000x1_S5000x64 (ix2 r g))
      (broadcastTo S5000x64 (iota .tc S1x64 32 [1] iota_S1x64_d1_w32) broadcasts_S1x64_S5000x64 (ix2 r g))).setWidth 32).toInt : ℝ)) : EReal) = _
  rw [Cert.LibPlainDot.broadcast_col 5000 64 v29 broadcasts_S5000x1_S5000x64 r g,
    broadcastTo_1b_ab_apply (iota .tc S1x64 32 [1] iota_S1x64_d1_w32) broadcasts_S1x64_S5000x64 r g,
    iota_single_apply]
  show (((((IntOp.cmpi .eq (v29 (ix2 r (0 : Fin 1))) (BitVec.ofNat 32 g.val)).setWidth 32).toInt : ℝ)) : EReal) = _
  by_cases h : v29 (ix2 r (0 : Fin 1)) = BitVec.ofNat 32 g.val
  · rw [if_pos h, h]
    have e : (IntOp.cmpi .eq (BitVec.ofNat 32 g.val) (BitVec.ofNat 32 g.val)) = 1#1 := by
      simp only [IntOp.cmpi, beq_self_eq_true]; rfl
    rw [e]
    have e2 : ((1#1 : BitVec 1).setWidth 32).toInt = 1 := by decide
    rw [e2]; simp
  · rw [if_neg h]
    have e : (IntOp.cmpi .eq (v29 (ix2 r (0 : Fin 1))) (BitVec.ofNat 32 g.val)) = 0#1 := by
      simp only [IntOp.cmpi, beq_eq_false_iff_ne.mpr h]; rfl
    rw [e]
    have e2 : ((0#1 : BitVec 1).setWidth 32).toInt = 0 := by decide
    rw [e2]; simp

/-! ## What each control case leaves in the sums block -/

/-- What a point other than the first leaves in the sums block: the stored update over the block held before. -/
theorem out2_B_8_eqD (c : Dev nD) (i : grid2.Coords)
    (a1 : Memref sig .tc .vmem S5000x64 .f32) (h1 : a1.IsWhole) (a2 : Memref sig .tc .vmem S5000x64 .bf16) (h2 : a2.IsWhole)
    (a3 : Memref sig .tc .vmem S5000x1 .f32) (h3 : a3.IsWhole) (a4 : Memref sig .tc .vmem S1x64 .f32) (h4 : a4.IsWhole)
    (a5 : Memref sig .tc .vmem S64x1 .f32) (h5 : a5.IsWhole) (a6 : Memref sig .tc .vmem S1x1 .f32) (h6 : a6.IsWhole)
    (a7 : Memref sig .tc .vmem S5000x1 .i32) (h7 : a7.IsWhole) (a8 : Memref sig .tc .vmem S5000x1 .f32) (h8 : a8.IsWhole)
    (a9 : Memref sig .tc .vmem S64x64 .f32) (h9 : a9.IsWhole) (hc : ¬cond2_0 i)
    (x0 : Vec F S5000x64 .f32) (x1 : Vec F S5000x64 .bf16) (x2 : Vec F S5000x1 .f32) (x3 : Vec F S1x64 .f32)
    (x4 : Vec F S64x1 .f32) (x5 : Vec F S1x1 .f32) (x6 : Vec F S5000x1 .i32) (xo8 : Vec F S64x64 .f32) :
    out2_B_8 c i a1 h1 a2 h2 a3 h3 a4 h4 a5 h5 a6 h6 a7 h7 a8 h8 a9 h9 hc x0 x1 x2 x3 x4 x5 x6 xo8 = k2_pay1 (k2_pay3 x2 x1 x0 x3) (k2_pay5 x6) xo8 := by
  unfold out2_B_8
  rw [View.read_writes_eq_canon _ _ _ (cover2_B_8 c i a1 h1 a2 h2 a3 h3 a4 h4 a5 h5 a6 h6 a7 h7 a8 h8 a9 h9 hc x0 x1 x2 x3 x4 x5 x6 xo8)]
  unfold kernelRun2_B
  dsimp only
  sl_unfold_words
  rw [View.canon_unit_zero hzD]
  simp only [View.readAt_eq_ld, h1.read_unread, h2.read_unread, h3.read_unread, h4.read_unread, h7.read_unread,
    h9.read_unread, View.ld_unit_zero (S := S64x64) hzD, View.ld_unit_zero (S := S5000x64) hzD,
    View.ld_unit_zero (S := S5000x1) hzD, View.ld_unit_zero (S := S1x64) hzD]

/-- What the first point leaves in the sums block: the zero block is stored, read back, and updated. -/
theorem out2_A_8_eqD (c : Dev nD) (i : grid2.Coords)
    (a1 : Memref sig .tc .vmem S5000x64 .f32) (h1 : a1.IsWhole) (a2 : Memref sig .tc .vmem S5000x64 .bf16) (h2 : a2.IsWhole)
    (a3 : Memref sig .tc .vmem S5000x1 .f32) (h3 : a3.IsWhole) (a4 : Memref sig .tc .vmem S1x64 .f32) (h4 : a4.IsWhole)
    (a5 : Memref sig .tc .vmem S64x1 .f32) (h5 : a5.IsWhole) (a6 : Memref sig .tc .vmem S1x1 .f32) (h6 : a6.IsWhole)
    (a7 : Memref sig .tc .vmem S5000x1 .i32) (h7 : a7.IsWhole) (a8 : Memref sig .tc .vmem S5000x1 .f32) (h8 : a8.IsWhole)
    (a9 : Memref sig .tc .vmem S64x64 .f32) (h9 : a9.IsWhole) (hc : cond2_0 i)
    (x0 : Vec F S5000x64 .f32) (x1 : Vec F S5000x64 .bf16) (x2 : Vec F S5000x1 .f32) (x3 : Vec F S1x64 .f32)
    (x4 : Vec F S64x1 .f32) (x5 : Vec F S1x1 .f32) (x6 : Vec F S5000x1 .i32) :
    out2_A_8 c i a1 h1 a2 h2 a3 h3 a4 h4 a5 h5 a6 h6 a7 h7 a8 h8 a9 h9 hc x0 x1 x2 x3 x4 x5 x6 = k2_pay1 (k2_pay3 x2 x1 x0 x3) (k2_pay5 x6) (k2_pay2 (F := F)) := by
  unfold out2_A_8
  rw [View.read_writes_eq_canon _ _ _ (cover2_A_8 c i a1 h1 a2 h2 a3 h3 a4 h4 a5 h5 a6 h6 a7 h7 a8 h8 a9 h9 hc x0 x1 x2 x3 x4 x5 x6)]
  unfold kernelRun2_A
  dsimp only
  sl_unfold_words
  rw [View.canon_cons_unit_zero (S := S64x64) hzD, View.readCov_unit_zero (S := S64x64) _ hzD]
  simp only [View.readAt_eq_ld, h1.read_unread, h2.read_unread, h3.read_unread, h4.read_unread, h7.read_unread,
    View.ld_unit_zero (S := S64x64) hzD, View.ld_unit_zero (S := S5000x64) hzD,
    View.ld_unit_zero (S := S5000x1) hzD, View.ld_unit_zero (S := S1x64) hzD]

/-! ## The input blocks read off their arrays, and the running value by induction on the point -/

section Arrays

variable (V : (c : Dev nD) → (b : Ref sig .tc) → Buf (Elt Ideal) ((c : Thread nD τ).loc b))

/-- The index maps of the windows the sums read, decided once over the grid's twenty points: the row-blocked windows sit at
    row block t and the one column block; the bias row stays at block (0, 0). -/
theorem idx_factsD : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_6.index t (0 : Fin 2) = t.val ∧ win2_6.index t (1 : Fin 2) = 0 :=
  (by decide +kernel : ∀ t : Fin grid2.N, _)

/-- Row r of row block t is row 5000 t + r of the array. -/
abbrev rowD (t : ℕ) (ht : t < 20) (r : Fin 5000) : Fin 100000 := ⟨5000 * t + r.val, by have := r.isLt; omega⟩

/-- The aggregate array as the region finds it (the neighbour sums), at its literal type. -/
abbrev aggArrD (c : Dev nD) : FVec Ideal S100000x64 .f32 := V c main_v61
/-- The transformed features as the region finds them. -/
abbrev xwArrD (c : Dev nD) : FVec Ideal S100000x64 .bf16 := V c main_v47
/-- The degree scale column as the region finds it. -/
abbrev dArrD (c : Dev nD) : FVec Ideal S100000x1 .f32 := V c main_v62
/-- The bias row as the region finds it. -/
abbrev bArrD (c : Dev nD) : FVec Ideal S1x64 .f32 := V c main_v63
/-- The batch words column as the region finds it. -/
abbrev batchArrD (c : Dev nD) : IVec S100000x1 32 := V c main_v65

/-- The aggregate's block at point t. -/
abbrev aggBlkD (c : Dev nD) (t : Fin cfg2.N) : FVec Ideal S5000x64 .f32 := iblk2 V c 0 t
/-- The transformed features' block at point t. -/
abbrev xwBlkD (c : Dev nD) (t : Fin cfg2.N) : FVec Ideal S5000x64 .bf16 := iblk2 V c 1 t
/-- The degree scale's block at point t. -/
abbrev dBlkD (c : Dev nD) (t : Fin cfg2.N) : FVec Ideal S5000x1 .f32 := iblk2 V c 2 t
/-- The bias row, whole at every point. -/
abbrev bBlkD (c : Dev nD) (t : Fin cfg2.N) : FVec Ideal S1x64 .f32 := iblk2 V c 3 t
/-- The batch words' block at point t. -/
abbrev batchBlkD (c : Dev nD) (t : Fin cfg2.N) : IVec S5000x1 32 := iblk2 V c 6 t

/-- The aggregate's block reads the array at row 5000 t + r, the same column. -/
theorem aggBlk_applyD (c : Dev nD) (t : Fin cfg2.N) (ht : t.val < 20) (r : Fin 5000) (k : Fin 64) :
    aggBlkD V c t (ix2 r k) = aggArrD V c (ix2 (rowD t.val ht r) k) := by
  obtain ⟨e0, e1, -⟩ := idx_factsD t
  show iblk2 V c 0 t (ix2 r k) = _
  unfold iblk2
  rw [View.read_apply]
  show V c main_v61 _ = V c main_v61 _
  congr 1
  funext a; apply Fin.ext
  match a with
  | ⟨0, _⟩ => show win2_0.index t (0 : Fin 2) * 5000 + 1 * r.val = 5000 * t.val + r.val; omega
  | ⟨1, _⟩ => show win2_0.index t (1 : Fin 2) * 64 + 1 * k.val = k.val; omega

/-- The transformed features' block reads the array at row 5000 t + r, the same column. -/
theorem xwBlk_applyD (c : Dev nD) (t : Fin cfg2.N) (ht : t.val < 20) (r : Fin 5000) (k : Fin 64) :
    xwBlkD V c t (ix2 r k) = xwArrD V c (ix2 (rowD t.val ht r) k) := by
  obtain ⟨-, -, e0, e1, -⟩ := idx_factsD t
  show iblk2 V c 1 t (ix2 r k) = _
  unfold iblk2
  rw [View.read_apply]
  show V c main_v47 _ = V c main_v47 _
  congr 1
  funext a; apply Fin.ext
  match a with
  | ⟨0, _⟩ => show win2_1.index t (0 : Fin 2) * 5000 + 1 * r.val = 5000 * t.val + r.val; omega
  | ⟨1, _⟩ => show win2_1.index t (1 : Fin 2) * 64 + 1 * k.val = k.val; omega

/-- The degree scale's block reads the column at row 5000 t + r. -/
theorem dBlk_applyD (c : Dev nD) (t : Fin cfg2.N) (ht : t.val < 20) (r : Fin 5000) :
    dBlkD V c t (ix2 r (0 : Fin 1)) = dArrD V c (ix2 (rowD t.val ht r) (0 : Fin 1)) := by
  obtain ⟨-, -, -, -, e0, e1, -⟩ := idx_factsD t
  show iblk2 V c 2 t (ix2 r (0 : Fin 1)) = _
  unfold iblk2
  rw [View.read_apply]
  show V c main_v62 _ = V c main_v62 _
  congr 1
  funext a; apply Fin.ext
  match a with
  | ⟨0, _⟩ => show win2_2.index t (0 : Fin 2) * 5000 + 1 * r.val = 5000 * t.val + r.val; omega
  | ⟨1, _⟩ => show win2_2.index t (1 : Fin 2) * 1 + 1 * 0 = 0; omega

/-- The bias row's block is the row itself. -/
theorem bBlk_applyD (c : Dev nD) (t : Fin cfg2.N) (k : Fin 64) :
    bBlkD V c t (ix2 (0 : Fin 1) k) = bArrD V c (ix2 (0 : Fin 1) k) := by
  obtain ⟨-, -, -, -, -, -, e0, e1, -⟩ := idx_factsD t
  show iblk2 V c 3 t (ix2 (0 : Fin 1) k) = _
  unfold iblk2
  rw [View.read_apply]
  show V c main_v63 _ = V c main_v63 _
  congr 1
  funext a; apply Fin.ext
  match a with
  | ⟨0, _⟩ => show win2_3.index t (0 : Fin 2) * 1 + 1 * 0 = 0; omega
  | ⟨1, _⟩ => show win2_3.index t (1 : Fin 2) * 64 + 1 * k.val = k.val; omega

/-- The batch words' block reads the column at row 5000 t + r. -/
theorem batchBlk_applyD (c : Dev nD) (t : Fin cfg2.N) (ht : t.val < 20) (r : Fin 5000) :
    batchBlkD V c t (ix2 r (0 : Fin 1)) = batchArrD V c (ix2 (rowD t.val ht r) (0 : Fin 1)) := by
  obtain ⟨-, -, -, -, -, -, -, -, e0, e1⟩ := idx_factsD t
  show iblk2 V c 6 t (ix2 r (0 : Fin 1)) = _
  unfold iblk2
  rw [View.read_apply]
  show V c main_v65 _ = V c main_v65 _
  congr 1
  funext a; apply Fin.ext
  match a with
  | ⟨0, _⟩ => show win2_6.index t (0 : Fin 2) * 5000 + 1 * r.val = 5000 * t.val + r.val; omega
  | ⟨1, _⟩ => show win2_6.index t (1 : Fin 2) * 1 + 1 * 0 = 0; omega

/-- The layer's value at array row a, column k: the clamp at zero of (agg + (d * d) * xw) + bias. -/
abbrev layerD (c : Dev nD) (a : Fin 100000) (k : Fin 64) : EReal :=
  max ((aggArrD V c (ix2 a k) + (dArrD V c (ix2 a (0 : Fin 1)) * dArrD V c (ix2 a (0 : Fin 1))) * xwArrD V c (ix2 a k))
        + bArrD V c (ix2 (0 : Fin 1) k))
      (Ideal.ofBits .f32 0x00000000#32)

/-- Array row a's contribution to entry (g, k): the layer's value when the row's batch word is g, else nothing. -/
abbrev termD (c : Dev nD) (g k : Fin 64) (a : Fin 100000) : EReal :=
  if batchArrD V c (ix2 a (0 : Fin 1)) = BitVec.ofNat 32 g.val then layerD V c a k else 0

/-- Point t's contribution to entry (g, k): the sum over its 5000 rows. -/
def incD (c : Dev nD) (g k : Fin 64) (t : ℕ) : EReal :=
  if ht : t < 20 then ∑ r : Fin 5000, termD V c g k (rowD t ht r) else 0

/-- The update stored at point t, at entry (g, k): what the block held plus the point's contribution. A one-hot
    factor 1 keeps the layer's value and a factor 0 removes it (0 * x = 0 on the extended reals). -/
theorem point_incD (c : Dev nD) (t : Fin cfg2.N) (ht : t.val < 20) (acc : Vec Ideal S64x64 .f32) (g k : Fin 64) :
    (k2_pay1 (F := Ideal) (k2_pay3 (dBlkD V c t) (xwBlkD V c t) (aggBlkD V c t) (bBlkD V c t)) (k2_pay5 (batchBlkD V c t)) acc) (ix2 g k)
      = (acc (ix2 g k) : EReal) + incD V c g k t.val := by
  refine (pay1_applyD _ _ acc g k).trans ?_
  refine congrArg (fun s => (acc (ix2 g k) : EReal) + s) ?_
  unfold incD
  rw [dif_pos ht]
  refine Finset.sum_congr rfl fun r _ => ?_
  rw [pay5_applyD, pay3_applyD, aggBlk_applyD V c t ht, xwBlk_applyD V c t ht, dBlk_applyD V c t ht, bBlk_applyD V c t,
    batchBlk_applyD V c t ht]
  show (if _ then (1 : EReal) else 0) * layerD V c (rowD t.val ht r) k = termD V c g k (rowD t.val ht r)
  by_cases h : batchArrD V c (ix2 (rowD t.val ht r) (0 : Fin 1)) = BitVec.ofNat 32 g.val
  · rw [if_pos h, one_mul]; exact (if_pos h).symm
  · rw [if_neg h, zero_mul]; exact (if_neg h).symm

/-- After point n the sums block holds, at entry (g, k), the zero plus the contributions of points 0 … n: the first
    point resets the block to zero and adds its own, every later point adds to what the point before left. Only
    associativity of the addition is used. -/
theorem sums_atD (c : Dev nD) (g k : Fin 64) : ∀ (n : ℕ) (hn : n < cfg2.N),
    ((outsAt2 V c n hn).2 : Vec Ideal S64x64 .f32) (ix2 g k)
      = Ideal.ofBits .f32 0x00000000#32 + ∑ t ∈ Finset.range (n + 1), incD V c g k t
  | 0, hn => by
    rw [outsAt2_A V c ⟨0, hn⟩ rfl]
    dsimp only
    refine (congrFun (out2_A_8_eqD (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) ((hcond2_0 ⟨0, hn⟩).mpr rfl) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩)) (ix2 g k)).trans ?_
    refine (point_incD V c ⟨0, hn⟩ (show (0 : ℕ) < 20 by decide) (k2_pay2 (F := Ideal)) g k).trans ?_
    rw [Finset.sum_range_one]
    rfl
  | n + 1, hn => by
    have hN : cfg2.N = 20 := N_2
    have hB : ¬(⟨n + 1, hn⟩ : Fin cfg2.N).val % 20 = 0 := by dsimp only; omega
    rw [outsAt2_B V c ⟨n + 1, hn⟩ hB]
    dsimp only
    refine (congrFun (out2_B_8_eqD (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (fun h => hB ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 V c n (Nat.lt_of_succ_lt hn)).2) (ix2 g k)).trans ?_
    refine (point_incD V c ⟨n + 1, hn⟩ (by dsimp only; omega) (outsAt2 V c n (Nat.lt_of_succ_lt hn)).2 g k).trans ?_
    rw [sums_atD c g k n (Nat.lt_of_succ_lt hn), Finset.sum_range_succ _ (n + 1), add_assoc]

/-! ## The single write-back, its cover, and the re-indexing of the double sum -/

/-- The last grid point, the only one at which the sums block is written back. -/
abbrev lastD : Fin cfg2.N := ⟨19, by have : cfg2.N = 20 := N_2; omega⟩

/-- What the sums block holds after the last point. -/
abbrev resultD (c : Dev nD) : Buf (Elt Ideal) ((c : Thread nD τ).loc main_v66_1) := (outsAt2 V c 19 lastD.isLt).2

/-- The one write-back of the sums array, at the last point, writes that block: block (0, 0) of the [64, 64] array read
    through zero offsets is the whole array. -/
theorem flushed8D (c : Dev nD) (t : Fin cfg2.N) (hf : (cfg2.win 8).flush t = true) :
    (dat2 V c).flushed 8 t = ((cfg2.win 8).blk t).view.read (Elt Ideal) (resultD V c) := by
  have hN : cfg2.N = 20 := N_2
  have h19 : t.val = 19 := by have := (flush2_8 t).mp hf; have := t.isLt; omega
  obtain rfl : t = lastD := Fin.ext h19
  show (cfg2.win 8).cut (grid2.coords lastD) ((dat2 V c).after 8 lastD) = _
  rw [after2_8]
  have hz' : (fun a => win2_8.index lastD a * main_v66_1.ty.shape.size a) = fun _ => 0 :=
    funext fun a => by fin_cases a <;> decide +kernel
  exact (Memref.read_access_unit_zero (Elt Ideal) main_v66_1 hz' (fun a => by rw [congrFun hz' a]; simp) (resultD V c)).symm

/-- So the sums array ends holding what the block held after the last point: the last point's block covers every
    index of the array. -/
theorem final8D (c : Dev nD) : (dat2 V c).arrAt 8 cfg2.N = resultD V c :=
  (dat2 V c).arrAt_eq_of_cover 8 (resultD V c) (flushed8D V c) fun i =>
    ⟨lastD, (flush2_8 lastD).mpr rfl, by
      show i ∈ ((View.whole main_v66_1).slice (win2_8.rect lastD)).set
      rw [View.set_slice_whole, Rect.mem_set_unit]
      intro a
      have h0 : (i 0 : Nat) < 64 := (i 0).isLt
      have h1 : (i 1 : Nat) < 64 := (i 1).isLt
      match a with
      | ⟨0, _⟩ =>
        show win2_8.index lastD 0 * win2_8.size 0 ≤ (i 0 : Nat)
          ∧ (i 0 : Nat) < win2_8.index lastD 0 * win2_8.size 0 + win2_8.xsize (grid2.coords lastD) 0
        rw [show win2_8.index lastD 0 * win2_8.size 0 = 0 from by decide +kernel,
          show win2_8.xsize (grid2.coords lastD) 0 = 64 from by decide +kernel]
        omega
      | ⟨1, _⟩ =>
        show win2_8.index lastD 1 * win2_8.size 1 ≤ (i 1 : Nat)
          ∧ (i 1 : Nat) < win2_8.index lastD 1 * win2_8.size 1 + win2_8.xsize (grid2.coords lastD) 1
        rw [show win2_8.index lastD 1 * win2_8.size 1 = 0 from by decide +kernel,
          show win2_8.xsize (grid2.coords lastD) 1 = 64 from by decide +kernel]
        omega⟩

/-- The contributions of the twenty points, each a sum over its 5000 rows, are together the sum over all 100000 rows:
    (t, r) ↦ 5000 t + r is a bijection of pairs onto rows. -/
theorem sum_pointsD (c : Dev nD) (g k : Fin 64) :
    ∑ t ∈ Finset.range 20, incD V c g k t = ∑ a : Fin 100000, termD V c g k a := by
  rw [Finset.sum_range]
  have hinc : ∀ t : Fin 20, incD V c g k t.val = ∑ r : Fin 5000, termD V c g k (rowD t.val t.isLt r) := fun t => by
    unfold incD; rw [dif_pos t.isLt]
  rw [Finset.sum_congr rfl fun t _ => hinc t, ← Fintype.sum_prod_type']
  refine Fintype.sum_equiv (finProdFinEquiv : Fin 20 × Fin 5000 ≃ Fin 100000) _ _ fun p => ?_
  refine congrArg (termD V c g k) (Fin.ext ?_)
  show 5000 * p.1.val + p.2.val = p.2.val + 5000 * p.1.val
  omega

end Arrays

/-- Entry (g, k) of region 2's second output array (the per-graph sums) after its last grid point: the zero literal plus
    the sum over ALL rows r whose batch word is g of the layer's value at row r, column k. -/
theorem region2_sums_apply (V : (c : Dev nD) → (b : Ref sig .tc) → Buf (Elt Ideal) ((c : Thread nD τ).loc b)) (c : Dev nD)
    (g k : Fin 64) :
    ((dat2 (F := Ideal) V c).arrAt 8 cfg2.N : Vec Ideal S64x64 .f32) (ix2 g k)
      = (Ideal.ofBits .f32 0x00000000#32)
        + ∑ r : Fin 100000, (if batchArrD V c (ix2 r 0) = BitVec.ofNat 32 g.val then layerD V c r k else 0) := by
  rw [final8D V c]
  refine (sums_atD V c g k 19 lastD.isLt).trans ?_
  exact congrArg (fun s => (Ideal.ofBits .f32 0x00000000#32 : EReal) + s) (sum_pointsD V c g k)

end Cert.KernelIdeal.Val
end
-- ==== Proof.HostC.lean ====
/-
  From the second region's exit to the results.

  The host stretch before the third region forms the second layer's aggregate exactly as the first (the reference
  recomputes `dis` and `norm` for its second layer: the same operations of the same arguments).  Region 2 leaves the
  logits column `relu (agg + dis² · xw2 + b2) · aw + ab` and, accumulated over its twenty grid points, the per-graph
  sums: entry (g, k) is zero plus the sum over ALL nodes r whose graph number is g of the layer's value at (r, k) —
  the reference's scatter-add of the layer's rows onto the graph numbers, an out-of-range graph number contributing
  to neither.  The tail (node counts per graph, the division, the value head) is the reference's, operation for
  operation, but for the counts' column being a recast where the reference broadcasts: the same array.
-/
import proofs.«412444_j18734647345319_3_alg».proof.Proof.HostB
import proofs.«412444_j18734647345319_3_alg».proof.Proof.Region2Logits
import proofs.«412444_j18734647345319_3_alg».proof.Proof.Region2Sums

set_option maxRecDepth 20000

noncomputable section

namespace Cert.KernelIdeal.Val

open Idealize.ShloMosaic Idealize.ShloMosaic.TcCoe Idealize.ShloMosaic.ValueIdx Idealize.SL.Sem Idealize.ShloMosaic.StableHlo
open Cert.KernelIdeal Cert.KernelIdeal.Gen
open Cert.ReferenceIdeal.Read (val_main_v1 val_main_v3 val_main_v13 val_main_v29 val_main_v66 val_main_v82 val_main_v83 val_main_cst_19 val_main_v84
  val_main_v85 val_main_c_20 val_main_v86 val_main_v87 val_main_c_21 val_main_v88 val_main_v89 val_main_v90 val_main_v91 val_main_v92
  val_main_v93 val_main_v94 val_main_v99 val_main_v100 val_main_v101 val_main_v110 val_main_v114 val_main_v115 val_main_v118
  val_main_cst_25 val_main_v119 val_main_cst_26 val_main_v120 val_main_v121 val_main_v122 val_main_cst_27 val_main_v123 val_main_v124
  val_main_v125 val_main_v126 val_main_v127 val_main_v128 val_main_v129 val_main_v130 val_main_v131)

/-- A vector recast as a column is the vector broadcast along a new trailing unit axis. -/
theorem shapeCast_col_eq_bcast {α : Type} {M : Nat} (y : (⟨1, ![M]⟩ : Shape).Idx → α)
    (h : (⟨1, ![M]⟩ : Shape).ShapeCasts ⟨2, ![M, 1]⟩) (h' : (⟨1, ![M]⟩ : Shape).BroadcastsInDim ⟨2, ![M, 1]⟩ ![0]) :
    shapeCast ⟨2, ![M, 1]⟩ y h = broadcastInDim ⟨2, ![M, 1]⟩ ![0] h' y := by
  funext i
  obtain ⟨r, u, rfl⟩ : ∃ (r : Fin M) (u : Fin 1), i = ix2 r u := ⟨i 0, i 1, eq_ix2 i⟩
  rw [Cert.LibLayout2.shapeCast_a_a1_apply]
  refine (broadcastInDim_apply ![0] h' y (ix2 r u) (ix1 r) fun ax => ?_).symm
  match ax with
  | ⟨0, _⟩ =>
    show r.val = if M = 1 then 0 else r.val
    split
    · have := r.isLt; omega
    · rfl

variable (m : (ℓ : Loc nD τ sig) → Buf (Elt Ideal) ℓ) (ρ : Dev nD → PrngReg)

/-! ## At the second region's exit -/

theorem B6_v1 (c : Dev nD) : W6 (F := Ideal) m ρ c (Proc.devRef .tc main_v1) = val_main_v1 (F := Ideal) (m ((c.tc : Thread nD τ).loc main_arg1)) :=
  (W6_of_ne m ρ c main_v1 (by decide)).trans (B5_v1 m ρ c)
theorem B6_v3 (c : Dev nD) : W6 (F := Ideal) m ρ c (Proc.devRef .tc main_v3) = val_main_v3 (F := Ideal) (m ((c.tc : Thread nD τ).loc main_arg1)) :=
  (W6_of_ne m ρ c main_v3 (by decide)).trans (B5_v3 m ρ c)
theorem B6_v13 (c : Dev nD) : W6 (F := Ideal) m ρ c (Proc.devRef .tc main_v13) = val_main_v13 (F := Ideal) (m ((c.tc : Thread nD τ).loc main_arg1)) (m ((c.tc : Thread nD τ).loc main_arg2)) :=
  (W6_of_ne m ρ c main_v13 (by decide)).trans (B5_v13 m ρ c)
theorem B6_v29 (c : Dev nD) : W6 (F := Ideal) m ρ c (Proc.devRef .tc main_v29) = val_main_v29 (F := Ideal) (m ((c.tc : Thread nD τ).loc main_arg1)) (m ((c.tc : Thread nD τ).loc main_arg2)) :=
  (W6_of_ne m ρ c main_v29 (by decide)).trans (B5_v29 m ρ c)
theorem B6_arg3 (c : Dev nD) : W6 (F := Ideal) m ρ c (Proc.devRef .tc main_arg3) = (m ((c.tc : Thread nD τ).loc main_arg3)) :=
  (W6_of_ne m ρ c main_arg3 (by decide)).trans (B5_arg3 m ρ c)
theorem B6_arg7 (c : Dev nD) : W6 (F := Ideal) m ρ c (Proc.devRef .tc main_arg7) = (m ((c.tc : Thread nD τ).loc main_arg7)) :=
  (W6_of_ne m ρ c main_arg7 (by decide)).trans (B5_arg7 m ρ c)
theorem B6_arg8 (c : Dev nD) : W6 (F := Ideal) m ρ c (Proc.devRef .tc main_arg8) = (m ((c.tc : Thread nD τ).loc main_arg8)) :=
  (W6_of_ne m ρ c main_arg8 (by decide)).trans (B5_arg8 m ρ c)
theorem B6_arg9 (c : Dev nD) : W6 (F := Ideal) m ρ c (Proc.devRef .tc main_arg9) = (m ((c.tc : Thread nD τ).loc main_arg9)) :=
  (W6_of_ne m ρ c main_arg9 (by decide)).trans (B5_arg9 m ρ c)
theorem B6_arg10 (c : Dev nD) : W6 (F := Ideal) m ρ c (Proc.devRef .tc main_arg10) = (m ((c.tc : Thread nD τ).loc main_arg10)) :=
  (W6_of_ne m ρ c main_arg10 (by decide)).trans (B5_arg10 m ρ c)
theorem B6_arg11 (c : Dev nD) : W6 (F := Ideal) m ρ c (Proc.devRef .tc main_arg11) = (m ((c.tc : Thread nD τ).loc main_arg11)) :=
  (W6_of_ne m ρ c main_arg11 (by decide)).trans (B5_arg11 m ρ c)

/-! ## At the third region's entry -/

/-- The second layer's aggregate. -/
theorem B7_v61 (c : Dev nD) (hx : EdgesNonneg m c) :
    W7 (F := Ideal) m ρ c (Proc.devRef .tc main_v61) = val_main_v101 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  show StableHlo.after hostOps2 (W6 m ρ c) _ = _
  have h1 := B6_v1 m ρ c
  have h3 := B6_v3 m ρ c
  have h29 := B6_v29 m ρ c
  have h47 := B6_v47 m ρ c hx
  generalize W6 (F := Ideal) m ρ c = X at h1 h3 h29 h47 ⊢
  simp only [hostOps2]
  after_results_simp
  rw [h1, h3, h29, h47]
  unfold val_main_v101 val_main_v100 val_main_v94 val_main_v93 val_main_v92 val_main_v91 val_main_v90 val_main_v89 val_main_v88
    val_main_c_21 val_main_v87 val_main_v86 val_main_c_20 val_main_v85 val_main_v84 val_main_cst_19
  rw [Cert.ReferenceIdeal.RefIndex.v99_eq_v3 (edges m c) hx, Cert.ReferenceIdeal.RefIndex.v82_eq_v29]
  rfl

theorem B7_v62 (c : Dev nD) :
    W7 (F := Ideal) m ρ c (Proc.devRef .tc main_v62) = shapeCast S100000x1 (val_main_v13 (F := Ideal) (m ((c.tc : Thread nD τ).loc main_arg1)) (m ((c.tc : Thread nD τ).loc main_arg2))) shapeCasts_S100000_S100000x1 := by
  show StableHlo.after hostOps2 (W6 m ρ c) _ = _
  have h13 := B6_v13 m ρ c
  generalize W6 (F := Ideal) m ρ c = X at h13 ⊢
  simp only [hostOps2]
  after_results_simp
  rw [h13]
  rfl
theorem B7_v63 (c : Dev nD) :
    W7 (F := Ideal) m ρ c (Proc.devRef .tc main_v63) = shapeCast S1x64 (m ((c.tc : Thread nD τ).loc main_arg7)) shapeCasts_S64_S1x64 := by
  show StableHlo.after hostOps2 (W6 m ρ c) _ = _
  have h7 := B6_arg7 m ρ c
  generalize W6 (F := Ideal) m ρ c = X at h7 ⊢
  simp only [hostOps2]
  after_results_simp
  rw [h7]
  rfl
theorem B7_v64 (c : Dev nD) :
    W7 (F := Ideal) m ρ c (Proc.devRef .tc main_v64) = shapeCast S1x1 (m ((c.tc : Thread nD τ).loc main_arg9)) shapeCasts_S1_S1x1 := by
  show StableHlo.after hostOps2 (W6 m ρ c) _ = _
  have h9 := B6_arg9 m ρ c
  generalize W6 (F := Ideal) m ρ c = X at h9 ⊢
  simp only [hostOps2]
  after_results_simp
  rw [h9]
  rfl
theorem B7_v65 (c : Dev nD) :
    W7 (F := Ideal) m ρ c (Proc.devRef .tc main_v65) = shapeCast S100000x1 (m ((c.tc : Thread nD τ).loc main_arg3)) shapeCasts_S100000_S100000x1 := by
  show StableHlo.after hostOps2 (W6 m ρ c) _ = _
  have h3 := B6_arg3 m ρ c
  generalize W6 (F := Ideal) m ρ c = X at h3 ⊢
  simp only [hostOps2]
  after_results_simp
  rw [h3]
  rfl

local macro "stretch2_keeps" : tactic =>
  `(tactic| (show StableHlo.after hostOps2 (W6 m ρ _) _ = W6 m ρ _ _
             generalize W6 (F := Ideal) m ρ _ = X
             simp only [hostOps2]
             after_results_simp))

theorem B7_v47 (c : Dev nD) (hx : EdgesNonneg m c) : W7 (F := Ideal) m ρ c (Proc.devRef .tc main_v47) = val_main_v83 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) :=
  (by stretch2_keeps : W7 (F := Ideal) m ρ c (Proc.devRef .tc main_v47) = W6 m ρ c (Proc.devRef .tc main_v47)).trans (B6_v47 m ρ c hx)
theorem B7_arg3 (c : Dev nD) : W7 (F := Ideal) m ρ c (Proc.devRef .tc main_arg3) = (m ((c.tc : Thread nD τ).loc main_arg3)) :=
  (by stretch2_keeps : W7 (F := Ideal) m ρ c (Proc.devRef .tc main_arg3) = W6 m ρ c (Proc.devRef .tc main_arg3)).trans (B6_arg3 m ρ c)
theorem B7_arg8 (c : Dev nD) : W7 (F := Ideal) m ρ c (Proc.devRef .tc main_arg8) = (m ((c.tc : Thread nD τ).loc main_arg8)) :=
  (by stretch2_keeps : W7 (F := Ideal) m ρ c (Proc.devRef .tc main_arg8) = W6 m ρ c (Proc.devRef .tc main_arg8)).trans (B6_arg8 m ρ c)
theorem B7_arg10 (c : Dev nD) : W7 (F := Ideal) m ρ c (Proc.devRef .tc main_arg10) = (m ((c.tc : Thread nD τ).loc main_arg10)) :=
  (by stretch2_keeps : W7 (F := Ideal) m ρ c (Proc.devRef .tc main_arg10) = W6 m ρ c (Proc.devRef .tc main_arg10)).trans (B6_arg10 m ρ c)
theorem B7_arg11 (c : Dev nD) : W7 (F := Ideal) m ρ c (Proc.devRef .tc main_arg11) = (m ((c.tc : Thread nD τ).loc main_arg11)) :=
  (by stretch2_keeps : W7 (F := Ideal) m ρ c (Proc.devRef .tc main_arg11) = W6 m ρ c (Proc.devRef .tc main_arg11)).trans (B6_arg11 m ρ c)

/-! ## The third region -/

/-- The second layer's value at a node and a feature, over the third region's entry arrays, is the reference's. -/
theorem layerD_eq_ref (c : Dev nD) (hx : EdgesNonneg m c) (r : Fin 100000) (k : Fin 64) :
    layerD (V7 (F := Ideal) m ρ) c r k = val_main_v110 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (ix2 r k) := by
  have e61 : aggArrD (V7 (F := Ideal) m ρ) c = val_main_v101 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := B7_v61 m ρ c hx
  have e47 : xwArrD (V7 (F := Ideal) m ρ) c = val_main_v83 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := B7_v47 m ρ c hx
  have e62 : dArrD (V7 (F := Ideal) m ρ) c = shapeCast S100000x1 (val_main_v13 (F := Ideal) (m ((c.tc : Thread nD τ).loc main_arg1)) (m ((c.tc : Thread nD τ).loc main_arg2))) shapeCasts_S100000_S100000x1 := B7_v62 m ρ c
  have e63 : bArrD (V7 (F := Ideal) m ρ) c = shapeCast S1x64 (m ((c.tc : Thread nD τ).loc main_arg7)) shapeCasts_S64_S1x64 := B7_v63 m ρ c
  show max ((aggArrD (V7 m ρ) c (ix2 r k) + (dArrD (V7 m ρ) c (ix2 r (0 : Fin 1)) * dArrD (V7 m ρ) c (ix2 r (0 : Fin 1))) * xwArrD (V7 m ρ) c (ix2 r k))
      + bArrD (V7 m ρ) c (ix2 (0 : Fin 1) k)) (Ideal.ofBits .f32 0x00000000#32) = _
  rw [e61, e47, e62, e63, Cert.ReferenceIdeal.RefIndex.ref_v110_apply, Cert.ReferenceIdeal.RefIndex.v66_eq_v13, Cert.LibLayout2.shapeCast_a_a1_apply, shapeCast_n_1n_apply]

/-- The same value under the logits module's names. -/
theorem h2C_eq_ref (c : Dev nD) (hx : EdgesNonneg m c) (r : Fin 100000) (k : Fin 64) :
    h2C (V7 (F := Ideal) m ρ) c r k = val_main_v110 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (ix2 r k) :=
  layerD_eq_ref m ρ c hx r k

/-- Region 2's second output array: the per-graph sums. -/
theorem B8_v66_1 (c : Dev nD) (hx : EdgesNonneg m c) :
    W8 (F := Ideal) m ρ c (Proc.devRef .tc main_v66_1) = val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W8_arr m ρ c 8).trans ?_
  have hS : ((dat2 (F := Ideal) (V7 m ρ) c).arrAt 8 cfg2.N : Vec Ideal S64x64 .f32)
      = val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
    funext i
    obtain ⟨g, k, rfl⟩ : ∃ (g : Fin 64) (k : Fin 64), i = ix2 g k := ⟨i 0, i 1, eq_ix2 i⟩
    rw [region2_sums_apply, Cert.ReferenceIdeal.RefIndex.ref_v118_apply]
    have e65 : batchArrD (V7 (F := Ideal) m ρ) c = shapeCast S100000x1 (m ((c.tc : Thread nD τ).loc main_arg3)) shapeCasts_S100000_S100000x1 := B7_v65 m ρ c
    refine congrArg _ (Finset.sum_congr rfl fun r _ => ?_)
    rw [e65, Cert.LibLayout2.shapeCast_a_a1_apply, layerD_eq_ref m ρ c hx r k]
  exact hS

/-- Region 2's first output array, entry (a, 0): the logit of node a. -/
theorem B8_v66_0 (c : Dev nD) (hx : EdgesNonneg m c) (a : Fin 100000) :
    (W8 (F := Ideal) m ρ c (Proc.devRef .tc main_v66_0) : Vec Ideal S100000x1 .f32) (ix2 a 0)
      = (∑ k : Fin 64, val_main_v110 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (ix2 a k) * (m ((c.tc : Thread nD τ).loc main_arg8)) (ix2 k 0)) + (m ((c.tc : Thread nD τ).loc main_arg9)) (ix1 0) := by
  rw [show (W8 (F := Ideal) m ρ c (Proc.devRef .tc main_v66_0) : Vec Ideal S100000x1 .f32) = (dat2 (F := Ideal) (V7 m ρ) c).arrAt 7 cfg2.N
    from W8_arr m ρ c 7]
  rw [region2_logits_apply]
  have e8 : awarrC (V7 (F := Ideal) m ρ) c = (m ((c.tc : Thread nD τ).loc main_arg8)) := B7_arg8 m ρ c
  have e64 : abarrC (V7 (F := Ideal) m ρ) c = shapeCast S1x1 (m ((c.tc : Thread nD τ).loc main_arg9)) shapeCasts_S1_S1x1 := B7_v64 m ρ c
  rw [e8, e64, shapeCast_n_1n_apply]
  have hsum : (∑ k : Fin 64, h2C (V7 (F := Ideal) m ρ) c a k * (m ((c.tc : Thread nD τ).loc main_arg8)) (ix2 k 0))
      = ∑ k : Fin 64, val_main_v110 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (ix2 a k) * (m ((c.tc : Thread nD τ).loc main_arg8)) (ix2 k 0) :=
    Finset.sum_congr rfl fun k _ => by rw [h2C_eq_ref m ρ c hx a k]
  rw [hsum]

theorem B8_arg3 (c : Dev nD) : W8 (F := Ideal) m ρ c (Proc.devRef .tc main_arg3) = (m ((c.tc : Thread nD τ).loc main_arg3)) :=
  (W8_of_ne m ρ c main_arg3 (by decide)).trans (B7_arg3 m ρ c)
theorem B8_arg10 (c : Dev nD) : W8 (F := Ideal) m ρ c (Proc.devRef .tc main_arg10) = (m ((c.tc : Thread nD τ).loc main_arg10)) :=
  (W8_of_ne m ρ c main_arg10 (by decide)).trans (B7_arg10 m ρ c)
theorem B8_arg11 (c : Dev nD) : W8 (F := Ideal) m ρ c (Proc.devRef .tc main_arg11) = (m ((c.tc : Thread nD τ).loc main_arg11)) :=
  (W8_of_ne m ρ c main_arg11 (by decide)).trans (B7_arg11 m ρ c)

/-! ## The results -/

/-- The first result: the logits, the column recast as a vector. -/
theorem B9_v67 (c : Dev nD) (hx : EdgesNonneg m c) :
    W9 (F := Ideal) m ρ c (Proc.devRef .tc main_v67)
      = val_main_v115 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have hW : W9 (F := Ideal) m ρ c (Proc.devRef .tc main_v67)
      = shapeCast S100000 (W8 (F := Ideal) m ρ c (Proc.devRef .tc main_v66_0) : Vec Ideal S100000x1 .f32) shapeCasts_S100000x1_S100000 := by
    show StableHlo.after hostOps3 (W8 m ρ c) _ = _
    generalize W8 (F := Ideal) m ρ c = X
    simp only [hostOps3]
    after_results_simp
    rfl
  rw [hW]
  funext i
  obtain ⟨a, rfl⟩ : ∃ a : Fin 100000, i = ix1 a := ⟨i 0, eq_ix1 i⟩
  rw [shapeCast_a1_a_apply, B8_v66_0 m ρ c hx a, Cert.ReferenceIdeal.RefIndex.ref_v115_apply]

/-- The second result: the value head over the per-graph means. -/
theorem B9_v80 (c : Dev nD) (hx : EdgesNonneg m c) :
    W9 (F := Ideal) m ρ c (Proc.devRef .tc main_v80)
      = val_main_v131 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) := by
  show StableHlo.after hostOps3 (W8 m ρ c) _ = _
  have h661 := B8_v66_1 m ρ c hx
  have h3 := B8_arg3 m ρ c
  have h10 := B8_arg10 m ρ c
  have h11 := B8_arg11 m ρ c
  generalize W8 (F := Ideal) m ρ c = X at h661 h3 h10 h11 ⊢
  simp only [hostOps3]
  after_results_simp
  rw [h661, h3, h10, h11]
  unfold val_main_v131 val_main_v130 val_main_v129 val_main_v128 val_main_v127 val_main_v126 val_main_v125 val_main_v124
    val_main_v123 val_main_cst_27 val_main_v122 val_main_v121 val_main_v120 val_main_cst_26 val_main_v119 val_main_cst_25
  refine congrArg₂ addf (congrArg₂ (Host.dotGeneral _ none) (congrArg₂ Host.divf rfl (congrArg (broadcastInDim _ _ _) ?_)) rfl) rfl
  exact shapeCast_col_eq_bcast _ _ _

end Cert.KernelIdeal.Val

end
-- ==== Proof.lean ====
/-
  The kernel program and its reference compute the same two results on the extended reals.

  The program is a two-layer graph convolution with an actor head per node and a value head over per-graph means.
  Per layer: `h ↦ relu (A h W + dis² ⊙ (h W) + b)`, where `A` adds to every edge's target the source's row scaled by
  `norm = dis[src] · |w| · dis[dst]` and `dis = (1 + Σ |w| into the node)^(-1/2)`.  The kernel keeps the sparse steps
  (degree, `norm`, the gather and scatter-add over the edges, the node counts) on the host, written as the reference
  writes them, and runs the dense steps in three pallas_calls: `x · W1`; `relu (agg + dis² · xw + b1) · W2`; and
  `relu (agg + dis² · xw + b2)` followed by the actor head and, accumulated over the grid, the per-graph sums as a
  product with the one-hot matrix of the graph numbers.  On the extended reals a change of float format is the
  identity and a sum does not depend on its grouping, so each region's array is the reference's stage of the same
  meaning (Region0 / Region1 / Region2Logits / Region2Sums read the regions' arrays; HostA / HostB / HostC follow the
  host stretches between them).  One difference is not of that kind: the reference scatters the messages through
  edge targets re-based the numpy way, the kernel through the targets as given, which drops a negative target.
  The precondition states that the edge table holds node indices, `0 ≤ edge_index < 100000`; under it the re-based
  targets are the targets.  The ideal pass rewrote nothing, so `preserves` is trivial; the frames are the generated
  ones, the reference's its generated run with the results dropped.
-/
import proofs.«412444_j18734647345319_3_alg».proof.Defs
import proofs.«412444_j18734647345319_3_alg».proof.Proof.Gen.Kernel
import proofs.«412444_j18734647345319_3_alg».proof.Proof.Gen.Kernel.Skeleton
import proofs.«412444_j18734647345319_3_alg».proof.Proof.Gen.Kernel.Launch
import proofs.«412444_j18734647345319_3_alg».proof.Proof.Gen.Kernel.Points
import proofs.«412444_j18734647345319_3_alg».proof.Proof.Gen.Kernel.Frame
import proofs.«412444_j18734647345319_3_alg».proof.Proof.Gen.KernelIdeal
import proofs.«412444_j18734647345319_3_alg».proof.Proof.Gen.KernelIdeal.Skeleton
import proofs.«412444_j18734647345319_3_alg».proof.Proof.Gen.KernelIdeal.Launch
import proofs.«412444_j18734647345319_3_alg».proof.Proof.Gen.KernelIdeal.Points
import proofs.«412444_j18734647345319_3_alg».proof.Proof.Gen.KernelIdeal.Frame
import proofs.«412444_j18734647345319_3_alg».proof.Proof.Gen.ReferenceIdeal
import proofs.«412444_j18734647345319_3_alg».proof.Proof.Gen.Pre_finite_inputs
import proofs.«412444_j18734647345319_3_alg».proof.Proof.Gen.ReferenceIdeal.Run
import proofs.«412444_j18734647345319_3_alg».proof.Proof.Gen.ReferenceIdeal.Read
import proofs.«412444_j18734647345319_3_alg».proof.Proof.KRun
import proofs.«412444_j18734647345319_3_alg».proof.Proof.PreDecode
import proofs.«412444_j18734647345319_3_alg».proof.Proof.HostC
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The ledger is empty: nothing was rewritten. -/
theorem preserves : Cert.preserves_Kernel_KernelIdeal := trivial

/-- Under the precondition every entry of the edge table is non-negative. -/
theorem edges_nonneg (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Val.EdgesNonneg m c :=
  Cert.KernelIdeal.PreDecode.edge_nonneg (F := Ideal) _ _ _ _ _ _ _ _ _ _ _ _ (hpre c)

/-- Both programs end with the logits at the reference's stage `v115` and the values at its stage `v131` of the
    (agreeing) arguments. -/
theorem algebraic : Cert.algebraic_KernelIdeal_ReferenceIdeal := by
  intro m ρ m' ρ' hpre hagree
  refine ⟨fun c => Cert.ReferenceIdeal.Read.val_main_v115 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v131 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Val.B9_v67 m ρ c (edges_nonneg m hpre c)),
        (h c).2.1.trans (Cert.KernelIdeal.Val.B9_v80 m ρ c (edges_nonneg m hpre c)), (h c).2.2⟩)
      (Cert.KernelIdeal.Gen.run_results (F := Ideal) m ρ)
  · refine (θ_run Cert.ReferenceIdeal.defs _ _).mono (fun _ h c => ?_) (Cert.ReferenceIdeal.Value.run (F := Ideal) m' ρ')
    obtain ⟨h0, h1, h2, h3, h4, h5, h6, h7, h8, h9, h10, h11⟩ := hagree c
    refine ⟨(h c).1.trans ?_, (h c).2.1.trans ?_, (h c).2.2⟩
    · rw [Cert.ReferenceIdeal.Read.val_main_v115_eq, h0, h1, h2, h4, h5, h6, h7, h8, h9]
    · rw [Cert.ReferenceIdeal.Read.val_main_v131_eq, h0, h1, h2, h3, h4, h5, h6, h7, h10, h11]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
